-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v46)) (v1 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_v48) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S5000 : Shape := ⟨1, ![5000]⟩
abbrev S5000000 : Shape := ⟨1, ![5000000]⟩
abbrev S_ : Shape := ⟨0, ![]⟩

class Facts : Prop where
  bcast_S_S5000 : S_.BroadcastsInDim S5000 (![] : Fin 0 → Fin S5000.rank)
  reducesTo_S5000_S_d0 : S5000.ReducesTo [0] S_
  h_S_ : 0 < S_.numel
  bcast_S_S5000000 : S_.BroadcastsInDim S5000000 (![] : Fin 0 → Fin S5000000.rank)
  reducesTo_S5000000_S_d0 : S5000000.ReducesTo [0] S_

variable [Facts]

def fn_part1 {F : FTy → Type} [FloatOps F] (main_arg3 : IVec S5000000 32) (main_v10 : IVec S_ 1) (main_v15 : IVec S5000000 1) (main_c_5 : IVec S_ 1) : IVec S_ 1 :=
  let main_v16 : IVec S_ 1 := (fun x v => Host.reduce IntOp.andi x v reducesTo_S5000000_S_d0 h_S_) main_v15 main_c_5
  let main_v17 : IVec S_ 1 := andi main_v10 main_v16
  let main_c_6 : IVec S_ 32 := constantI S_ 32 0#32
  let main_v18 : IVec S5000000 32 := broadcastInDim S5000000 ![] bcast_S_S5000000 main_c_6
  let main_v19 : IVec S5000000 1 := cmpi .sge main_arg3 main_v18
  let main_c_7 : IVec S_ 32 := constantI S_ 32 16#32
  let main_v20 : IVec S5000000 32 := broadcastInDim S5000000 ![] bcast_S_S5000000 main_c_7
  let main_v21 : IVec S5000000 1 := cmpi .slt main_arg3 main_v20
  let main_v22 : IVec S5000000 1 := andi main_v19 main_v21
  let main_c_8 : IVec S_ 1 := constantI S_ 1 1#1
  let main_v23 : IVec S_ 1 := (fun x v => Host.reduce IntOp.andi x v reducesTo_S5000000_S_d0 h_S_) main_v22 main_c_8
  let main_v24 : IVec S_ 1 := andi main_v17 main_v23
  main_v24

def fn {F : FTy → Type} [FloatOps F] (main_arg0 : FVec F S5000 .f32) (main_arg1 : IVec S5000000 32) (main_arg2 : IVec S5000000 32) (main_arg3 : IVec S5000000 32) : IVec S_ 1 :=
  let main_v0 : FVec F S5000 .f32 := Host.absf main_arg0
  let main_cst : FVec F S_ .f32 := constant S_ .f32 0x7F800000#32
  let main_v1 : FVec F S5000 .f32 := broadcastInDim S5000 ![] bcast_S_S5000 main_cst
  let main_v2 : IVec S5000 1 := cmpf .olt main_v0 main_v1
  let main_c : IVec S_ 1 := constantI S_ 1 1#1
  let main_v3 : IVec S_ 1 := (fun x v => Host.reduce IntOp.andi x v reducesTo_S5000_S_d0 h_S_) main_v2 main_c
  let main_c_0 : IVec S_ 32 := constantI S_ 32 0#32
  let main_v4 : IVec S5000000 32 := broadcastInDim S5000000 ![] bcast_S_S5000000 main_c_0
  let main_v5 : IVec S5000000 1 := cmpi .sge main_arg1 main_v4
  let main_c_1 : IVec S_ 32 := constantI S_ 32 500000#32
  let main_v6 : IVec S5000000 32 := broadcastInDim S5000000 ![] bcast_S_S5000000 main_c_1
  let main_v7 : IVec S5000000 1 := cmpi .slt main_arg1 main_v6
  let main_v8 : IVec S5000000 1 := andi main_v5 main_v7
  let main_c_2 : IVec S_ 1 := constantI S_ 1 1#1
  let main_v9 : IVec S_ 1 := (fun x v => Host.reduce IntOp.andi x v reducesTo_S5000000_S_d0 h_S_) main_v8 main_c_2
  let main_v10 : IVec S_ 1 := andi main_v3 main_v9
  let main_c_3 : IVec S_ 32 := constantI S_ 32 0#32
  let main_v11 : IVec S5000000 32 := broadcastInDim S5000000 ![] bcast_S_S5000000 main_c_3
  let main_v12 : IVec S5000000 1 := cmpi .sge main_arg2 main_v11
  let main_c_4 : IVec S_ 32 := constantI S_ 32 5000#32
  let main_v13 : IVec S5000000 32 := broadcastInDim S5000000 ![] bcast_S_S5000000 main_c_4
  let main_v14 : IVec S5000000 1 := cmpi .slt main_arg2 main_v13
  let main_v15 : IVec S5000000 1 := andi main_v12 main_v14
  let main_c_5 : IVec S_ 1 := constantI S_ 1 1#1
  fn_part1 (F := F) main_arg3 main_v10 main_v15 main_c_5
-- ==== Kernel.lean ====
abbrev S5000 : Shape := ⟨1, ![5000]⟩
abbrev S5000000 : Shape := ⟨1, ![5000000]⟩
abbrev S_ : Shape := ⟨0, ![]⟩
abbrev S5000x1 : Shape := ⟨2, ![5000, 1]⟩
abbrev S5000x2 : Shape := ⟨2, ![5000, 2]⟩
abbrev S5001216 : Shape := ⟨1, ![5001216]⟩
abbrev S5001216x2 : Shape := ⟨2, ![5001216, 2]⟩
abbrev S2048 : Shape := ⟨1, ![2048]⟩
abbrev S2048x2 : Shape := ⟨2, ![2048, 2]⟩
abbrev S1000x2 : Shape := ⟨2, ![1000, 2]⟩
abbrev S2048x1000 : Shape := ⟨2, ![2048, 1000]⟩
abbrev S2048x1 : Shape := ⟨2, ![2048, 1]⟩
abbrev S5000000x2 : Shape := ⟨2, ![5000000, 2]⟩
abbrev S5000000x1 : Shape := ⟨2, ![5000000, 1]⟩
abbrev S500000 : Shape := ⟨1, ![500000]⟩
abbrev S8000000 : Shape := ⟨1, ![8000000]⟩
abbrev S500000x16 : Shape := ⟨2, ![500000, 16]⟩
abbrev S500000x1 : Shape := ⟨2, ![500000, 1]⟩
abbrev S500000x17 : Shape := ⟨2, ![500000, 17]⟩
abbrev S503808x17 : Shape := ⟨2, ![503808, 17]⟩
abbrev S4096x17 : Shape := ⟨2, ![4096, 17]⟩
abbrev S4096x16 : Shape := ⟨2, ![4096, 16]⟩
abbrev S4096x1 : Shape := ⟨2, ![4096, 1]⟩
abbrev S4096 : Shape := ⟨1, ![4096]⟩

abbrev nBuf : Space → Nat
  | .hbm => 66
  | .vmem => 9
  | .smem => 0
  | _ => 0

abbrev bufTy : (tb : Table) → Fin (tcTables nBuf tb) → BufTy
  | .hbm, ⟨0, _⟩ => ⟨S5000, .f32⟩
  | .hbm, ⟨1, _⟩ => ⟨S5000000, .i32⟩
  | .hbm, ⟨2, _⟩ => ⟨S5000000, .i32⟩
  | .hbm, ⟨3, _⟩ => ⟨S5000000, .i32⟩
  | .hbm, ⟨4, _⟩ => ⟨S5000, .f32⟩
  | .hbm, ⟨5, _⟩ => ⟨S5000, .f32⟩
  | .hbm, ⟨6, _⟩ => ⟨S_, .f32⟩
  | .hbm, ⟨7, _⟩ => ⟨S5000, .f32⟩
  | .hbm, ⟨8, _⟩ => ⟨S5000, .f32⟩
  | .hbm, ⟨9, _⟩ => ⟨S_, .f32⟩
  | .hbm, ⟨10, _⟩ => ⟨S5000, .f32⟩
  | .hbm, ⟨11, _⟩ => ⟨S5000, .f32⟩
  | .hbm, ⟨12, _⟩ => ⟨S5000, .f32⟩
  | .hbm, ⟨13, _⟩ => ⟨S5000, .f32⟩
  | .hbm, ⟨14, _⟩ => ⟨S5000, .f32⟩
  | .hbm, ⟨15, _⟩ => ⟨S_, .f32⟩
  | .hbm, ⟨16, _⟩ => ⟨S5000, .f32⟩
  | .hbm, ⟨17, _⟩ => ⟨S5000, .f32⟩
  | .hbm, ⟨18, _⟩ => ⟨S_, .f32⟩
  | .hbm, ⟨19, _⟩ => ⟨S5000, .f32⟩
  | .hbm, ⟨20, _⟩ => ⟨S5000, .f32⟩
  | .hbm, ⟨21, _⟩ => ⟨S_, .f32⟩
  | .hbm, ⟨22, _⟩ => ⟨S5000, .f32⟩
  | .hbm, ⟨23, _⟩ => ⟨S5000, .f32⟩
  | .hbm, ⟨24, _⟩ => ⟨S5000, .f32⟩
  | .hbm, ⟨25, _⟩ => ⟨S_, .f32⟩
  | .hbm, ⟨26, _⟩ => ⟨S5000, .f32⟩
  | .hbm, ⟨27, _⟩ => ⟨S5000, .f32⟩
  | .hbm, ⟨28, _⟩ => ⟨S5000, .f32⟩
  | .hbm, ⟨29, _⟩ => ⟨S5000, .f32⟩
  | .hbm, ⟨30, _⟩ => ⟨S5000, .f32⟩
  | .hbm, ⟨31, _⟩ => ⟨S5000x1, .f32⟩
  | .hbm, ⟨32, _⟩ => ⟨S5000x1, .f32⟩
  | .hbm, ⟨33, _⟩ => ⟨S5000x2, .f32⟩
  | .hbm, ⟨34, _⟩ => ⟨S_, .i32⟩
  | .hbm, ⟨35, _⟩ => ⟨S_, .i32⟩
  | .hbm, ⟨36, _⟩ => ⟨S5001216, .i32⟩
  | .hbm, ⟨37, _⟩ => ⟨S5001216x2, .f32⟩
  | .hbm, ⟨38, _⟩ => ⟨S5000000x2, .f32⟩
  | .hbm, ⟨39, _⟩ => ⟨S5000000x1, .f32⟩
  | .hbm, ⟨40, _⟩ => ⟨S5000000, .f32⟩
  | .hbm, ⟨41, _⟩ => ⟨S5000000x1, .f32⟩
  | .hbm, ⟨42, _⟩ => ⟨S5000000, .f32⟩
  | .hbm, ⟨43, _⟩ => ⟨S_, .i32⟩
  | .hbm, ⟨44, _⟩ => ⟨S5000000, .i32⟩
  | .hbm, ⟨45, _⟩ => ⟨S5000000, .i32⟩
  | .hbm, ⟨46, _⟩ => ⟨S5000000, .i32⟩
  | .hbm, ⟨47, _⟩ => ⟨S_, .f32⟩
  | .hbm, ⟨48, _⟩ => ⟨S500000, .f32⟩
  | .hbm, ⟨49, _⟩ => ⟨S5000000x1, .i32⟩
  | .hbm, ⟨50, _⟩ => ⟨S500000, .f32⟩
  | .hbm, ⟨51, _⟩ => ⟨S_, .f32⟩
  | .hbm, ⟨52, _⟩ => ⟨S8000000, .f32⟩
  | .hbm, ⟨53, _⟩ => ⟨S5000000x1, .i32⟩
  | .hbm, ⟨54, _⟩ => ⟨S8000000, .f32⟩
  | .hbm, ⟨55, _⟩ => ⟨S500000x16, .f32⟩
  | .hbm, ⟨56, _⟩ => ⟨S500000x1, .f32⟩
  | .hbm, ⟨57, _⟩ => ⟨S500000x17, .f32⟩
  | .hbm, ⟨58, _⟩ => ⟨S_, .i32⟩
  | .hbm, ⟨59, _⟩ => ⟨S_, .f32⟩
  | .hbm, ⟨60, _⟩ => ⟨S503808x17, .f32⟩
  | .hbm, ⟨61, _⟩ => ⟨S503808x17, .f32⟩
  | .hbm, ⟨62, _⟩ => ⟨S500000x17, .f32⟩
  | .hbm, ⟨63, _⟩ => ⟨S500000x16, .f32⟩
  | .hbm, ⟨64, _⟩ => ⟨S500000x1, .f32⟩
  | .hbm, ⟨65, _⟩ => ⟨S500000, .f32⟩
  | .local _ .vmem, ⟨0, _⟩ => ⟨S2048, .i32⟩
  | .local _ .vmem, ⟨1, _⟩ => ⟨S2048, .i32⟩
  | .local _ .vmem, ⟨2, _⟩ => ⟨S5000x2, .f32⟩
  | .local _ .vmem, ⟨3, _⟩ => ⟨S2048x2, .f32⟩
  | .local _ .vmem, ⟨4, _⟩ => ⟨S2048x2, .f32⟩
  | .local _ .vmem, ⟨5, _⟩ => ⟨S4096x17, .f32⟩
  | .local _ .vmem, ⟨6, _⟩ => ⟨S4096x17, .f32⟩
  | .local _ .vmem, ⟨7, _⟩ => ⟨S4096x17, .f32⟩
  | .local _ .vmem, ⟨8, _⟩ => ⟨S4096x17, .f32⟩
  | _, _ => ⟨S5000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c : Ref sig .tc := ⟨.hbm, 34, rfl⟩
abbrev main_call0_v0 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_c_8 : Ref sig .tc := ⟨.hbm, 58, rfl⟩
abbrev main_call1_v0 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8

abbrev nD : Nat := 1
abbrev τ : Topo := Topo.v7x

variable {F : FTy → Type} [FloatOps F]

abbrev grid0 : Pipeline.Grid := ⟨1, ![2442], ![false]⟩

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5000x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![123], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x17 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x17 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  bcast_S_S5000 : S_.BroadcastsInDim S5000 (![] : Fin 0 → Fin S5000.rank)
  bcast_S5000_S5000x1_0 : S5000.BroadcastsInDim S5000x1 (![0] : Fin 1 → Fin S5000x1.rank)
  concatenates_S5000x1_S5000x1_S5000x2_d1 : Shape.Concatenates [S5000x1, S5000x1] S5000x2 1
  pads_S5000000_S5001216_012160 : S5000000.Pads (![0] : Fin 1 → Nat) ![1216] ![0] S5001216
  h_S_ : 0 < S_.numel
  inb_S2048_S2048_0 : ∀ a, (![0] : Fin 1 → Nat) a + S2048.size a ≤ S2048.size a
  h_S2048 : 0 < S2048.numel
  shapeCasts_S2048_S2048 : S2048.ShapeCasts S2048
  inb_S5000x2_S1000x2_0_0 : ∀ a, (![0, 0] : Fin 2 → Nat) a + S1000x2.size a ≤ S5000x2.size a
  h_S1000x2 : 0 < S1000x2.numel
  shapeCasts_S1000x2_S1000x2 : S1000x2.ShapeCasts S1000x2
  iota_S2048x1000_d1_w32 : S2048x1000.Iotas .tc 32 [1]
  shapeCasts_S2048_S2048x1 : S2048.ShapeCasts S2048x1
  broadcasts_S2048x1_S2048x1000 : S2048x1.Broadcasts S2048x1000
  natLt_1_32 : 1 < 32
  bitsLt_bf16_f32 : FTy.bits .bf16 < FTy.bits .f32
  inb_S5000x2_S1000x2_1000_0 : ∀ a, (![1000, 0] : Fin 2 → Nat) a + S1000x2.size a ≤ S5000x2.size a
  inb_S5000x2_S1000x2_2000_0 : ∀ a, (![2000, 0] : Fin 2 → Nat) a + S1000x2.size a ≤ S5000x2.size a
  inb_S5000x2_S1000x2_3000_0 : ∀ a, (![3000, 0] : Fin 2 → Nat) a + S1000x2.size a ≤ S5000x2.size a
  inb_S5000x2_S1000x2_4000_0 : ∀ a, (![4000, 0] : Fin 2 → Nat) a + S1000x2.size a ≤ S5000x2.size a
  inb_S2048x2_S2048x2_0_0 : ∀ a, (![0, 0] : Fin 2 → Nat) a + S2048x2.size a ≤ S2048x2.size a
  h_S2048x2 : 0 < S2048x2.numel
  slices_S5001216x2_S5000000x2_0_0 : S5001216x2.Slices ![0, 0] S5000000x2
  slices_S5000000x2_S5000000x1_0_0 : S5000000x2.Slices ![0, 0] S5000000x1
  shapeCasts_S5000000x1_S5000000 : S5000000x1.ShapeCasts S5000000
  slices_S5000000x2_S5000000x1_0_1 : S5000000x2.Slices ![0, 1] S5000000x1
  bcast_S_S5000000 : S_.BroadcastsInDim S5000000 (![] : Fin 0 → Fin S5000000.rank)
  bcast_S_S500000 : S_.BroadcastsInDim S500000 (![] : Fin 0 → Fin S500000.rank)
  bcast_S5000000_S5000000x1_0 : S5000000.BroadcastsInDim S5000000x1 (![0] : Fin 1 → Fin S5000000x1.rank)
  bcast_S_S8000000 : S_.BroadcastsInDim S8000000 (![] : Fin 0 → Fin S8000000.rank)
  shapeCasts_S8000000_S500000x16 : S8000000.ShapeCasts S500000x16
  bcast_S500000_S500000x1_0 : S500000.BroadcastsInDim S500000x1 (![0] : Fin 1 → Fin S500000x1.rank)
  concatenates_S500000x16_S500000x1_S500000x17_d1 : Shape.Concatenates [S500000x16, S500000x1] S500000x17 1
  pads_S500000x17_S503808x17_038080_000 : S500000x17.Pads (![0, 0] : Fin 2 → Nat) ![3808, 0] ![0, 0] S503808x17
  inb_S4096x17_S4096x17_0_0 : ∀ a, (![0, 0] : Fin 2 → Nat) a + S4096x17.size a ≤ S4096x17.size a
  h_S4096x17 : 0 < S4096x17.numel
  shapeCasts_S4096x17_S4096x17 : S4096x17.ShapeCasts S4096x17
  slices_S4096x17_o0_0_S4096x16 : S4096x17.Slices ![0, 0] S4096x16
  slices_S4096x17_o0_16_S4096x1 : S4096x17.Slices ![0, 16] S4096x1
  reduces_S4096x16_S4096 : S4096x16.Reduces [1] S4096
  shapeCasts_S4096_S4096x1 : S4096.ShapeCasts S4096x1
  broadcasts_S4096x1_S4096x16 : S4096x1.Broadcasts S4096x16
  concatenates_S4096x16_S4096x1_S4096x17_d1 : Shape.Concatenates [S4096x16, S4096x1] S4096x17 1
  slices_S503808x17_S500000x17_0_0 : S503808x17.Slices ![0, 0] S500000x17
  slices_S500000x17_S500000x16_0_0 : S500000x17.Slices ![0, 0] S500000x16
  slices_S500000x17_S500000x1_0_16 : S500000x17.Slices ![0, 16] S500000x1
  shapeCasts_S500000x1_S500000 : S500000x1.ShapeCasts S500000
  dot_S2048x1000_S1000x2_S2048x2_1_0_0_1_n_n_wf : DotDims.WF S2048x1000 S1000x2 S2048x2 [1] [0] [0] [1] [] []
  scatter_S500000_S5000000x1_S5000000_n_0_0_1_wf : ScatterDims.WF S500000 S5000000x1 S5000000 [] [0] [0] 1
  scatter_S8000000_S5000000x1_S5000000_n_0_0_1_wf : ScatterDims.WF S8000000 S5000000x1 S5000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048.size a ≤ S5001216.size a
  hwx0_0 : ∀ i : grid0.Coords, EltTy.bits .i32 = 32 ∨ (Rect.block (s := S5001216) S2048.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5000x2.size a ≤ S5000x2.size a
  hwx0_1 : ∀ i : grid0.Coords, EltTy.bits .f32 = 32 ∨ (Rect.block (s := S5000x2) S5000x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x2.size a ≤ S5001216x2.size a
  hwx0_2 : ∀ i : grid0.Coords, EltTy.bits .f32 = 32 ∨ (Rect.block (s := S5001216x2) S2048x2.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x17.size a ≤ S503808x17.size a
  hwx1_0 : ∀ i : grid1.Coords, EltTy.bits .f32 = 32 ∨ (Rect.block (s := S503808x17) S4096x17.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x17.size a ≤ S503808x17.size a
  hwx1_1 : ∀ i : grid1.Coords, EltTy.bits .f32 = 32 ∨ (Rect.block (s := S503808x17) S4096x17.size (cc1_transform_1 i) (hinb1_1 i)).WholeWords (EltTy.packing .f32)

variable [Facts₀]

def dot_S2048x1000_S1000x2_S2048x2_1_0_0_1_n_n : DotDims S2048x1000 S1000x2 S2048x2 where
  lhsContracting := [1]
  rhsContracting := [0]
  lhsNonContracting := [0]
  rhsNonContracting := [1]
  lhsBatch := []
  rhsBatch := []
  wf := dot_S2048x1000_S1000x2_S2048x2_1_0_0_1_n_n_wf
def scatter_S500000_S5000000x1_S5000000_n_0_0_1 : ScatterDims S500000 S5000000x1 S5000000 where
  updateWindowDims := []
  insertedWindowDims := [0]
  scatterDimsToOperandDims := [0]
  indexVectorDim := 1
  wf := scatter_S500000_S5000000x1_S5000000_n_0_0_1_wf
def scatter_S8000000_S5000000x1_S5000000_n_0_0_1 : ScatterDims S8000000 S5000000x1 S5000000 where
  updateWindowDims := []
  insertedWindowDims := [0]
  scatterDimsToOperandDims := [0]
  indexVectorDim := 1
  wf := scatter_S8000000_S5000000x1_S5000000_n_0_0_1_wf

abbrev win0_0 : Pipeline.Window sig grid0 :=
  Pipeline.Window.ofSpec (Memref.whole main_v24) S2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S5000x2.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v25) S2048x2.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S4096x17.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S4096x17.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S5000 : Shape := ⟨1, ![5000]⟩
abbrev S5000000 : Shape := ⟨1, ![5000000]⟩
abbrev S_ : Shape := ⟨0, ![]⟩
abbrev S16x16 : Shape := ⟨2, ![16, 16]⟩
abbrev S5000x1x1 : Shape := ⟨3, ![5000, 1, 1]⟩
abbrev S1x16x16 : Shape := ⟨3, ![1, 16, 16]⟩
abbrev S5000x16x16 : Shape := ⟨3, ![5000, 16, 16]⟩
abbrev S5000x16 : Shape := ⟨2, ![5000, 16]⟩
abbrev S5000x16x1 : Shape := ⟨3, ![5000, 16, 1]⟩
abbrev S5000000x1 : Shape := ⟨2, ![5000000, 1]⟩
abbrev S5000000x2 : Shape := ⟨2, ![5000000, 2]⟩
abbrev S5000000x16 : Shape := ⟨2, ![5000000, 16]⟩
abbrev S500000x16 : Shape := ⟨2, ![500000, 16]⟩
abbrev S500000 : Shape := ⟨1, ![500000]⟩
abbrev S500000x1 : Shape := ⟨2, ![500000, 1]⟩

abbrev nBuf : Space → Nat
  | .hbm => 95
  | .vmem => 0
  | .smem => 0
  | _ => 0

abbrev bufTy : (tb : Table) → Fin (tcTables nBuf tb) → BufTy
  | .hbm, ⟨0, _⟩ => ⟨S5000, .f32⟩
  | .hbm, ⟨1, _⟩ => ⟨S5000000, .i32⟩
  | .hbm, ⟨2, _⟩ => ⟨S5000000, .i32⟩
  | .hbm, ⟨3, _⟩ => ⟨S5000000, .i32⟩
  | .hbm, ⟨4, _⟩ => ⟨S5000, .f32⟩
  | .hbm, ⟨5, _⟩ => ⟨S5000, .f32⟩
  | .hbm, ⟨6, _⟩ => ⟨S_, .f32⟩
  | .hbm, ⟨7, _⟩ => ⟨S5000, .f32⟩
  | .hbm, ⟨8, _⟩ => ⟨S5000, .f32⟩
  | .hbm, ⟨9, _⟩ => ⟨S_, .f32⟩
  | .hbm, ⟨10, _⟩ => ⟨S5000, .f32⟩
  | .hbm, ⟨11, _⟩ => ⟨S5000, .f32⟩
  | .hbm, ⟨12, _⟩ => ⟨S5000, .f32⟩
  | .hbm, ⟨13, _⟩ => ⟨S5000, .f32⟩
  | .hbm, ⟨14, _⟩ => ⟨S5000, .f32⟩
  | .hbm, ⟨15, _⟩ => ⟨S_, .f32⟩
  | .hbm, ⟨16, _⟩ => ⟨S5000, .f32⟩
  | .hbm, ⟨17, _⟩ => ⟨S5000, .f32⟩
  | .hbm, ⟨18, _⟩ => ⟨S_, .f32⟩
  | .hbm, ⟨19, _⟩ => ⟨S5000, .f32⟩
  | .hbm, ⟨20, _⟩ => ⟨S5000, .f32⟩
  | .hbm, ⟨21, _⟩ => ⟨S16x16, .i32⟩
  | .hbm, ⟨22, _⟩ => ⟨S16x16, .i32⟩
  | .hbm, ⟨23, _⟩ => ⟨S_, .i32⟩
  | .hbm, ⟨24, _⟩ => ⟨S16x16, .i32⟩
  | .hbm, ⟨25, _⟩ => ⟨S16x16, .i32⟩
  | .hbm, ⟨26, _⟩ => ⟨S16x16, .i1⟩
  | .hbm, ⟨27, _⟩ => ⟨S16x16, .f32⟩
  | .hbm, ⟨28, _⟩ => ⟨S_, .f32⟩
  | .hbm, ⟨29, _⟩ => ⟨S16x16, .f32⟩
  | .hbm, ⟨30, _⟩ => ⟨S5000x1x1, .f32⟩
  | .hbm, ⟨31, _⟩ => ⟨S1x16x16, .f32⟩
  | .hbm, ⟨32, _⟩ => ⟨S5000x16x16, .f32⟩
  | .hbm, ⟨33, _⟩ => ⟨S5000x16x16, .f32⟩
  | .hbm, ⟨34, _⟩ => ⟨S5000x16x16, .f32⟩
  | .hbm, ⟨35, _⟩ => ⟨S5000x1x1, .f32⟩
  | .hbm, ⟨36, _⟩ => ⟨S1x16x16, .f32⟩
  | .hbm, ⟨37, _⟩ => ⟨S5000x16x16, .f32⟩
  | .hbm, ⟨38, _⟩ => ⟨S5000x16x16, .f32⟩
  | .hbm, ⟨39, _⟩ => ⟨S5000x16x16, .f32⟩
  | .hbm, ⟨40, _⟩ => ⟨S5000x16x16, .f32⟩
  | .hbm, ⟨41, _⟩ => ⟨S_, .f32⟩
  | .hbm, ⟨42, _⟩ => ⟨S5000x16x16, .f32⟩
  | .hbm, ⟨43, _⟩ => ⟨S5000x16x16, .f32⟩
  | .hbm, ⟨44, _⟩ => ⟨S_, .f32⟩
  | .hbm, ⟨45, _⟩ => ⟨S5000x16, .f32⟩
  | .hbm, ⟨46, _⟩ => ⟨S5000x16x1, .f32⟩
  | .hbm, ⟨47, _⟩ => ⟨S5000x16x16, .f32⟩
  | .hbm, ⟨48, _⟩ => ⟨S5000x16x16, .f32⟩
  | .hbm, ⟨49, _⟩ => ⟨S5000x16x16, .f32⟩
  | .hbm, ⟨50, _⟩ => ⟨S_, .i32⟩
  | .hbm, ⟨51, _⟩ => ⟨S5000000, .i32⟩
  | .hbm, ⟨52, _⟩ => ⟨S5000000, .i1⟩
  | .hbm, ⟨53, _⟩ => ⟨S_, .i32⟩
  | .hbm, ⟨54, _⟩ => ⟨S5000000, .i32⟩
  | .hbm, ⟨55, _⟩ => ⟨S5000000, .i32⟩
  | .hbm, ⟨56, _⟩ => ⟨S5000000, .i32⟩
  | .hbm, ⟨57, _⟩ => ⟨S_, .i32⟩
  | .hbm, ⟨58, _⟩ => ⟨S5000000, .i32⟩
  | .hbm, ⟨59, _⟩ => ⟨S5000000, .i1⟩
  | .hbm, ⟨60, _⟩ => ⟨S_, .i32⟩
  | .hbm, ⟨61, _⟩ => ⟨S5000000, .i32⟩
  | .hbm, ⟨62, _⟩ => ⟨S5000000, .i32⟩
  | .hbm, ⟨63, _⟩ => ⟨S5000000, .i32⟩
  | .hbm, ⟨64, _⟩ => ⟨S5000000x1, .i32⟩
  | .hbm, ⟨65, _⟩ => ⟨S5000000x1, .i32⟩
  | .hbm, ⟨66, _⟩ => ⟨S5000000x2, .i32⟩
  | .hbm, ⟨67, _⟩ => ⟨S5000000x16, .f32⟩
  | .hbm, ⟨68, _⟩ => ⟨S_, .f32⟩
  | .hbm, ⟨69, _⟩ => ⟨S500000x16, .f32⟩
  | .hbm, ⟨70, _⟩ => ⟨S5000000x1, .i32⟩
  | .hbm, ⟨71, _⟩ => ⟨S500000x16, .f32⟩
  | .hbm, ⟨72, _⟩ => ⟨S_, .f32⟩
  | .hbm, ⟨73, _⟩ => ⟨S500000, .f32⟩
  | .hbm, ⟨74, _⟩ => ⟨S_, .f32⟩
  | .hbm, ⟨75, _⟩ => ⟨S500000, .f32⟩
  | .hbm, ⟨76, _⟩ => ⟨S500000, .f32⟩
  | .hbm, ⟨77, _⟩ => ⟨S500000x1, .f32⟩
  | .hbm, ⟨78, _⟩ => ⟨S500000x16, .f32⟩
  | .hbm, ⟨79, _⟩ => ⟨S500000x16, .f32⟩
  | .hbm, ⟨80, _⟩ => ⟨S500000x16, .f32⟩
  | .hbm, ⟨81, _⟩ => ⟨S_, .f32⟩
  | .hbm, ⟨82, _⟩ => ⟨S500000, .f32⟩
  | .hbm, ⟨83, _⟩ => ⟨S500000x1, .f32⟩
  | .hbm, ⟨84, _⟩ => ⟨S500000x1, .f32⟩
  | .hbm, ⟨85, _⟩ => ⟨S500000x16, .f32⟩
  | .hbm, ⟨86, _⟩ => ⟨S500000x16, .f32⟩
  | .hbm, ⟨87, _⟩ => ⟨S500000x16, .f32⟩
  | .hbm, ⟨88, _⟩ => ⟨S500000x16, .f32⟩
  | .hbm, ⟨89, _⟩ => ⟨S_, .f32⟩
  | .hbm, ⟨90, _⟩ => ⟨S500000, .f32⟩
  | .hbm, ⟨91, _⟩ => ⟨S500000x16, .f32⟩
  | .hbm, ⟨92, _⟩ => ⟨S_, .f32⟩
  | .hbm, ⟨93, _⟩ => ⟨S500000, .f32⟩
  | .hbm, ⟨94, _⟩ => ⟨S500000, .f32⟩
  | _, _ => ⟨S5000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_c_6 : Ref sig .tc := ⟨.hbm, 50, rfl⟩
abbrev main_v38 : Ref sig .tc := ⟨.hbm, 51, rfl⟩
abbrev main_v39 : Ref sig .tc := ⟨.hbm, 52, rfl⟩
abbrev main_c_7 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_c_8 : Ref sig .tc := ⟨.hbm, 57, rfl⟩
abbrev main_v43 : Ref sig .tc := ⟨.hbm, 58, rfl⟩
abbrev main_v44 : Ref sig .tc := ⟨.hbm, 59, rfl⟩
abbrev main_c_9 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_10 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_call0_cst : Ref sig .tc := ⟨.hbm, 72, rfl⟩
abbrev main_call0_v0 : Ref sig .tc := ⟨.hbm, 73, rfl⟩
abbrev main_call0_cst_0 : Ref sig .tc := ⟨.hbm, 74, rfl⟩
abbrev main_call0_v1 : Ref sig .tc := ⟨.hbm, 75, rfl⟩
abbrev main_call0_v2 : Ref sig .tc := ⟨.hbm, 76, rfl⟩
abbrev main_call0_v3 : Ref sig .tc := ⟨.hbm, 77, rfl⟩
abbrev main_call0_v4 : Ref sig .tc := ⟨.hbm, 78, rfl⟩
abbrev main_call0_v5 : Ref sig .tc := ⟨.hbm, 79, rfl⟩
abbrev main_call0_v6 : Ref sig .tc := ⟨.hbm, 80, rfl⟩
abbrev main_call0_cst_1 : Ref sig .tc := ⟨.hbm, 81, rfl⟩
abbrev main_call0_v7 : Ref sig .tc := ⟨.hbm, 82, rfl⟩
abbrev main_call0_v8 : Ref sig .tc := ⟨.hbm, 83, rfl⟩
abbrev main_call0_v9 : Ref sig .tc := ⟨.hbm, 84, rfl⟩
abbrev main_call0_v10 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_11 : Ref sig .tc := ⟨.hbm, 89, rfl⟩
abbrev main_v58 : Ref sig .tc := ⟨.hbm, 90, rfl⟩
abbrev main_v59 : Ref sig .tc := ⟨.hbm, 91, rfl⟩
abbrev main_cst_12 : Ref sig .tc := ⟨.hbm, 92, rfl⟩
abbrev main_v60 : Ref sig .tc := ⟨.hbm, 93, rfl⟩
abbrev main_v61 : Ref sig .tc := ⟨.hbm, 94, rfl⟩

abbrev nD : Nat := 1
abbrev τ : Topo := Topo.v7x

variable {F : FTy → Type} [FloatOps F]

class Facts₀ : Prop where
  bcast_S_S5000 : S_.BroadcastsInDim S5000 (![] : Fin 0 → Fin S5000.rank)
  bcast_S_S16x16 : S_.BroadcastsInDim S16x16 (![] : Fin 0 → Fin S16x16.rank)
  bcast_S5000_S5000x1x1_0 : S5000.BroadcastsInDim S5000x1x1 (![0] : Fin 1 → Fin S5000x1x1.rank)
  bcast_S16x16_S1x16x16_1_2 : S16x16.BroadcastsInDim S1x16x16 (![1, 2] : Fin 2 → Fin S1x16x16.rank)
  bcast_S5000x1x1_S5000x16x16_0_1_2 : S5000x1x1.BroadcastsInDim S5000x16x16 (![0, 1, 2] : Fin 3 → Fin S5000x16x16.rank)
  bcast_S1x16x16_S5000x16x16_0_1_2 : S1x16x16.BroadcastsInDim S5000x16x16 (![0, 1, 2] : Fin 3 → Fin S5000x16x16.rank)
  bcast_S_S5000x16x16 : S_.BroadcastsInDim S5000x16x16 (![] : Fin 0 → Fin S5000x16x16.rank)
  reducesTo_S5000x16x16_S5000x16_d2 : S5000x16x16.ReducesTo [2] S5000x16
  h_S_ : 0 < S_.numel
  bcast_S5000x16_S5000x16x1_0_1 : S5000x16.BroadcastsInDim S5000x16x1 (![0, 1] : Fin 2 → Fin S5000x16x1.rank)
  bcast_S5000x16x1_S5000x16x16_0_1_2 : S5000x16x1.BroadcastsInDim S5000x16x16 (![0, 1, 2] : Fin 3 → Fin S5000x16x16.rank)
  bcast_S_S5000000 : S_.BroadcastsInDim S5000000 (![] : Fin 0 → Fin S5000000.rank)
  bcast_S5000000_S5000000x1_0 : S5000000.BroadcastsInDim S5000000x1 (![0] : Fin 1 → Fin S5000000x1.rank)
  concatenates_S5000000x1_S5000000x1_S5000000x2_d1 : Shape.Concatenates [S5000000x1, S5000000x1] S5000000x2 1
  bcast_S_S500000x16 : S_.BroadcastsInDim S500000x16 (![] : Fin 0 → Fin S500000x16.rank)
  reducesTo_S500000x16_S500000_d1 : S500000x16.ReducesTo [1] S500000
  bcast_S_S500000 : S_.BroadcastsInDim S500000 (![] : Fin 0 → Fin S500000.rank)
  bcast_S500000_S500000x1_0 : S500000.BroadcastsInDim S500000x1 (![0] : Fin 1 → Fin S500000x1.rank)
  bcast_S500000x1_S500000x16_0_1 : S500000x1.BroadcastsInDim S500000x16 (![0, 1] : Fin 2 → Fin S500000x16.rank)
  gather_S5000x16x16_S5000000x2_S5000000x16_1_02_n_n_02_1_1161_wf : GatherDims.WF S5000x16x16 S5000000x2 S5000000x16 [1] [0, 2] [] [0, 2] [] 1 ![1, 16, 1]
  scatter_S500000x16_S5000000x1_S5000000x16_1_0_0_1_wf : ScatterDims.WF S500000x16 S5000000x1 S5000000x16 [1] [0] [0] 1

variable [Facts₀]

def gather_S5000x16x16_S5000000x2_S5000000x16_1_02_n_n_02_1_1161 : GatherDims S5000x16x16 S5000000x2 S5000000x16 where
  offsetDims := [1]
  collapsedSliceDims := [0, 2]
  operandBatchingDims := []
  startIndicesBatchingDims := []
  startIndexMap := [0, 2]
  indexVectorDim := 1
  sliceSizes := ![1, 16, 1]
  wf := gather_S5000x16x16_S5000000x2_S5000000x16_1_02_n_n_02_1_1161_wf
def scatter_S500000x16_S5000000x1_S5000000x16_1_0_0_1 : ScatterDims S500000x16 S5000000x1 S5000000x16 where
  updateWindowDims := [1]
  insertedWindowDims := [0]
  scatterDimsToOperandDims := [0]
  indexVectorDim := 1
  wf := scatter_S500000x16_S5000000x1_S5000000x16_1_0_0_1_wf

class Facts : Prop extends Facts₀ where

variable [Facts]
-- ==== Proof.Spec.lean ====
/-
  The two programs' results as formulas, over decoded inputs: the worker scores x (one extended real per worker), and for
  each observation n its task I n, its worker J n and its response class Y n.

  Both programs start from sig = 1 / (1 + exp (-x)) and nsig = 1 / (1 + exp (-(-x))) per worker.
  The reference builds, per worker, the 16 × 16 matrix theta k k' = (sig · [k = k'] + nsig · (1/16)) / 2, normalises each row
  by its sum and takes the logarithm (`logTheta`); an observation contributes row entry (k, Y n) of its worker's matrix to
  task I n, class k (`cll`); the result is the row softmax of cll and the entropy-like value
  Σ qz · cll − Σ qz · log qz.
  The kernel keeps two numbers per worker, base = log (nsig / 16) and diff = log (sig + nsig / 16) − base; sums base over a
  task's observations (`bsum`) and diff over a task's observations of each class (`dsum`); and returns the row softmax of
  dsum and bsum + Σ qz · (dsum − log qz).
-/
import Idealize.ShloMosaic.PureOps.Ideal.Laws
import Idealize.ShloMosaic.Lib.ValueIdx

noncomputable section

open scoped BigOperators
open Idealize.ShloMosaic Idealize.ShloMosaic.ValueIdx

namespace Cert.Spec

/-- The float words the two programs spell, kept as words: the same word on both sides is never evaluated. -/
abbrev c0 : EReal := Ideal.ofBits .f32 0x00000000#32
abbrev c1 : EReal := Ideal.ofBits .f32 0x3F800000#32
abbrev c2 : EReal := Ideal.ofBits .f32 0x40000000#32
abbrev c16 : EReal := Ideal.ofBits .f32 0x41800000#32
abbrev c116 : EReal := Ideal.ofBits .f32 0x3D800000#32
abbrev cNegInf : EReal := Ideal.ofBits .f32 0xFF800000#32

/-- sigmoid (v) and sigmoid (-v) as both programs compute them. -/
def sigE (v : EReal) : EReal := Ideal.div c1 (c1 + Ideal.exp (-v))
def nsigE (v : EReal) : EReal := Ideal.div c1 (c1 + Ideal.exp (-(-v)))

/-! ## The kernel's per-worker pair -/

def baseE (v : EReal) : EReal := Ideal.log (Ideal.div (nsigE v) c16)
def diffE (v : EReal) : EReal := Ideal.log (sigE v + Ideal.div (nsigE v) c16) - baseE v

/-- What the one-hot product gathers from a column of the table: the entry the index word names, zero when the word names
    no row. -/
def gatherE (col : Fin 5000 → EReal) (w : BitVec 32) : EReal := if h : w.toNat < 5000 then col ⟨w.toNat, h⟩ else 0

/-! ## The reference's per-worker matrix -/

def eyeE (k k' : Fin 16) : EReal := if k = k' then 1 else 0
def thetaE (v : EReal) (k k' : Fin 16) : EReal := Ideal.div (sigE v * eyeE k k' + nsigE v * c116) c2
def logThetaE (v : EReal) (k k' : Fin 16) : EReal :=
  Ideal.log (Ideal.div (thetaE v k k') (c0 + ∑ k'' : Fin 16, thetaE v k k''))

/-! ## The row maximum both programs take: a fold of max from the word for −∞ -/

def rowMax (row : Fin 16 → EReal) : EReal := (Finset.univ : Finset (Fin 16)).fold max cNegInf row

/-! ## The kernel's row: softmax of d and the value b + Σ qz · (d − log qz) -/

def shK (d : Fin 16 → EReal) (k : Fin 16) : EReal := d k - rowMax d
def lseK (d : Fin 16 → EReal) : EReal := Ideal.log (∑ k : Fin 16, Ideal.exp (shK d k))
def lqK (d : Fin 16 → EReal) (k : Fin 16) : EReal := shK d k - lseK d
def qzK (d : Fin 16 → EReal) (k : Fin 16) : EReal := Ideal.exp (lqK d k)
def vqK (d : Fin 16 → EReal) (b : EReal) : EReal := b + ∑ k : Fin 16, qzK d k * (d k - lqK d k)

/-! ## The reference's row: log-softmax, its exponential, and Σ qz · row − Σ qz · log qz -/

def mR (row : Fin 16 → EReal) : EReal := max cNegInf (rowMax row)
def shR (row : Fin 16 → EReal) (k : Fin 16) : EReal := row k - mR row
def lseR (row : Fin 16 → EReal) : EReal := Ideal.log (c0 + ∑ k : Fin 16, Ideal.exp (shR row k))
def lsmR (row : Fin 16 → EReal) (k : Fin 16) : EReal := shR row k - lseR row
def qzR (row : Fin 16 → EReal) (k : Fin 16) : EReal := Ideal.exp (lsmR row k)
def vqR (row : Fin 16 → EReal) : EReal :=
  (c0 + ∑ k : Fin 16, qzR row k * row k) - (c0 + ∑ k : Fin 16, qzR row k * lsmR row k)

/-! ## The sums over observations -/

section Sums
variable (x : Fin 5000 → EReal) (I : Fin 5000000 → Fin 500000) (J : Fin 5000000 → Fin 5000) (Y : Fin 5000000 → Fin 16)

/-- The kernel's sum of base over the observations of task i. -/
def bsum (i : Fin 500000) : EReal := c0 + ∑ n ∈ Finset.univ.filter (fun n => I n = i), baseE (x (J n))
/-- The kernel's sum of diff over the observations of task i with class k. -/
def dsum (i : Fin 500000) (k : Fin 16) : EReal :=
  c0 + ∑ n ∈ Finset.univ.filter (fun n => I n = i ∧ Y n = k), diffE (x (J n))
/-- The reference's sum over the observations of task i of entry (k, Y n) of the worker's log matrix. -/
def cll (i : Fin 500000) (k : Fin 16) : EReal :=
  c0 + ∑ n ∈ Finset.univ.filter (fun n => I n = i), logThetaE (x (J n)) k (Y n)

/-- The kernel's two results. -/
def kernelQ (i : Fin 500000) (k : Fin 16) : EReal := qzK (dsum x I J Y i) k
def kernelV (i : Fin 500000) : EReal := vqK (dsum x I J Y i) (bsum x I J i)
/-- The reference's two results. -/
def refQ (i : Fin 500000) (k : Fin 16) : EReal := qzR (cll x I J Y i) k
def refV (i : Fin 500000) : EReal := vqR (cll x I J Y i)
end Sums

end Cert.Spec

end
-- ==== Proof.KStageDefs.lean ====
/-
  Names for the arrays the kernel program's value is read through, at the ideal values, on core c: the four argument arrays as
  launched; the per-worker table [5000, 2] and the padded worker indices [5001216] as the first region finds them; the gathered
  pairs [5001216, 2] the first region leaves; the padded [503808, 17] array of the per-task sums the second region finds; what the
  second region leaves; and the two results at the end of @main.
-/
import proofs.«115153_j22256520528420_1_alg».proof.Proof.Gen.KernelIdeal.Frame
import proofs.«115153_j22256520528420_1_alg».proof.Proof.Spec
import Idealize.ShloMosaic.Lib.ValueIdx

noncomputable section

open scoped BigOperators
open Idealize.ShloMosaic Idealize.ShloMosaic.TcCoe Idealize.SL.Sem Idealize.ShloMosaic.ValueIdx
open Cert.KernelIdeal Cert.KernelIdeal.Gen

namespace Cert.KernelIdeal.Stage

variable (m : (ℓ : Loc nD τ sig) → Buf (Elt Ideal) ℓ) (ρ : Dev nD → PrngReg)

abbrev xArg (c : Dev nD) : S5000.Idx → EReal := m ((c.tc : Thread nD τ).loc main_arg0)
abbrev iiArg (c : Dev nD) : S5000000.Idx → BitVec 32 := m ((c.tc : Thread nD τ).loc main_arg1)
abbrev jjArg (c : Dev nD) : S5000000.Idx → BitVec 32 := m ((c.tc : Thread nD τ).loc main_arg2)
abbrev yArg (c : Dev nD) : S5000000.Idx → BitVec 32 := m ((c.tc : Thread nD τ).loc main_arg3)

abbrev tabArr (c : Dev nD) : S5000x2.Idx → EReal := V2 m ρ c main_v23
abbrev jjpArr (c : Dev nD) : S5001216.Idx → BitVec 32 := V2 m ρ c main_v24
abbrev bdArr (c : Dev nD) : S5001216x2.Idx → EReal := V3 m ρ c main_v25
abbrev dbArr (c : Dev nD) : S503808x17.Idx → EReal := V5 m ρ c main_v43
abbrev outArr (c : Dev nD) : S503808x17.Idx → EReal := V6 m ρ c main_v44
abbrev qArr (c : Dev nD) : S500000x16.Idx → EReal := W7 m ρ c (Proc.devRef .tc main_v46)
abbrev vArr (c : Dev nD) : S500000.Idx → EReal := W7 m ρ c (Proc.devRef .tc main_v48)

end Cert.KernelIdeal.Stage

end
-- ==== Proof.KHost0.lean ====
/-
  The host operations before the first region: the per-worker table has base = log (nsig / 16) in column 0 and
  diff = log (sig + nsig / 16) − base in column 1, and the worker indices are padded with the word 5000 up to 5001216 entries.
-/
import proofs.«115153_j22256520528420_1_alg».proof.Proof.KStageDefs
import Idealize.ShloMosaic.Lib.Pipeline.Value
import Idealize.ShloMosaic.Lib.KernelVsHost

noncomputable section

open scoped BigOperators
open Idealize.ShloMosaic Idealize.ShloMosaic.TcCoe Idealize.SL.Sem Idealize.ShloMosaic.ValueIdx
open Cert.KernelIdeal Cert.KernelIdeal.Gen

namespace Cert.KernelIdeal.Stage

variable (m : (ℓ : Loc nD τ sig) → Buf (Elt Ideal) ℓ) (ρ : Dev nD → PrngReg)

/-! ## The host chain as functions of the score vector -/

/-- The scalar word broadcast to one entry per worker. -/
private def splat (b : BitVec 32) : S5000.Idx → EReal :=
  broadcastInDim S5000 ![] bcast_S_S5000 (constant (F := Ideal) S_ .f32 b)

private theorem splat_apply (b : BitVec 32) (i : S5000.Idx) : splat b i = Ideal.ofBits .f32 b :=
  broadcastInDim_apply _ bcast_S_S5000 (constant (F := Ideal) S_ .f32 b) i ix0 (fun a => a.elim0)

/-- 1 / (1 + exp (-x)) per worker. -/
private def sigVec (x : S5000.Idx → EReal) : S5000.Idx → EReal :=
  Host.divf (F := Ideal) (s := S5000) (φ := .f32) (splat 0x3F800000#32)
    (addf (F := Ideal) (s := S5000) (φ := .f32) (splat 0x3F800000#32) (Host.exp (F := Ideal) (s := S5000) (φ := .f32) (Host.negf (F := Ideal) (s := S5000) (φ := .f32) x)))

/-- 1 / (1 + exp (-(-x))) per worker. -/
private def nsigVec (x : S5000.Idx → EReal) : S5000.Idx → EReal :=
  Host.divf (F := Ideal) (s := S5000) (φ := .f32) (splat 0x3F800000#32)
    (addf (F := Ideal) (s := S5000) (φ := .f32) (splat 0x3F800000#32)
      (Host.exp (F := Ideal) (s := S5000) (φ := .f32) (Host.negf (F := Ideal) (s := S5000) (φ := .f32) (Host.negf (F := Ideal) (s := S5000) (φ := .f32) x))))

/-- log (nsig / 16) per worker. -/
private def baseVec (x : S5000.Idx → EReal) : S5000.Idx → EReal :=
  Host.log (F := Ideal) (s := S5000) (φ := .f32) (Host.divf (F := Ideal) (s := S5000) (φ := .f32) (nsigVec x) (splat 0x41800000#32))

/-- log (sig + nsig / 16) − base per worker. -/
private def diffVec (x : S5000.Idx → EReal) : S5000.Idx → EReal :=
  subf (F := Ideal) (s := S5000) (φ := .f32)
    (Host.log (F := Ideal) (s := S5000) (φ := .f32)
      (addf (F := Ideal) (s := S5000) (φ := .f32) (sigVec x) (Host.divf (F := Ideal) (s := S5000) (φ := .f32) (nsigVec x) (splat 0x41800000#32))))
    (baseVec x)

/-- The table: the two vectors as the two columns. -/
private def tabOf (x : S5000.Idx → EReal) : S5000x2.Idx → EReal :=
  concatenate S5000x2 1
    [⟨S5000x1, broadcastInDim S5000x1 ![0] bcast_S5000_S5000x1_0 (baseVec x)⟩,
     ⟨S5000x1, broadcastInDim S5000x1 ![0] bcast_S5000_S5000x1_0 (diffVec x)⟩]
    concatenates_S5000x1_S5000x1_S5000x2_d1

/-- The padding call writes only the padded indices: the table is as the host chain left it. -/
private theorem tab_peel (c : Dev nD) :
    tabArr m ρ c = W1 m ρ c (Proc.devRef .tc main_v23) := by
  show W2 m ρ c (Proc.devRef .tc main_v23) = _
  exact StableHlo.after_of_forall_not_mem (b := Proc.devRef .tc main_v23) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The table the first region finds is the two per-worker vectors of the host chain, laid side by side. -/
theorem tabArr_eq (c : Dev nD) : (tabArr m ρ c : S5000x2.Idx → EReal) = tabOf (xArg m c) := by
  rw [tab_peel]
  show StableHlo.after hostOps0 (W0 m ρ c) (Proc.devRef .tc main_v23) = _
  after_results_simp
  rfl

/-! ## The chain at one worker -/

private theorem sigVec_apply (x : S5000.Idx → EReal) (i : S5000.Idx) : sigVec x i = Spec.sigE (x i) := by
  show Ideal.div (splat 0x3F800000#32 i) (splat 0x3F800000#32 i + Ideal.exp (-(x i))) = _
  rw [splat_apply]; rfl

private theorem nsigVec_apply (x : S5000.Idx → EReal) (i : S5000.Idx) : nsigVec x i = Spec.nsigE (x i) := by
  show Ideal.div (splat 0x3F800000#32 i) (splat 0x3F800000#32 i + Ideal.exp (-(-(x i)))) = _
  rw [splat_apply]; rfl

private theorem baseVec_apply (x : S5000.Idx → EReal) (i : S5000.Idx) : baseVec x i = Spec.baseE (x i) := by
  show Ideal.log (Ideal.div (nsigVec x i) (splat 0x41800000#32 i)) = _
  rw [nsigVec_apply, splat_apply]; rfl

private theorem diffVec_apply (x : S5000.Idx → EReal) (i : S5000.Idx) : diffVec x i = Spec.diffE (x i) := by
  show Ideal.log (sigVec x i + Ideal.div (nsigVec x i) (splat 0x41800000#32 i)) - baseVec x i = _
  rw [sigVec_apply, nsigVec_apply, splat_apply, baseVec_apply]; rfl

/-! ## The two columns -/

private theorem col_apply (v : S5000.Idx → EReal) (j : Fin 5000) :
    broadcastInDim S5000x1 ![0] bcast_S5000_S5000x1_0 v (ix2 j (0 : Fin 1)) = v (ix1 j) :=
  broadcastInDim_apply _ bcast_S5000_S5000x1_0 v (ix2 j (0 : Fin 1)) (ix1 j) (fun a => match a with | ⟨0, _⟩ => rfl)

private theorem tabOf_col0 (x : S5000.Idx → EReal) (j : Fin 5000) : tabOf x (ix2 j (0 : Fin 2)) = baseVec x (ix1 j) := by
  unfold tabOf
  refine (concatenate_pair_apply_left (1 : Fin S5000x2.rank) _ _ concatenates_S5000x1_S5000x1_S5000x2_d1
    (ix2 j (0 : Fin 2)) rfl (ix2 j (0 : Fin 1)) ?_).trans (col_apply _ j)
  intro b
  match b with
  | ⟨0, _⟩ => rfl
  | ⟨1, _⟩ => rfl

private theorem tabOf_col1 (x : S5000.Idx → EReal) (j : Fin 5000) : tabOf x (ix2 j (1 : Fin 2)) = diffVec x (ix1 j) := by
  unfold tabOf
  refine (concatenate_pair_apply_right (1 : Fin S5000x2.rank) _ _ concatenates_S5000x1_S5000x1_S5000x2_d1
    (ix2 j (1 : Fin 2)) rfl rfl (ix2 j (0 : Fin 1)) ?_ rfl).trans (col_apply _ j)
  intro b hb
  match b, hb with
  | ⟨0, _⟩, _ => rfl
  | ⟨1, _⟩, hb => exact absurd rfl hb

theorem table_base (c : Dev nD) (j : Fin 5000) :
    tabArr m ρ c (ix2 j (0 : Fin 2)) = Spec.baseE (xArg m c (ix1 j)) :=
  (congrFun (tabArr_eq m ρ c) _).trans ((tabOf_col0 _ j).trans (baseVec_apply _ _))

theorem table_diff (c : Dev nD) (j : Fin 5000) :
    tabArr m ρ c (ix2 j (1 : Fin 2)) = Spec.diffE (xArg m c (ix1 j)) :=
  (congrFun (tabArr_eq m ρ c) _).trans ((tabOf_col1 _ j).trans (diffVec_apply _ _))

/-! ## The padded worker indices -/

/-- The padded index array is the host pad of the launched worker indices by the word 5000. -/
theorem jjpArr_eq (c : Dev nD) :
    (jjpArr m ρ c : S5001216.Idx → BitVec 32)
      = pad S5001216 ![0] ![1216] ![0] (jjArg m c) (constantI S_ 32 5000#32) pads_S5000000_S5001216_012160 h_S_ := by
  show StableHlo.after hostOps0_1 (W1 m ρ c) (Proc.devRef .tc main_v24) = _
  after_results
  rfl

theorem padded_jj (c : Dev nD) (n : Fin 5001216) :
    jjpArr m ρ c (ix1 n) = if h : n.val < 5000000 then jjArg m c (ix1 ⟨n.val, h⟩) else 5000#32 := by
  refine (congrFun (jjpArr_eq m ρ c) (ix1 n)).trans ?_
  by_cases h : n.val < 5000000
  · rw [dif_pos h]
    exact pad_apply_of_inside _ _ _ _ _ pads_S5000000_S5001216_012160 h_S_ (ix1 n) (ix1 ⟨n.val, h⟩)
      (fun a => match a with
        | ⟨0, _⟩ => by show n.val = 0 + n.val * (0 + 1); omega)
  · rw [dif_neg h]
    refine (pad_apply_of_not_inside _ _ _ _ _ pads_S5000000_S5001216_012160 h_S_ (ix1 n) (0 : Fin S5000000.rank)
      (fun hh => h ?_)).trans rfl
    have h3 : (n.val - 0) / (0 + 1) < 5000000 := hh.2.2
    omega

end Cert.KernelIdeal.Stage

end
-- ==== Proof.LibPlainMatmul.lean ====
/-
  Two operations of a dense layer read at one entry, at the ideal values (every float an extended real, every operation exact).

  * A matrix product with the PLAIN dimension numbers — an [M, K] matrix times a [K, N] matrix, the left operand contracted on
    its axis 1 and the right on its axis 0, no batch axis — accumulated into the zero matrix: its entry (p, q) is the sum over
    the contraction coordinate k of lhs (p, k) · rhs (k, q). The contraction index of such a product has one axis, and the sum
    over it is re-indexed through that axis's coordinate.
  * A one-row matrix [1, C] spread down R rows: its entry (p, k) is the row's entry (0, k).
-/
import Idealize.ShloMosaic.PureOps.Ideal.Laws
import Idealize.ShloMosaic.Lib.ValueIdx
import Idealize.ShloMosaic.Lib.Pipeline.Value

noncomputable section

open scoped BigOperators
open Idealize.ShloMosaic Idealize.ShloMosaic.ValueIdx

namespace Cert.Lib.PlainMatmul

variable {M K N : Nat}

/-- The plain product's dimension numbers as a record, over any evidence that they are well formed. -/
abbrev dims (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF (⟨2, ![M, K]⟩ : Shape) ⟨2, ![K, N]⟩ ⟨2, ![M, N]⟩ [1] [0] [0] [1] [] [])

/-- The left operand's row coordinate is the result's row coordinate. -/
theorem lhs_row (j : (⟨2, ![M, N]⟩ : Shape).Idx) (q : (dims wf).contr.Idx) : ((dims wf).lhsIdx j q 0).val = (j 0).val := by
  unfold DotDims.lhsIdx
  rw [dif_neg (show ¬(0 : Fin (⟨2, ![M, K]⟩ : Shape).rank) ∈ (dims wf).lhsBatch from List.not_mem_nil),
    dif_pos (show (0 : Fin (⟨2, ![M, K]⟩ : Shape).rank) ∈ (dims wf).lhsNonContracting from List.mem_singleton.mpr rfl)]
  rfl

/-- The left operand's column coordinate is the contraction coordinate. -/
theorem lhs_col (j : (⟨2, ![M, N]⟩ : Shape).Idx) (q : (dims wf).contr.Idx) :
    ((dims wf).lhsIdx j q 1).val = (q ⟨0, Nat.one_pos⟩).val :=
  (dims wf).lhsIdx_val_of_single rfl j q

/-- The right operand's row coordinate is the contraction coordinate. -/
theorem rhs_row (j : (⟨2, ![M, N]⟩ : Shape).Idx) (q : (dims wf).contr.Idx) :
    ((dims wf).rhsIdx j q 0).val = (q ⟨0, Nat.one_pos⟩).val :=
  (dims wf).rhsIdx_val_of_single rfl j q

/-- The right operand's column coordinate is the result's column coordinate. -/
theorem rhs_col (j : (⟨2, ![M, N]⟩ : Shape).Idx) (q : (dims wf).contr.Idx) : ((dims wf).rhsIdx j q 1).val = (j 1).val := by
  unfold DotDims.rhsIdx
  rw [dif_neg (show ¬(1 : Fin (⟨2, ![K, N]⟩ : Shape).rank) ∈ (dims wf).rhsBatch from List.not_mem_nil),
    dif_pos (show (1 : Fin (⟨2, ![K, N]⟩ : Shape).rank) ∈ (dims wf).rhsNonContracting from List.mem_singleton.mpr rfl)]
  rfl

/-- The plain product into the zero matrix at entry (p, q): the sum over k of lhs (p, k) · rhs (k, q). -/
theorem apply_dims (prec : Option ContractPrecision) {φ₁ φ₂ : FTy} (lhs : FVec Ideal ⟨2, ![M, K]⟩ φ₁)
    (rhs : FVec Ideal ⟨2, ![K, N]⟩ φ₂) (p : Fin M) (q : Fin N) :
    FloatOps.matmul (dims wf) prec lhs rhs (constant (F := Ideal) ⟨2, ![M, N]⟩ .f32 0x00000000#32) (ix2 p q)
      = ∑ k : Fin K, lhs (ix2 p k) * rhs (ix2 k q) := by
  rw [Ideal.matmul_constant_zero_apply, ← Equiv.sum_comp (contrEquiv1 (dims wf) K rfl rfl).symm]
  refine Finset.sum_congr rfl fun k _ => ?_
  have hk := contrEquiv1_symm_val (dims wf) K rfl rfl k
  have el : (dims wf).lhsIdx (ix2 p q) ((contrEquiv1 (dims wf) K rfl rfl).symm k) = ix2 p k := funext fun a => Fin.ext (by
    match a with
    | ⟨0, _⟩ => exact lhs_row wf _ _
    | ⟨1, _⟩ => exact (lhs_col wf _ _).trans hk)
  have er : (dims wf).rhsIdx (ix2 p q) ((contrEquiv1 (dims wf) K rfl rfl).symm k) = ix2 k q := funext fun a => Fin.ext (by
    match a with
    | ⟨0, _⟩ => exact (rhs_row wf _ _).trans hk
    | ⟨1, _⟩ => exact rhs_col wf _ _)
  rw [el, er]

/-- The same for any record whose dimension numbers are the plain product's. -/
theorem apply (d : DotDims (⟨2, ![M, K]⟩ : Shape) ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) {φ₁ φ₂ : FTy} (lhs : FVec Ideal ⟨2, ![M, K]⟩ φ₁)
    (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  obtain ⟨lc, rc, ln, rn, lb, rb, wf⟩ := d
  dsimp only at hlc hrc hln hrn hlb hrb
  subst hlc hrc hln hrn hlb hrb
  exact apply_dims wf prec lhs rhs p q

/-- A one-row matrix spread down the rows, at entry (p, k): the row's entry (0, k). -/
theorem rowSpread_apply {α : Type} {R C : Nat} (x : (⟨2, ![1, C]⟩ : Shape).Idx → α)
    (h : (⟨2, ![1, C]⟩ : Shape).Broadcasts ⟨2, ![R, C]⟩) (p : Fin R) (k : Fin C) :
    broadcastTo ⟨2, ![R, C]⟩ x h (ix2 p k) = x (ix2 (0 : Fin 1) k) := by
  refine broadcastTo_apply x h (ix2 p k) (ix2 (0 : Fin 1) k) fun a => ?_
  match a with
  | ⟨0, _⟩ => rfl
  | ⟨1, _⟩ =>
    show k.val = if C = 1 then 0 else k.val
    split
    · have := k.isLt; omega
    · rfl

end Cert.Lib.PlainMatmul

end
-- ==== Proof.KRegion0.lean ====
/-
  The first region, read as a whole array: row n of its output holds, in each of the two columns, the table's entry at the row the
  n-th index word names, and zero when the word names no row (the five one-hot products over the chunks of 1000 rows, added).

  The body compares the block's 2048 index words with the row numbers K … K + 999 of each of the five chunks of the table
  (K = 0, 1000, …, 4000), turns each comparison into a 0/1 matrix [2048, 1000] and multiplies it into the chunk's 1000 rows.
  At the ideal values the product's entry (p, q) is a sum over the chunk's rows with at most one term that is not zero: the
  table's entry at the row the p-th word names, if that row lies in the chunk. The five chunks partition the rows 0 … 4999, so
  their sum is the table's entry at the named row, and zero when the word names no row. Point t of the grid reads words
  2048·t … 2048·t + 2047 and the whole table and writes rows 2048·t … 2048·t + 2047 of the output; the 2442 blocks cover it.
-/
import proofs.«115153_j22256520528420_1_alg».proof.Proof.KStageDefs
import proofs.«115153_j22256520528420_1_alg».proof.Proof.LibPlainMatmul

noncomputable section

open scoped BigOperators
open Idealize.ShloMosaic Idealize.ShloMosaic.TcCoe Idealize.SL.Sem Idealize.ShloMosaic.ValueIdx
open Cert.KernelIdeal Cert.KernelIdeal.Gen

namespace Cert.KernelIdeal.Stage

namespace Region0

/-! ## The body's payload at one entry -/

/-- The index words spread along the rows of the comparison matrix: entry (p, r) is the p-th word. -/
theorem spread_apply (x0 : IVec S2048 32) (hsc : S2048.ShapeCasts S2048x1) (hbc : S2048x1.Broadcasts S2048x1000)
    (p : Fin 2048) (r : Fin 1000) :
    broadcastTo S2048x1000 (shapeCast S2048x1 x0 hsc) hbc (ix2 p r) = x0 (ix1 p) := by
  refine (broadcastTo_apply _ hbc (ix2 p r) (ix2 p (0 : Fin 1)) fun a => ?_).trans ?_
  · match a with
    | ⟨0, _⟩ => rfl
    | ⟨1, _⟩ => rfl
  · refine shapeCast_apply x0 hsc (ix2 p (0 : Fin 1)) (ix1 p) ?_
    rw [Shape.rowMajor_val_one, Shape.rowMajor_val_two]
    show p.val = p.val * 1 + 0
    omega

/-- The comparison matrix of the chunk that starts at word K, at row p and column r: one where the p-th index word is
    r + K, zero elsewhere. -/
theorem onehot_apply (x0 : IVec S2048 32) (K : BitVec 32) (hsc : S2048.ShapeCasts S2048x1) (hbc : S2048x1.Broadcasts S2048x1000)
    (hio : S2048x1000.Iotas .tc 32 [1]) (h132 : 1 < 32) (hbits : FTy.bits .bf16 < FTy.bits .f32) (p : Fin 2048) (r : Fin 1000) :
    (truncf .bf16 (sitofp .f32 (extui 32 (cmpi .eq (broadcastTo S2048x1000 (shapeCast S2048x1 x0 hsc) hbc)
        (addi (iota .tc S2048x1000 32 [1] hio) (broadcast S2048x1000 K))) h132) : FVec Ideal S2048x1000 .f32) hbits
        : FVec Ideal S2048x1000 .bf16) (ix2 p r)
      = if x0 (ix1 p) = BitVec.ofNat 32 r.val + K then (1 : EReal) else 0 := by
  rw [truncf_apply, sitofp_apply, extui_apply]
  show FloatOps.sitofp (F := Ideal) FTy.f32 (BitVec.setWidth 32 (IntOp.cmpi .eq
      (broadcastTo S2048x1000 (shapeCast S2048x1 x0 hsc) hbc (ix2 p r))
      (iota .tc S2048x1000 32 [1] hio (ix2 p r) + K))) = _
  rw [spread_apply, iota_single_apply]
  show (((BitVec.setWidth 32 (IntOp.cmpi .eq (x0 (ix1 p)) (BitVec.ofNat 32 r.val + K))).toInt : ℝ) : EReal) = _
  by_cases h : x0 (ix1 p) = BitVec.ofNat 32 r.val + K
  · rw [if_pos h, IntOp.cmpi_eq.mpr h]; norm_num
  · rw [if_neg h, eq_zero_of_ne_one (mt IntOp.cmpi_eq.mp h)]; norm_num

/-- A sum over the 1000 rows of a chunk against the one-hot row of a word w: the chunk's entry at w - K when w names a row of
    the chunk, zero when it names none. -/
theorem onehot_sum (w K : BitVec 32) (hK : K.toNat + 1000 ≤ 5000) (col : Fin 1000 → EReal) :
    ∑ r : Fin 1000, (if w = BitVec.ofNat 32 r.val + K then (1 : EReal) else 0) * col r
      = if h : K.toNat ≤ w.toNat ∧ w.toNat < K.toNat + 1000 then col ⟨w.toNat - K.toNat, by omega⟩ else 0 := by
  have key : ∀ r : Fin 1000, w = BitVec.ofNat 32 r.val + K ↔ w.toNat = r.val + K.toNat := by
    intro r
    have hr := r.isLt
    constructor
    · intro h; rw [h, BitVec.toNat_add, BitVec.toNat_ofNat]; omega
    · intro h; apply BitVec.eq_of_toNat_eq; rw [BitVec.toNat_add, BitVec.toNat_ofNat]; omega
  split_ifs with h
  · rw [Finset.sum_eq_single (⟨w.toNat - K.toNat, by omega⟩ : Fin 1000)]
    · rw [if_pos ((key _).mpr (by show w.toNat = (w.toNat - K.toNat) + K.toNat; omega)), one_mul]
    · intro r _ hr
      rw [if_neg, zero_mul]
      intro he
      exact hr (Fin.ext (by have := (key r).mp he; show r.val = w.toNat - K.toNat; omega))
    · intro hh; exact absurd (Finset.mem_univ _) hh
  · refine Finset.sum_eq_zero fun r _ => ?_
    rw [if_neg, zero_mul]
    intro he
    have := (key r).mp he
    have := r.isLt
    omega

/-- One chunk's product at (p, q): the one-hot matrix of the chunk that starts at word K times the chunk's 1000 rows is the
    chunk's entry in the row the p-th index word names, zero when it names no row of this chunk. -/
theorem chunk_apply (x0 : IVec S2048 32) (ch : Vec Ideal S1000x2 .f32) (K : BitVec 32) (hK : K.toNat + 1000 ≤ 5000)
    (hsc : S2048.ShapeCasts S2048x1) (hbc : S2048x1.Broadcasts S2048x1000) (hio : S2048x1000.Iotas .tc 32 [1]) (h132 : 1 < 32)
    (hbits : FTy.bits .bf16 < FTy.bits .f32) (hsc2 : S1000x2.ShapeCasts S1000x2) (p : Fin 2048) (q : Fin 2) :
    FloatOps.matmul dot_S2048x1000_S1000x2_S2048x2_1_0_0_1_n_n none
        (truncf .bf16 (sitofp .f32 (extui 32 (cmpi .eq (broadcastTo S2048x1000 (shapeCast S2048x1 x0 hsc) hbc)
          (addi (iota .tc S2048x1000 32 [1] hio) (broadcast S2048x1000 K))) h132) : FVec Ideal S2048x1000 .f32) hbits
          : FVec Ideal S2048x1000 .bf16)
        (truncf .bf16 (shapeCast S1000x2 ch hsc2 : FVec Ideal S1000x2 .f32) hbits : FVec Ideal S1000x2 .bf16)
        (constant (F := Ideal) S2048x2 .f32 0x00000000#32) (ix2 p q)
      = if h : K.toNat ≤ (x0 (ix1 p)).toNat ∧ (x0 (ix1 p)).toNat < K.toNat + 1000
          then ch (ix2 (⟨(x0 (ix1 p)).toNat - K.toNat, by omega⟩ : Fin 1000) q) else 0 := by
  refine (Cert.Lib.PlainMatmul.apply dot_S2048x1000_S1000x2_S2048x2_1_0_0_1_n_n rfl rfl rfl rfl rfl rfl none _ _ p q).trans ?_
  rw [← onehot_sum (x0 (ix1 p)) K hK (fun r => ch (ix2 r q))]
  refine Finset.sum_congr rfl fun r _ => ?_
  rw [onehot_apply, truncf_apply, shapeCast_self]

/-- A chunk of 1000 rows of the table, read at row r and column q, is the table's row off + r. -/
theorem chunk_ld (x1 : Vec Ideal S5000x2 .f32) (off : Nat) (hoff : off + 1000 ≤ 5000)
    (inb : ∀ a, (![off, 0] : Fin 2 → Nat) a + S1000x2.size a ≤ S5000x2.size a) (r : Fin 1000) (q : Fin 2) :
    (View.ld x1 (Rect.unit (s := S5000x2) ![off, 0] S1000x2.size inb) : Vec Ideal S1000x2 .f32) (ix2 r q)
      = x1 (ix2 (⟨off + r.val, by have := r.isLt; omega⟩ : Fin 5000) q) := by
  show x1 _ = x1 _
  refine congrArg x1 (funext fun a => Fin.ext ?_)
  match a with
  | ⟨0, _⟩ => show off + 1 * r.val = off + r.val; omega
  | ⟨1, _⟩ => show 0 + 1 * q.val = q.val; omega

/-- One chunk's product over the table's rows off … off + 999, at (p, q): the table's entry in the row the p-th index word
    names when that row is in the chunk, zero otherwise. -/
theorem chunk_gather (x0 : IVec S2048 32) (x1 : Vec Ideal S5000x2 .f32) (K : BitVec 32) (off : Nat) (hKo : K.toNat = off)
    (hoff : off + 1000 ≤ 5000) (inb : ∀ a, (![off, 0] : Fin 2 → Nat) a + S1000x2.size a ≤ S5000x2.size a)
    (hsc : S2048.ShapeCasts S2048x1) (hbc : S2048x1.Broadcasts S2048x1000) (hio : S2048x1000.Iotas .tc 32 [1]) (h132 : 1 < 32)
    (hbits : FTy.bits .bf16 < FTy.bits .f32) (hsc2 : S1000x2.ShapeCasts S1000x2) (p : Fin 2048) (q : Fin 2) :
    FloatOps.matmul dot_S2048x1000_S1000x2_S2048x2_1_0_0_1_n_n none
        (truncf .bf16 (sitofp .f32 (extui 32 (cmpi .eq (broadcastTo S2048x1000 (shapeCast S2048x1 x0 hsc) hbc)
          (addi (iota .tc S2048x1000 32 [1] hio) (broadcast S2048x1000 K))) h132) : FVec Ideal S2048x1000 .f32) hbits
          : FVec Ideal S2048x1000 .bf16)
        (truncf .bf16 (shapeCast S1000x2 (View.ld x1 (Rect.unit (s := S5000x2) ![off, 0] S1000x2.size inb) : Vec Ideal S1000x2 .f32)
          hsc2 : FVec Ideal S1000x2 .f32) hbits : FVec Ideal S1000x2 .bf16)
        (constant (F := Ideal) S2048x2 .f32 0x00000000#32) (ix2 p q)
      = if off ≤ (x0 (ix1 p)).toNat ∧ (x0 (ix1 p)).toNat < off + 1000
          then Spec.gatherE (fun r => x1 (ix2 r q)) (x0 (ix1 p)) else 0 := by
  subst hKo
  refine (chunk_apply x0 _ K hoff hsc hbc hio h132 hbits hsc2 p q).trans ?_
  by_cases h : K.toNat ≤ (x0 (ix1 p)).toNat ∧ (x0 (ix1 p)).toNat < K.toNat + 1000
  · rw [dif_pos h, if_pos h, chunk_ld x1 K.toNat hoff inb]
    unfold Spec.gatherE
    rw [dif_pos (by omega)]
    exact congrArg x1 (congrArg (ix2 · q) (Fin.ext (by show K.toNat + ((x0 (ix1 p)).toNat - K.toNat) = (x0 (ix1 p)).toNat; omega)))
  · rw [dif_neg h, if_neg h]

/-- The five chunks added: exactly the chunk that holds row n contributes, and none does when n names no row. -/
theorem five_chunks (n : Nat) (g : EReal) (hg : ¬n < 5000 → g = 0) :
    ((((((0 : EReal) + (if 0 ≤ n ∧ n < 0 + 1000 then g else 0)) + (if 1000 ≤ n ∧ n < 1000 + 1000 then g else 0))
      + (if 2000 ≤ n ∧ n < 2000 + 1000 then g else 0)) + (if 3000 ≤ n ∧ n < 3000 + 1000 then g else 0))
      + (if 4000 ≤ n ∧ n < 4000 + 1000 then g else 0)) = g := by
  split_ifs <;> first | (exfalso; omega) | (rw [hg (by omega)]; simp; done) | (simp; done)

theorem zeros1 : (![0] : Fin 1 → Nat) = fun _ => 0 := funext fun a => by fin_cases a; rfl
theorem zeros2 : (![0, 0] : Fin 2 → Nat) = fun _ => 0 := funext fun a => by fin_cases a <;> rfl

/-- What the body leaves in the output block, at row p and column q: the table's entry, in column q, at the row the p-th
    index word of the block names, and zero when that word names no row. -/
theorem out_apply (x0 : Vec Ideal S2048 .i32) (x1 : Vec Ideal S5000x2 .f32) (p : Fin 2048) (q : Fin 2) :
    out0_2 x0 x1 (ix2 p q) = Spec.gatherE (fun r => x1 (ix2 r q)) (x0 (ix1 p)) := by
  unfold out0_2
  rw [View.canon_unit_zero zeros2]
  simp only [View.ld_unit_zero (S := S2048) zeros1]
  unfold k0_pay1 k0_pay3 k0_pay2
  simp only [shapeCast_self (s := S2048)]
  simp only [addf_apply, broadcast_apply]
  refine Eq.trans ?_ (five_chunks (x0 (ix1 p)).toNat (Spec.gatherE (fun r => x1 (ix2 r q)) (x0 (ix1 p))) ?_)
  · refine congrArg₂ (· + ·) (congrArg₂ (· + ·) (congrArg₂ (· + ·) (congrArg₂ (· + ·) (congrArg₂ (· + ·) Ideal.ofBits_zero_f32 ?_) ?_) ?_) ?_) ?_
    · exact chunk_gather x0 x1 0#32 0 rfl (by omega) _ _ _ _ _ _ _ p q
    · exact chunk_gather x0 x1 1000#32 1000 rfl (by omega) _ _ _ _ _ _ _ p q
    · exact chunk_gather x0 x1 2000#32 2000 rfl (by omega) _ _ _ _ _ _ _ p q
    · exact chunk_gather x0 x1 3000#32 3000 rfl (by omega) _ _ _ _ _ _ _ p q
    · exact chunk_gather x0 x1 4000#32 4000 rfl (by omega) _ _ _ _ _ _ _ p q
  · intro h
    unfold Spec.gatherE
    rw [dif_neg h]

/-! ## From the blocks to the array -/

variable (m : (ℓ : Loc nD τ sig) → Buf (Elt Ideal) ℓ) (ρ : Dev nD → PrngReg)

/-- The gathered pairs as ONE function of the table and the padded index words, index by index. -/
abbrev gatherAll (c : Dev nD) : S5001216x2.Idx → EReal :=
  fun i => Spec.gatherE (fun r => V2 m ρ c main_v23 (ix2 r (i 1))) (V2 m ρ c main_v24 (ix1 (i 0)))

/-- The windows' block indices over the grid: the index words' and the output's block is the point's own number, the
    table's block is the whole table at every point. -/
theorem block_index : ∀ t : Fin cfg0.N, win0_0.index t (0 : Fin 1) = t.val
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The index words' block at point t holds words 2048·t … 2048·t + 2047 of the padded index array. -/
theorem words_block (c : Dev nD) (t : Fin cfg0.N) (p : Fin 2048) (k : S5001216.Idx) (hk : (k 0).val = 2048 * t.val + p.val) :
    (iblk0 (V2 m ρ) c 0 t : Vec Ideal S2048 .i32) (ix1 p) = V2 m ρ c main_v24 k := by
  obtain ⟨e0, -⟩ := block_index t
  show V2 m ρ c main_v24 (((cfg0.win 0).blk t).view.emb (ix1 p)) = V2 m ρ c main_v24 k
  refine congrArg (V2 m ρ c main_v24) (funext fun a => Fin.ext ?_)
  match a with
  | ⟨0, _⟩ => show win0_0.index t (0 : Fin 1) * 2048 + 1 * p.val = (k 0).val; rw [e0, hk]; omega

/-- The table's block at every point is the whole table. -/
theorem table_block (c : Dev nD) (t : Fin cfg0.N) (r : Fin 5000) (q : Fin 2) (k : S5000x2.Idx) (hk0 : (k 0).val = r.val)
    (hk1 : (k 1).val = q.val) :
    (iblk0 (V2 m ρ) c 1 t : Vec Ideal S5000x2 .f32) (ix2 r q) = V2 m ρ c main_v23 k := by
  obtain ⟨-, e1, e2, -⟩ := block_index t
  show V2 m ρ c main_v23 (((cfg0.win 1).blk t).view.emb (ix2 r q)) = V2 m ρ c main_v23 k
  refine congrArg (V2 m ρ c main_v23) (funext fun a => Fin.ext ?_)
  match a with
  | ⟨0, _⟩ => show win0_1.index t (0 : Fin 2) * 5000 + 1 * r.val = (k 0).val; rw [e1, hk0]; omega
  | ⟨1, _⟩ => show win0_1.index t (1 : Fin 2) * 2 + 1 * q.val = (k 1).val; rw [e2, hk1]; omega

/-- What point t writes back is block t — rows 2048·t … 2048·t + 2047, both columns — of the gathered pairs. -/
theorem flushed_eq (c : Dev nD) (t : Fin cfg0.N) :
    (dat0 (V2 m ρ) c).flushed 2 t = ((cfg0.win 2).blk t).view.read (Elt Ideal) (gatherAll m ρ c) := by
  show (cfg0.win 2).cut (grid0.coords t) ((dat0 (V2 m ρ) c).after 2 t) = _
  rw [after0_2]
  obtain ⟨-, -, -, e3, e4⟩ := block_index t
  funext j
  obtain ⟨p, q, rfl⟩ : ∃ (p : Fin 2048) (q : Fin 2), j = (ix2 p q : S2048x2.Idx) := ⟨j 0, j 1, eq_ix2 (n0 := 2048) (n1 := 2) j⟩
  show out0_2 (iblk0 (V2 m ρ) c 0 t : Vec Ideal S2048 .i32) (iblk0 (V2 m ρ) c 1 t : Vec Ideal S5000x2 .f32) (ix2 p q)
    = gatherAll m ρ c (((cfg0.win 2).blk t).view.emb (ix2 p q))
  refine (out_apply (iblk0 (V2 m ρ) c 0 t : Vec Ideal S2048 .i32) (iblk0 (V2 m ρ) c 1 t : Vec Ideal S5000x2 .f32) p q).trans ?_
  have h0 : ((((cfg0.win 2).blk t).view.emb (ix2 p q : S2048x2.Idx)) 0).val = 2048 * t.val + p.val := by
    show win0_2.index t (0 : Fin 2) * 2048 + 1 * p.val = _; rw [e3]; omega
  have h1 : ((((cfg0.win 2).blk t).view.emb (ix2 p q : S2048x2.Idx)) 1).val = q.val := by
    show win0_2.index t (1 : Fin 2) * 2 + 1 * q.val = _; rw [e4]; omega
  exact congrArg₂ Spec.gatherE (funext fun r => table_block m ρ c t r q _ rfl h1) (words_block m ρ c t p _ h0)

/-- An index of the output array is in point t's block iff each coordinate is in the block's range on its axis. -/
theorem mem_block (t : Fin cfg0.N) (i : S5001216x2.Idx) :
    i ∈ ((cfg0.win 2).blk t).view.set ↔ ∀ a : Fin 2, win0_2.index t a * S2048x2.size a ≤ (i a).val
      ∧ (i a).val < win0_2.index t a * S2048x2.size a + S2048x2.size a := by
  show i ∈ ((View.whole main_v25).slice (win0_2.rect t)).set ↔ _
  rw [View.set_slice_whole, Rect.mem_set_unit]
  exact Iff.rfl

/-- Every row of the output array is in the block of the point its number divided by 2048 names. -/
theorem blocks_cover (i : S5001216x2.Idx) :
    ∃ t : Fin cfg0.N, (cfg0.win 2).flush t = true ∧ i ∈ ((cfg0.win 2).blk t).view.set := by
  have hi0 : (i 0).val < 5001216 := (i 0).isLt
  have hi1 : (i 1).val < 2 := (i 1).isLt
  have hN : cfg0.N = 2442 := N_0
  let t : Fin cfg0.N := ⟨(i 0).val / 2048, by rw [hN]; omega⟩
  obtain ⟨-, -, -, e3, e4⟩ := block_index t
  have e3' : win0_2.index t (0 : Fin 2) = (i 0).val / 2048 := e3
  refine ⟨t, flush0_2 t, ?_⟩
  rw [mem_block]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 2 ≤ (i 1).val ∧ (i 1).val < win0_2.index t (1 : Fin 2) * 2 + 2; omega

/-- The array the first region leaves is the gathered pairs: each point writes its block of them and the blocks cover the array. -/
theorem region0_array (c : Dev nD) : V3 m ρ c main_v25 = gatherAll m ρ c :=
  (W3_arr m ρ c 2).trans
    ((dat0 (V2 m ρ) c).arrAt_eq_of_cover 2 (gatherAll m ρ c) (fun t _ => flushed_eq m ρ c t) blocks_cover)

end Region0

variable (m : (ℓ : Loc nD τ sig) → Buf (Elt Ideal) ℓ) (ρ : Dev nD → PrngReg)

theorem gathered (c : Dev nD) (n : Fin 5001216) (q : Fin 2) :
    bdArr m ρ c (ix2 n q) = Spec.gatherE (fun r => tabArr m ρ c (ix2 r q)) (jjpArr m ρ c (ix1 n)) :=
  congrFun (Region0.region0_array m ρ c) (ix2 n q)

end Cert.KernelIdeal.Stage

end
-- ==== Proof.KHost1.lean ====
/-
  The host operations between the two regions: the two scatter-adds of the gathered columns (column 0 by task, column 1 by
  16 · task + class), laid side by side as a [500000, 17] array and padded with zero rows to 503808. Read for index words in
  range: task words I n < 500000 and class words Y n < 16, so 16 · I n + Y n does not wrap and names entry (I n, Y n).

  A scatter-add over one axis with one start word per update adds update n to entry t exactly when the word of n, read
  signed, is t (an update whose word is outside the operand is dropped). With the words in range the signed reading is
  the number itself, so entry i of the first scatter-add collects the observations of task i, and entry 16 · i + k of the
  second those of task i and class k (16 · a + b = 16 · i + k with b, k < 16 forces a = i and b = k). The reshape to
  [500000, 16] reads flat entry 16 · i + k at (i, k); the concatenation puts the task sums in column 16; the padding leaves
  the first 500000 rows as they are.
-/
import proofs.«115153_j22256520528420_1_alg».proof.Proof.KStageDefs
import Idealize.ShloMosaic.Lib.KernelVsHost
import Idealize.ShloMosaic.Lib.ValueLayout
import Idealize.ShloMosaic.Lib.StableHlo.Predicate

noncomputable section

open scoped BigOperators
open Idealize.ShloMosaic Idealize.ShloMosaic.TcCoe Idealize.SL.Sem Idealize.ShloMosaic.ValueIdx
open Cert.KernelIdeal Cert.KernelIdeal.Gen

namespace Cert.KernelIdeal.Stage

variable (m : (ℓ : Loc nD τ sig) → Buf (Elt Ideal) ℓ) (ρ : Dev nD → PrngReg)

/-! ## A one-axis scatter with one index word per update

The operand has one axis, each update carries one start word (the index array is [M, 1], the index vector on axis 1), there is no
window axis: update j lands at entry t of the operand when its word, read signed, is t and t is inside the operand; otherwise
it is dropped. -/

/-- The result index of update j equals i exactly when j's start word, read signed, is i's coordinate. -/
theorem resultIdx?_eq_some_iff {N M : Nat} (d : ScatterDims (⟨1, ![N]⟩ : Shape) (⟨2, ![M, 1]⟩ : Shape) (⟨1, ![M]⟩ : Shape))
    (hstart : ∀ (j : (⟨1, ![M]⟩ : Shape).Idx) (idx : IVec (⟨2, ![M, 1]⟩ : Shape) 32),
      d.start j idx 0 = (idx (ix2 (j 0) 0)).toInt)
    (hwin : ∀ j : (⟨1, ![M]⟩ : Shape).Idx, d.window j 0 = 0)
    (j : (⟨1, ![M]⟩ : Shape).Idx) (idx : IVec (⟨2, ![M, 1]⟩ : Shape) 32) (i : (⟨1, ![N]⟩ : Shape).Idx) :
    d.resultIdx? j idx = some i ↔ (idx (ix2 (j 0) 0)).toInt = ((i 0).val : ℤ) := by
  have key : ∀ a : Fin 1, d.start j idx a + (d.window j a : ℤ) = (idx (ix2 (j 0) 0)).toInt := fun a => by
    obtain rfl : a = 0 := Subsingleton.elim _ _
    rw [hstart, hwin]; simp
  have hi : ((i 0).val : ℤ) < (N : ℤ) := by exact_mod_cast (i 0).isLt
  unfold ScatterDims.resultIdx?
  split
  · next h =>
    have h0 := h 0
    rw [key 0] at h0
    constructor
    · intro e
      have e0 : ((d.start j idx 0 + (d.window j 0 : ℤ)).toNat) = (i 0).val :=
        congrArg (fun f : (⟨1, ![N]⟩ : Shape).Idx => (f 0).val) (Option.some.inj e)
      rw [key 0] at e0
      omega
    · intro e
      refine congrArg some (funext fun a => ?_)
      obtain rfl : a = 0 := Subsingleton.elim _ _
      refine Fin.ext ?_
      show (d.start j idx 0 + (d.window j 0 : ℤ)).toNat = (i 0).val
      rw [key 0, e]; simp
  · next h =>
    constructor
    · intro e; cases e
    · intro e
      refine absurd (fun a => ?_) h
      obtain rfl : a = 0 := Subsingleton.elim _ _
      rw [key 0, e]
      exact ⟨by omega, hi⟩

theorem start_task (j : S5000000.Idx) (idx : IVec S5000000x1 32) :
    scatter_S500000_S5000000x1_S5000000_n_0_0_1.start j idx 0 = (idx (ix2 (j 0) 0)).toInt := by
  unfold ScatterDims.start
  rw [dif_pos (show (0 : Fin S500000.rank) ∈ scatter_S500000_S5000000x1_S5000000_n_0_0_1.scatterDimsToOperandDims by decide)]
  refine congrArg (fun z => (idx z).toInt) (funext fun b => ?_)
  match b with
  | ⟨0, _⟩ => rfl
  | ⟨1, _⟩ => rfl

theorem window_task (j : S5000000.Idx) : scatter_S500000_S5000000x1_S5000000_n_0_0_1.window j 0 = 0 := by
  unfold ScatterDims.window
  rw [dif_neg (show ¬ (0 : Fin S500000.rank) ∈ scatter_S500000_S5000000x1_S5000000_n_0_0_1.sKept by decide)]

theorem start_cell (j : S5000000.Idx) (idx : IVec S5000000x1 32) :
    scatter_S8000000_S5000000x1_S5000000_n_0_0_1.start j idx 0 = (idx (ix2 (j 0) 0)).toInt := by
  unfold ScatterDims.start
  rw [dif_pos (show (0 : Fin S8000000.rank) ∈ scatter_S8000000_S5000000x1_S5000000_n_0_0_1.scatterDimsToOperandDims by decide)]
  refine congrArg (fun z => (idx z).toInt) (funext fun b => ?_)
  match b with
  | ⟨0, _⟩ => rfl
  | ⟨1, _⟩ => rfl

theorem window_cell (j : S5000000.Idx) : scatter_S8000000_S5000000x1_S5000000_n_0_0_1.window j 0 = 0 := by
  unfold ScatterDims.window
  rw [dif_neg (show ¬ (0 : Fin S8000000.rank) ∈ scatter_S8000000_S5000000x1_S5000000_n_0_0_1.sKept by decide)]

/-! ## The host operations as one term -/

/-- Column 0 of the first 5000000 gathered pairs, as a vector. -/
def bnVec (bd : S5001216x2.Idx → EReal) : S5000000.Idx → EReal :=
  shapeCast S5000000
    (extractStridedSlice S5000000x1 ![0, 0]
      (extractStridedSlice S5000000x2 ![0, 0] bd slices_S5001216x2_S5000000x2_0_0) slices_S5000000x2_S5000000x1_0_0)
    shapeCasts_S5000000x1_S5000000

/-- Column 1 of the first 5000000 gathered pairs, as a vector. -/
def dnVec (bd : S5001216x2.Idx → EReal) : S5000000.Idx → EReal :=
  shapeCast S5000000
    (extractStridedSlice S5000000x1 ![0, 1]
      (extractStridedSlice S5000000x2 ![0, 0] bd slices_S5001216x2_S5000000x2_0_0) slices_S5000000x2_S5000000x1_0_1)
    shapeCasts_S5000000x1_S5000000

/-- The cell word of each observation: 16 · task word + class word. -/
def cellWord (ii yy : S5000000.Idx → BitVec 32) : S5000000.Idx → BitVec 32 :=
  addi (muli ii (broadcastInDim S5000000 ![] bcast_S_S5000000 (constantI S_ 32 16#32))) yy

/-- The per-task sums of column 0: the scatter-add into 500000 zeros by the task word. -/
def taskSums (bd : S5001216x2.Idx → EReal) (ii : S5000000.Idx → BitVec 32) : S500000.Idx → EReal :=
  Host.scatterAdd (F := Ideal) scatter_S500000_S5000000x1_S5000000_n_0_0_1
    (broadcastInDim S500000 ![] bcast_S_S500000 (constant (F := Ideal) S_ .f32 0x00000000#32))
    (broadcastInDim S5000000x1 ![0] bcast_S5000000_S5000000x1_0 ii) (bnVec bd)

/-- The per-cell sums of column 1: the scatter-add into 8000000 zeros by the cell word. -/
def cellSums (bd : S5001216x2.Idx → EReal) (ii yy : S5000000.Idx → BitVec 32) : S8000000.Idx → EReal :=
  Host.scatterAdd (F := Ideal) scatter_S8000000_S5000000x1_S5000000_n_0_0_1
    (broadcastInDim S8000000 ![] bcast_S_S8000000 (constant (F := Ideal) S_ .f32 0x00000000#32))
    (broadcastInDim S5000000x1 ![0] bcast_S5000000_S5000000x1_0 (cellWord ii yy)) (dnVec bd)

/-- The cell sums as [500000, 16] beside the task sums as a column: [500000, 17]. -/
def sideBySide (bd : S5001216x2.Idx → EReal) (ii yy : S5000000.Idx → BitVec 32) : S500000x17.Idx → EReal :=
  concatenate S500000x17 1
    [⟨S500000x16, shapeCast S500000x16 (cellSums bd ii yy) shapeCasts_S8000000_S500000x16⟩,
     ⟨S500000x1, broadcastInDim S500000x1 ![0] bcast_S500000_S500000x1_0 (taskSums bd ii)⟩]
    concatenates_S500000x16_S500000x1_S500000x17_d1

/-- Padded with 3808 rows of the float of the integer 0. -/
def dbTerm (bd : S5001216x2.Idx → EReal) (ii yy : S5000000.Idx → BitVec 32) : S503808x17.Idx → EReal :=
  pad S503808x17 ![0, 0] ![3808, 0] ![0, 0] (sideBySide bd ii yy)
    (sitofp (F := Ideal) .f32 (constantI S_ 32 0#32)) pads_S500000x17_S503808x17_038080_000 h_S_

/-- What the pad call leaves in its result, from any contents. -/
theorem after_pad (V : Valuation τ sig (Elt Ideal)) :
    (StableHlo.after (hostOps1_1 (F := Ideal)) V (Proc.devRef .tc main_v43) : S503808x17.Idx → EReal)
      = pad S503808x17 ![0, 0] ![3808, 0] ![0, 0] (V (Proc.devRef .tc main_v42) : S500000x17.Idx → EReal)
          (sitofp (F := Ideal) .f32 (V (Proc.devRef .tc main_c_8) : S_.Idx → BitVec 32)) pads_S500000x17_S503808x17_038080_000 h_S_ := by
  dsimp only [hostOps1_1]
  after_results
  rfl

/-- The integer constant the pad call converts. -/
theorem after_c8 (V : Valuation τ sig (Elt Ideal)) :
    (StableHlo.after (hostOps1 (F := Ideal)) V (Proc.devRef .tc main_c_8) : S_.Idx → BitVec 32) = constantI S_ 32 0#32 := by
  dsimp only [hostOps1]
  after_results

set_option maxHeartbeats 1000000 in
/-- What the host operations leave in the [500000, 17] array, from any contents. -/
theorem after_side (V : Valuation τ sig (Elt Ideal)) :
    (StableHlo.after (hostOps1 (F := Ideal)) V (Proc.devRef .tc main_v42) : S500000x17.Idx → EReal)
      = sideBySide (V (Proc.devRef .tc main_v25)) (V (Proc.devRef .tc main_arg1)) (V (Proc.devRef .tc main_arg3)) := by
  dsimp only [hostOps1]
  after_results
  rfl

/-! ## The term read at an index -/

theorem bnVec_apply (bd : S5001216x2.Idx → EReal) (n : Fin 5000000) :
    bnVec bd (ix1 n) = bd (ix2 (Fin.castLE (by decide : 5000000 ≤ 5001216) n) (0 : Fin 2)) := by
  unfold bnVec
  refine (shapeCast_apply _ _ (ix1 n) (ix2 n (0 : Fin 1)) ?_).trans ?_
  · rw [Shape.rowMajor_val_two, Shape.rowMajor_val_one]; show n.val * 1 + 0 = n.val; omega
  refine (extractStridedSlice_apply _ _ _ (ix2 n (0 : Fin 1)) (ix2 n (0 : Fin 2)) (fun a => ?_)).trans ?_
  · match a with
    | ⟨0, _⟩ => show n.val = 0 + n.val; omega
    | ⟨1, _⟩ => rfl
  refine extractStridedSlice_apply _ _ _ (ix2 n (0 : Fin 2)) (ix2 (Fin.castLE (by decide : 5000000 ≤ 5001216) n) (0 : Fin 2)) (fun a => ?_)
  match a with
  | ⟨0, _⟩ => show n.val = 0 + n.val; omega
  | ⟨1, _⟩ => rfl

theorem dnVec_apply (bd : S5001216x2.Idx → EReal) (n : Fin 5000000) :
    dnVec bd (ix1 n) = bd (ix2 (Fin.castLE (by decide : 5000000 ≤ 5001216) n) (1 : Fin 2)) := by
  unfold dnVec
  refine (shapeCast_apply _ _ (ix1 n) (ix2 n (0 : Fin 1)) ?_).trans ?_
  · rw [Shape.rowMajor_val_two, Shape.rowMajor_val_one]; show n.val * 1 + 0 = n.val; omega
  refine (extractStridedSlice_apply _ _ _ (ix2 n (0 : Fin 1)) (ix2 n (1 : Fin 2)) (fun a => ?_)).trans ?_
  · match a with
    | ⟨0, _⟩ => show n.val = 0 + n.val; omega
    | ⟨1, _⟩ => rfl
  refine extractStridedSlice_apply _ _ _ (ix2 n (1 : Fin 2)) (ix2 (Fin.castLE (by decide : 5000000 ≤ 5001216) n) (1 : Fin 2)) (fun a => ?_)
  match a with
  | ⟨0, _⟩ => show n.val = 0 + n.val; omega
  | ⟨1, _⟩ => rfl

/-- A word vector laid out as an [M, 1] index array, read at (n, 0). -/
theorem idxCol_apply (w : S5000000.Idx → BitVec 32) (n : Fin 5000000) :
    broadcastInDim S5000000x1 ![0] bcast_S5000000_S5000000x1_0 w (ix2 n (0 : Fin 1)) = w (ix1 n) :=
  broadcastInDim_apply _ _ _ _ (ix1 n) fun a => match a with
    | ⟨0, _⟩ => rfl

theorem cellWord_apply (ii yy : S5000000.Idx → BitVec 32) (n : Fin 5000000) :
    cellWord ii yy (ix1 n) = ii (ix1 n) * 16#32 + yy (ix1 n) := by
  unfold cellWord
  show ii (ix1 n) * broadcastInDim S5000000 ![] bcast_S_S5000000 (constantI S_ 32 16#32) (ix1 n) + yy (ix1 n) = _
  rw [broadcastInDim_apply _ _ _ (ix1 n) ix0 (fun a => a.elim0), constantI_apply]

theorem zeros_task (i : S500000.Idx) :
    broadcastInDim S500000 ![] bcast_S_S500000 (constant (F := Ideal) S_ .f32 0x00000000#32) i = Spec.c0 := by
  rw [broadcastInDim_apply _ _ _ i ix0 (fun a => a.elim0)]; rfl

theorem zeros_cell (i : S8000000.Idx) :
    broadcastInDim S8000000 ![] bcast_S_S8000000 (constant (F := Ideal) S_ .f32 0x00000000#32) i = Spec.c0 := by
  rw [broadcastInDim_apply _ _ _ i ix0 (fun a => a.elim0)]; rfl

/-! ## The words in range -/

/-- 16 · a + b as 32-bit words is the word of the number. -/
theorem cell_word (a b : ℕ) : BitVec.ofNat 32 a * 16#32 + BitVec.ofNat 32 b = BitVec.ofNat 32 (a * 16 + b) := by
  apply BitVec.eq_of_toNat_eq
  simp only [BitVec.toNat_add, BitVec.toNat_mul, BitVec.toNat_ofNat]
  omega

/-- Vector indices of length n are the numbers below n. -/
def ix1Equiv (n : ℕ) : Fin n ≃ (⟨1, ![n]⟩ : Shape).Idx where
  toFun := ix1
  invFun j := j 0
  left_inv _ := rfl
  right_inv j := (eq_ix1 j).symm

/-! ## A one-axis scatter-add at an entry -/

/-- Entry t of the scatter-add is the operand's entry plus the sum of the updates whose start word, read signed, is t. -/
theorem scatter1_apply {N M : ℕ} (d : ScatterDims (⟨1, ![N]⟩ : Shape) (⟨2, ![M, 1]⟩ : Shape) (⟨1, ![M]⟩ : Shape))
    (hstart : ∀ (j : (⟨1, ![M]⟩ : Shape).Idx) (idx : IVec (⟨2, ![M, 1]⟩ : Shape) 32),
      d.start j idx 0 = (idx (ix2 (j 0) 0)).toInt)
    (hwin : ∀ j : (⟨1, ![M]⟩ : Shape).Idx, d.window j 0 = 0)
    (x : (⟨1, ![N]⟩ : Shape).Idx → EReal) (idx : IVec (⟨2, ![M, 1]⟩ : Shape) 32) (upd : (⟨1, ![M]⟩ : Shape).Idx → EReal)
    (t : Fin N) (P : Fin M → Prop) [DecidablePred P]
    (hP : ∀ n, (idx (ix2 n (0 : Fin 1))).toInt = (t.val : ℤ) ↔ P n) :
    Ideal.hostScatterAdd d x idx upd (ix1 t) = x (ix1 t) + ∑ n ∈ Finset.univ.filter P, upd (ix1 n) := by
  unfold Ideal.hostScatterAdd
  refine congrArg (fun z => x (ix1 t) + z) ?_
  symm
  refine Finset.sum_equiv (ix1Equiv M) (fun n => ?_) (fun n _ => rfl)
  rw [Finset.mem_filter, Finset.mem_filter, resultIdx?_eq_some_iff d hstart hwin]
  simp only [Finset.mem_univ, true_and]
  exact (hP n).symm

/-! ## The two scatter-adds at an entry -/

variable (I : Fin 5000000 → Fin 500000) (Y : Fin 5000000 → Fin 16)

/-- The task sums, with the exact sum named. -/
theorem taskSums_unfold (bd : S5001216x2.Idx → EReal) (ii : S5000000.Idx → BitVec 32) :
    taskSums bd ii = Ideal.hostScatterAdd scatter_S500000_S5000000x1_S5000000_n_0_0_1
      (broadcastInDim S500000 ![] bcast_S_S500000 (constant (F := Ideal) S_ .f32 0x00000000#32))
      (broadcastInDim S5000000x1 ![0] bcast_S5000000_S5000000x1_0 ii) (bnVec bd) := rfl

/-- The cell sums, with the exact sum named. -/
theorem cellSums_unfold (bd : S5001216x2.Idx → EReal) (ii yy : S5000000.Idx → BitVec 32) :
    cellSums bd ii yy = Ideal.hostScatterAdd scatter_S8000000_S5000000x1_S5000000_n_0_0_1
      (broadcastInDim S8000000 ![] bcast_S_S8000000 (constant (F := Ideal) S_ .f32 0x00000000#32))
      (broadcastInDim S5000000x1 ![0] bcast_S5000000_S5000000x1_0 (cellWord ii yy)) (dnVec bd) := rfl

/-- The task word of observation n, read signed, is i exactly when n is an observation of task i. -/
theorem task_word_iff (ii : S5000000.Idx → BitVec 32) (hI : ∀ n, ii (ix1 n) = BitVec.ofNat 32 (I n).val)
    (i : Fin 500000) (n : Fin 5000000) :
    (broadcastInDim S5000000x1 ![0] bcast_S5000000_S5000000x1_0 ii (ix2 n (0 : Fin 1))).toInt = (i.val : ℤ) ↔ I n = i := by
  rw [idxCol_apply ii n, hI n, StableHlo.Predicate.toInt_ofNat_small (I n).val (by have := (I n).isLt; omega)]
  constructor
  · intro h; exact Fin.ext (by exact_mod_cast h)
  · rintro rfl; rfl

/-- The cell word of observation n, read signed, is 16 · i + k exactly when n is an observation of task i and class k. -/
theorem cell_word_iff (ii yy : S5000000.Idx → BitVec 32) (hI : ∀ n, ii (ix1 n) = BitVec.ofNat 32 (I n).val)
    (hY : ∀ n, yy (ix1 n) = BitVec.ofNat 32 (Y n).val) (i : Fin 500000) (k : Fin 16) (n : Fin 5000000) :
    (broadcastInDim S5000000x1 ![0] bcast_S5000000_S5000000x1_0 (cellWord ii yy) (ix2 n (0 : Fin 1))).toInt
      = ((16 * i.val + k.val : ℕ) : ℤ) ↔ (I n = i ∧ Y n = k) := by
  have hi := (I n).isLt
  have hy := (Y n).isLt
  have hk := k.isLt
  rw [idxCol_apply (cellWord ii yy) n, cellWord_apply ii yy n, hI n, hY n, cell_word (I n).val (Y n).val,
    StableHlo.Predicate.toInt_ofNat_small ((I n).val * 16 + (Y n).val) (by omega)]
  constructor
  · intro e
    have e' : (I n).val * 16 + (Y n).val = 16 * i.val + k.val := by exact_mod_cast e
    exact ⟨Fin.ext (by omega), Fin.ext (by omega)⟩
  · rintro ⟨rfl, rfl⟩; congr 1; omega

theorem taskSums_apply (bd : S5001216x2.Idx → EReal) (ii : S5000000.Idx → BitVec 32)
    (hI : ∀ n, ii (ix1 n) = BitVec.ofNat 32 (I n).val) (i : Fin 500000) :
    taskSums bd ii (ix1 i) = Spec.c0 + ∑ n ∈ Finset.univ.filter (fun n => I n = i),
      bd (ix2 (Fin.castLE (by decide : 5000000 ≤ 5001216) n) (0 : Fin 2)) := by
  have h := scatter1_apply scatter_S500000_S5000000x1_S5000000_n_0_0_1 start_task window_task
    (broadcastInDim S500000 ![] bcast_S_S500000 (constant (F := Ideal) S_ .f32 0x00000000#32))
    (broadcastInDim S5000000x1 ![0] bcast_S5000000_S5000000x1_0 ii) (bnVec bd) i (fun n => I n = i)
    (fun n => task_word_iff I ii hI i n)
  refine (congrFun (taskSums_unfold bd ii) (ix1 i)).trans (h.trans ?_)
  rw [zeros_task (ix1 i)]
  refine congrArg (fun z => Spec.c0 + z) ?_
  exact Finset.sum_congr rfl (fun n _ => bnVec_apply bd n)

theorem cellSums_apply (bd : S5001216x2.Idx → EReal) (ii yy : S5000000.Idx → BitVec 32)
    (hI : ∀ n, ii (ix1 n) = BitVec.ofNat 32 (I n).val) (hY : ∀ n, yy (ix1 n) = BitVec.ofNat 32 (Y n).val)
    (i : Fin 500000) (k : Fin 16) (h8 : 16 * i.val + k.val < 8000000) :
    cellSums bd ii yy (ix1 ⟨16 * i.val + k.val, h8⟩) = Spec.c0 + ∑ n ∈ Finset.univ.filter (fun n => I n = i ∧ Y n = k),
      bd (ix2 (Fin.castLE (by decide : 5000000 ≤ 5001216) n) (1 : Fin 2)) := by
  have h := scatter1_apply scatter_S8000000_S5000000x1_S5000000_n_0_0_1 start_cell window_cell
    (broadcastInDim S8000000 ![] bcast_S_S8000000 (constant (F := Ideal) S_ .f32 0x00000000#32))
    (broadcastInDim S5000000x1 ![0] bcast_S5000000_S5000000x1_0 (cellWord ii yy)) (dnVec bd) ⟨16 * i.val + k.val, h8⟩
    (fun n => I n = i ∧ Y n = k) (fun n => cell_word_iff I Y ii yy hI hY i k n)
  refine (congrFun (cellSums_unfold bd ii yy) (ix1 ⟨16 * i.val + k.val, h8⟩)).trans (h.trans ?_)
  rw [zeros_cell (ix1 ⟨16 * i.val + k.val, h8⟩)]
  refine congrArg (fun z => Spec.c0 + z) ?_
  exact Finset.sum_congr rfl (fun n _ => dnVec_apply bd n)
/-! ## The layout around them -/

theorem sideBySide_cell (bd : S5001216x2.Idx → EReal) (ii yy : S5000000.Idx → BitVec 32) (i : Fin 500000) (k : Fin 16)
    (h : 16 * i.val + k.val < 8000000) :
    sideBySide bd ii yy (ix2 i (Fin.castLE (by decide : 16 ≤ 17) k)) = cellSums bd ii yy (ix1 ⟨16 * i.val + k.val, h⟩) := by
  have hr : S500000x16.rank = S500000x17.rank := rfl
  have hi : ∀ b : Fin S500000x16.rank,
      ((ix2 i k : S500000x16.Idx) b).val = ((ix2 i (Fin.castLE (by decide : 16 ≤ 17) k) : S500000x17.Idx) (b.cast hr)).val := fun b => by
    match b with
    | ⟨0, _⟩ => rfl
    | ⟨1, _⟩ => rfl
  have e1 := concatenate_pair_apply_left (t := S500000x17) (s₁ := S500000x16) (s₂ := S500000x1) 1
    (shapeCast S500000x16 (cellSums bd ii yy) shapeCasts_S8000000_S500000x16)
    (broadcastInDim S500000x1 ![0] bcast_S500000_S500000x1_0 (taskSums bd ii))
    concatenates_S500000x16_S500000x1_S500000x17_d1 (ix2 i (Fin.castLE (by decide : 16 ≤ 17) k)) hr (ix2 i k) hi
  refine e1.trans ?_
  refine shapeCast_apply _ _ (ix2 i k) (ix1 ⟨16 * i.val + k.val, h⟩) ?_
  rw [Shape.rowMajor_val_one, Shape.rowMajor_val_two]
  show 16 * i.val + k.val = i.val * 16 + k.val
  omega

theorem sideBySide_task (bd : S5001216x2.Idx → EReal) (ii yy : S5000000.Idx → BitVec 32) (i : Fin 500000) :
    sideBySide bd ii yy (ix2 i (16 : Fin 17)) = taskSums bd ii (ix1 i) := by
  have hr : S500000x16.rank = S500000x17.rank := rfl
  have hr₂ : S500000x1.rank = S500000x17.rank := rfl
  have hi : ∀ b : Fin S500000x1.rank, b.cast hr₂ ≠ (1 : Fin S500000x17.rank) →
      ((ix2 i (0 : Fin 1) : S500000x1.Idx) b).val = ((ix2 i (16 : Fin 17) : S500000x17.Idx) (b.cast hr₂)).val := fun b hb => by
    match b with
    | ⟨0, _⟩ => rfl
    | ⟨1, _⟩ => exact absurd rfl hb
  have ha : ((ix2 i (0 : Fin 1) : S500000x1.Idx) ((1 : Fin S500000x17.rank).cast hr₂.symm)).val
      + S500000x16.size ((1 : Fin S500000x17.rank).cast hr.symm) = ((ix2 i (16 : Fin 17) : S500000x17.Idx) 1).val := rfl
  have e1 := concatenate_pair_apply_right (t := S500000x17) (s₁ := S500000x16) (s₂ := S500000x1) 1
    (shapeCast S500000x16 (cellSums bd ii yy) shapeCasts_S8000000_S500000x16)
    (broadcastInDim S500000x1 ![0] bcast_S500000_S500000x1_0 (taskSums bd ii))
    concatenates_S500000x16_S500000x1_S500000x17_d1 (ix2 i (16 : Fin 17)) hr hr₂ (ix2 i (0 : Fin 1)) hi ha
  refine e1.trans ?_
  exact broadcastInDim_apply _ _ _ _ (ix1 i) fun a => match a with
    | ⟨0, _⟩ => rfl

theorem dbTerm_apply (bd : S5001216x2.Idx → EReal) (ii yy : S5000000.Idx → BitVec 32) (i : Fin 500000) (q : Fin 17) :
    dbTerm bd ii yy (ix2 (Fin.castLE (by decide : 500000 ≤ 503808) i) q) = sideBySide bd ii yy (ix2 i q) := by
  have hk : ∀ a : Fin S500000x17.rank,
      ((ix2 (Fin.castLE (by decide : 500000 ≤ 503808) i) q : S503808x17.Idx) (a.cast pads_S500000x17_S503808x17_038080_000.1)).val
        = (![0, 0] : Fin 2 → ℕ) a + ((ix2 i q : S500000x17.Idx) a).val * ((![0, 0] : Fin 2 → ℕ) a + 1) := fun a => by
    match a with
    | ⟨0, _⟩ => show i.val = 0 + i.val * (0 + 1); omega
    | ⟨1, _⟩ => show q.val = 0 + q.val * (0 + 1); omega
  exact pad_apply_of_inside (s := S500000x17) (t := S503808x17) ![0, 0] ![3808, 0] ![0, 0] (sideBySide bd ii yy)
    (sitofp (F := Ideal) .f32 (constantI S_ 32 0#32)) pads_S500000x17_S503808x17_038080_000 h_S_
    (ix2 (Fin.castLE (by decide : 500000 ≤ 503808) i) q) (ix2 i q) hk

/-! ## The array the second region finds -/

/-- No operation before the first region's exit writes this argument: it is as launched. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := StableHlo.after_of_forall_not_mem (b := Proc.devRef .tc main_arg1) _ _ (List.forall_iff_forall_mem.mp (by
          simp only [hostOps0_1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = m ((c : Thread nD τ).loc main_arg1) := rfl

/-- No operation before the first region's exit writes this argument: it is as launched. -/
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := StableHlo.after_of_forall_not_mem (b := Proc.devRef .tc main_arg3) _ _ (List.forall_iff_forall_mem.mp (by
          simp only [hostOps0_1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = m ((c : Thread nD τ).loc main_arg3) := rfl

/-- The padded array is the host operations' term over the gathered pairs and the two index arguments as launched. -/
theorem dbArr_eq (c : Dev nD) : dbArr m ρ c = dbTerm (bdArr m ρ c) (iiArg m c) (yArg m c) := by
  show StableHlo.after hostOps1_1 (StableHlo.after hostOps1 (W3 m ρ c)) (Proc.devRef .tc main_v43) = _
  rw [after_pad, after_c8, after_side, W3_main_arg1, W3_main_arg3]
  rfl

/-! ## The two reads -/

/-- Entry (i, k), k < 16: zero plus the sum of column 1 of the gathered pairs over the observations of task i and class k. -/
theorem db_d (c : Dev nD) (hI : ∀ n, iiArg m c (ix1 n) = BitVec.ofNat 32 (I n).val)
    (hY : ∀ n, yArg m c (ix1 n) = BitVec.ofNat 32 (Y n).val) (i : Fin 500000) (k : Fin 16) :
    dbArr m ρ c (ix2 (Fin.castLE (by decide : 500000 ≤ 503808) i) (Fin.castLE (by decide : 16 ≤ 17) k))
      = Spec.c0 + ∑ n ∈ Finset.univ.filter (fun n => I n = i ∧ Y n = k),
          bdArr m ρ c (ix2 (Fin.castLE (by decide : 5000000 ≤ 5001216) n) (1 : Fin 2)) := by
  have h8 : 16 * i.val + k.val < 8000000 := by have := i.isLt; have := k.isLt; omega
  exact (congrFun (dbArr_eq m ρ c) _).trans
    ((dbTerm_apply (bdArr m ρ c) (iiArg m c) (yArg m c) i (Fin.castLE (by decide : 16 ≤ 17) k)).trans
      ((sideBySide_cell (bdArr m ρ c) (iiArg m c) (yArg m c) i k h8).trans
        (cellSums_apply I Y (bdArr m ρ c) (iiArg m c) (yArg m c) hI hY i k h8)))

/-- Entry (i, 16): zero plus the sum of column 0 of the gathered pairs over the observations of task i. -/
theorem db_b (c : Dev nD) (hI : ∀ n, iiArg m c (ix1 n) = BitVec.ofNat 32 (I n).val) (i : Fin 500000) :
    dbArr m ρ c (ix2 (Fin.castLE (by decide : 500000 ≤ 503808) i) (16 : Fin 17))
      = Spec.c0 + ∑ n ∈ Finset.univ.filter (fun n => I n = i),
          bdArr m ρ c (ix2 (Fin.castLE (by decide : 5000000 ≤ 5001216) n) (0 : Fin 2)) := by
  exact (congrFun (dbArr_eq m ρ c) _).trans
    ((dbTerm_apply (bdArr m ρ c) (iiArg m c) (yArg m c) i (16 : Fin 17)).trans
      ((sideBySide_task (bdArr m ρ c) (iiArg m c) (yArg m c) i).trans
        (taskSums_apply I (bdArr m ρ c) (iiArg m c) hI i)))

end Cert.KernelIdeal.Stage

end
-- ==== Proof.KRegion1.lean ====
/-
  The second region, read as a whole array: row r of its output holds in columns 0 … 15 the softmax of columns 0 … 15 of the
  same row of its input, and in column 16 the input's column 16 plus Σ qz · (d − log qz).

  The region's grid has 123 points; point t works on rows 4096 t … 4096 t + 4095, all 17 columns, of both arrays. The body
  takes the row maximum of the first 16 columns, subtracts it, exponentiates, sums along the row, takes the logarithm and
  subtracts it again (log qz), exponentiates (qz), and puts beside qz the row's entry 16 plus the row sum of qz · (d − log qz).
  Below: the two keepdims column forms read at an index; the two reductions along the columns read at a row; the body's
  value at (row, column); and the passage from the blocks to the whole array, whose blocks tile it.
-/
import proofs.«115153_j22256520528420_1_alg».proof.Proof.KStageDefs
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx
open Cert.KernelIdeal Cert.KernelIdeal.Gen

namespace Cert.KernelIdeal.Stage

namespace Region1

section Columns
variable {α : Type}

/-- A length-a vector cast to a column [a, 1] reads, at (p, q), the vector at p. -/
theorem shapeCast_a_a1_apply {a : ℕ} (x : (⟨1, ![a]⟩ : Shape).Idx → α) (h : (⟨1, ![a]⟩ : Shape).ShapeCasts ⟨2, ![a, 1]⟩)
    (p : Fin a) (q : Fin 1) : shapeCast ⟨2, ![a, 1]⟩ x h (ix2 p q) = x (ix1 p) :=
  shapeCast_apply x h _ _ (by
    have hq : q.val = 0 := by omega
    rw [Shape.rowMajor_val_two, Shape.rowMajor_val_one]
    show p.val = p.val * 1 + q.val
    rw [hq, Nat.mul_one, Nat.add_zero])

/-- A column [a, 1] broadcast to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Columns

/-! ## Rows of the block: the reductions along the 16 columns, read at a row -/

/-- The maximum along the columns, at row p: the fold of max from the word for −∞ over the row's 16 entries. -/
theorem rowMax_read (v : FVec Ideal S4096x16 .f32) (h : S4096x16.Reduces [1] S4096) (hφ : FTy.f32 = FTy.f32 ∨ FTy.f32 = FTy.bf16)
    (hacc : (0xFF800000#32 : BitVec 32) = 0xFF800000#32) (p : Fin 4096) :
    multiReduction (F := Ideal) .maximumf [1] S4096 v 0xFF800000#32 h hφ hacc (ix1 p)
      = Spec.rowMax (fun k : Fin 16 => v (ix2 p k)) := by
  refine (Ideal.multiReduction_maximumf_single v 0xFF800000#32 h hφ hacc (ix1 p)).trans ?_
  have e : (v ∘ h.lift (ix1 p)) = fun k : Fin 16 => v (ix2 p k) :=
    funext fun k => congrArg v (funext fun a => Fin.ext (match a with | ⟨0, _⟩ => rfl | ⟨1, _⟩ => rfl))
  rw [e]
  rfl

/-- The sum along the columns, at row p: the sum of the row's 16 entries. -/
theorem rowSum_read (v : FVec Ideal S4096x16 .f32) (h : S4096x16.Reduces [1] S4096) (hφ : FTy.f32 = FTy.f32 ∨ FTy.f32 = FTy.bf16)
    (hacc : (0x00000000#32 : BitVec 32) = 0x00000000#32) (p : Fin 4096) :
    multiReduction (F := Ideal) .add [1] S4096 v 0x00000000#32 h hφ hacc (ix1 p)
      = ∑ k : Fin 16, v (ix2 p k) := by
  refine (Ideal.multiReduction_add_single v 0x00000000#32 h hφ hacc (ix1 p)).trans ?_
  exact Finset.sum_congr rfl fun k _ =>
    congrArg v (funext fun a => Fin.ext (match a with | ⟨0, _⟩ => rfl | ⟨1, _⟩ => rfl))

/-! ## The body's payload at a row of the block -/

section Payload

theorem exp_read {s : Shape} {φ : FTy} (a : FVec Ideal s φ) (i : s.Idx) : exp a i = Ideal.exp (a i) := rfl
theorem log_read {s : Shape} {φ : FTy} (a : FVec Ideal s φ) (i : s.Idx) : log a i = Ideal.log (a i) := rfl

variable (x0 : FVec Ideal S4096x17 .f32) (p : Fin 4096)

/-- Columns 0 … 15 of the block, at (p, k): the block at (p, k). -/
theorem cols_read (h : S4096x17.ShapeCasts S4096x17) (h' : S4096x17.Slices ![0, 0] S4096x16) (k : Fin 16) :
    extractStridedSlice S4096x16 ![0, 0] (shapeCast S4096x17 x0 h) h' (ix2 p k)
      = x0 (ix2 p (Fin.castLE (by decide : 16 ≤ 17) k)) := by
  rw [shapeCast_self]
  exact slice2_axis1_apply 0 x0 h' p k (Fin.castLE (by decide : 16 ≤ 17) k) (Nat.zero_add _).symm

/-- Column 16 of the block, at (p, 0): the block at (p, 16). -/
theorem col16_read (h : S4096x17.ShapeCasts S4096x17) (h' : S4096x17.Slices ![0, 16] S4096x1) (q : Fin 1) :
    extractStridedSlice S4096x1 ![0, 16] (shapeCast S4096x17 x0 h) h' (ix2 p q)
      = x0 (ix2 p (16 : Fin 17)) := by
  rw [shapeCast_self]
  exact slice2_axis1_apply 16 x0 h' p q (16 : Fin 17) (by have := q.isLt; show 16 = 16 + q.val; omega)

set_option maxRecDepth 16384 in
/-- The payload at row p, column k < 16: the softmax of the row's first 16 entries, at k. -/
theorem pay_q (k : Fin 16) :
    k1_pay1 (F := Ideal) x0 (ix2 p (Fin.castLE (by decide : 16 ≤ 17) k))
      = Spec.qzK (fun k' => x0 (ix2 p (Fin.castLE (by decide : 16 ≤ 17) k'))) k := by
  unfold k1_pay1
  dsimp only
  refine (concatenate_pair_apply_left (t := S4096x17) (s₁ := S4096x16) (s₂ := S4096x1) (1 : Fin 2) _ _ _ (ix2 p (Fin.castLE (by decide : 16 ≤ 17) k)) rfl (ix2 p k) (fun b => by
    match b with
    | ⟨0, _⟩ => rfl
    | ⟨1, _⟩ => rfl)).trans ?_
  simp only [exp_read, log_read, subf_apply, broadcastTo_a1_ab_apply, shapeCast_a_a1_apply, cols_read]
  rw [rowSum_read]
  simp only [exp_read, log_read, subf_apply, broadcastTo_a1_ab_apply, shapeCast_a_a1_apply, cols_read]
  rw [rowMax_read]
  simp only [cols_read]
  rfl

set_option maxRecDepth 16384 in
/-- The payload at row p, column 16: the row's entry 16 plus Σ qz · (d − log qz). -/
theorem pay_v :
    k1_pay1 (F := Ideal) x0 (ix2 p (16 : Fin 17))
      = Spec.vqK (fun k' => x0 (ix2 p (Fin.castLE (by decide : 16 ≤ 17) k'))) (x0 (ix2 p (16 : Fin 17))) := by
  unfold k1_pay1
  dsimp only
  refine (concatenate_pair_apply_right (t := S4096x17) (s₁ := S4096x16) (s₂ := S4096x1) (1 : Fin 2) _ _ _ (ix2 p (16 : Fin 17)) rfl rfl (ix2 p (0 : Fin 1)) (fun b hb => by
    match b with
    | ⟨0, _⟩ => rfl
    | ⟨1, _⟩ => exact absurd rfl hb) rfl).trans ?_
  simp only [exp_read, log_read, subf_apply, addf_apply, mulf_apply, broadcastTo_a1_ab_apply, shapeCast_a_a1_apply, cols_read, col16_read]
  rw [rowSum_read]
  simp only [exp_read, log_read, subf_apply, addf_apply, mulf_apply, broadcastTo_a1_ab_apply, shapeCast_a_a1_apply, cols_read, col16_read]
  rw [rowSum_read]
  simp only [exp_read, log_read, subf_apply, addf_apply, mulf_apply, broadcastTo_a1_ab_apply, shapeCast_a_a1_apply, cols_read, col16_read]
  rw [rowMax_read]
  simp only [cols_read]
  rfl

end Payload

/-! ## From blocks to the array -/

section Array

/-- Entry (r, q) of what the second region leaves, from the array A it finds: the softmax of row r's first 16 entries in
    columns q < 16, the row's entry 16 plus Σ qz · (d − log qz) in column 16. -/
def softEntry (A : S503808x17.Idx → EReal) (r : Fin 503808) (q : Fin 17) : EReal :=
  if h : q.val < 16 then Spec.qzK (fun k' => A (ix2 r (Fin.castLE (by decide : 16 ≤ 17) k'))) ⟨q.val, h⟩
  else Spec.vqK (fun k' => A (ix2 r (Fin.castLE (by decide : 16 ≤ 17) k'))) (A (ix2 r (16 : Fin 17)))

def softRows (A : S503808x17.Idx → EReal) : S503808x17.Idx → EReal := fun i => softEntry A (i 0) (i 1)

theorem softEntry_lt (A : S503808x17.Idx → EReal) (r : Fin 503808) (k : Fin 16) :
    softEntry A r (Fin.castLE (by decide : 16 ≤ 17) k)
      = Spec.qzK (fun k' => A (ix2 r (Fin.castLE (by decide : 16 ≤ 17) k'))) k := by
  unfold softEntry
  rw [dif_pos (show (Fin.castLE (by decide : 16 ≤ 17) k).val < 16 from k.isLt)]
  rfl

theorem softEntry_16 (A : S503808x17.Idx → EReal) (r : Fin 503808) :
    softEntry A r (16 : Fin 17)
      = Spec.vqK (fun k' => A (ix2 r (Fin.castLE (by decide : 16 ≤ 17) k'))) (A (ix2 r (16 : Fin 17))) := by
  unfold softEntry
  rw [dif_neg (show ¬ ((16 : Fin 17).val < 16) by decide)]

theorem hz1 : (![0, 0] : Fin 2 → Nat) = fun _ => 0 :=
  funext fun a => match a with | ⟨0, _⟩ => rfl | ⟨1, _⟩ => rfl

/-- The printed index maps over the grid: at point t both windows' block is row block t, column block 0. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- Where element (p, q) of the input window's block at point t sits in its array: row 4096 t + p, column q. -/
theorem emb_in (t : Fin cfg1.N) (p : Fin 4096) (q : Fin 17) (r : Fin 503808) (hr : r.val = t.val * 4096 + p.val) :
    ((cfg1.win 0).blk t).view.emb (ix2 p q) = ix2 r q := by
  obtain ⟨e0, e1, -, -⟩ := idx_facts1 t
  funext a; apply Fin.ext
  match a with
  | ⟨0, _⟩ => show win1_0.index t (0 : Fin 2) * 4096 + 1 * p.val = r.val; omega
  | ⟨1, _⟩ => show win1_0.index t (1 : Fin 2) * 17 + 1 * q.val = q.val; omega

/-- Likewise for the output window. -/
theorem emb_out (t : Fin cfg1.N) (p : Fin 4096) (q : Fin 17) (r : Fin 503808) (hr : r.val = t.val * 4096 + p.val) :
    ((cfg1.win 1).blk t).view.emb (ix2 p q) = ix2 r q := by
  obtain ⟨-, -, e0, e1⟩ := idx_facts1 t
  funext a; apply Fin.ext
  match a with
  | ⟨0, _⟩ => show win1_1.index t (0 : Fin 2) * 4096 + 1 * p.val = r.val; omega
  | ⟨1, _⟩ => show win1_1.index t (1 : Fin 2) * 17 + 1 * q.val = q.val; omega

end Array

section Run
variable (m : (ℓ : Loc nD τ sig) → Buf (Elt Ideal) ℓ) (ρ : Dev nD → PrngReg)

/-- Element j of what the body leaves at point t is softRows of the array the region finds, at j's place in the array. -/
theorem left_at (c : Dev nD) (t : Fin cfg1.N) (j : S4096x17.Idx) :
    k1_pay1 (F := Ideal) (iblk1 (V5 m ρ) c 0 t) j
      = softRows (dbArr m ρ c) (((cfg1.win 1).blk t).view.emb j) := by
  obtain ⟨p, q, rfl⟩ : ∃ (p : Fin 4096) (q : Fin 17), j = ix2 p q := ⟨j 0, j 1, eq_ix2 j⟩
  have ht : t.val < 123 := lt_of_lt_of_eq t.isLt N_1
  have hp : p.val < 4096 := p.isLt
  have hr : t.val * 4096 + p.val < 503808 := by omega
  refine Eq.trans ?_ (congrArg (softRows (dbArr m ρ c)) (emb_out t p q ⟨t.val * 4096 + p.val, hr⟩ rfl).symm)
  show _ = softEntry (dbArr m ρ c) ⟨t.val * 4096 + p.val, hr⟩ q
  have hX : ∀ q' : Fin 17, (iblk1 (V5 m ρ) c 0 t : FVec Ideal S4096x17 .f32) (ix2 p q')
      = dbArr m ρ c (ix2 ⟨t.val * 4096 + p.val, hr⟩ q') := fun q' =>
    show V5 m ρ c main_v43 (((cfg1.win 0).blk t).view.emb (ix2 p q')) = _ from
      congrArg (V5 m ρ c main_v43) (emb_in t p q' ⟨t.val * 4096 + p.val, hr⟩ rfl)
  by_cases hq : q.val < 16
  · obtain ⟨k, rfl⟩ : ∃ k : Fin 16, q = Fin.castLE (by decide : 16 ≤ 17) k := ⟨⟨q.val, hq⟩, Fin.ext rfl⟩
    rw [softEntry_lt]
    refine (pay_q (iblk1 (V5 m ρ) c 0 t) p k).trans ?_
    exact congrArg (fun d => Spec.qzK d k) (funext fun k' => hX _)
  · have h16 : q = (16 : Fin 17) := Fin.ext (by have := q.isLt; show q.val = 16; omega)
    subst h16
    rw [softEntry_16]
    refine (pay_v (iblk1 (V5 m ρ) c 0 t) p).trans ?_
    rw [hX]
    exact congrArg (fun d => Spec.vqK d _) (funext fun k' => hX _)

/-- What point t writes back is block t of softRows of the array the region finds. -/
theorem flushed1_eq (c : Dev nD) (t : Fin cfg1.N) :
    (dat1 (V5 m ρ) c).flushed 1 t = ((cfg1.win 1).blk t).view.read (Elt Ideal) (softRows (dbArr m ρ c)) := by
  show (cfg1.win 1).cut (grid1.coords t) ((dat1 (V5 m ρ) c).after 1 t) = _
  rw [after1_1]
  unfold out1_1
  rw [View.canon_unit_zero hz1]
  simp only [View.ld_unit_zero (S := S4096x17) hz1]
  funext j
  exact left_at m ρ c t j

/-- An index of the array is in point t's block iff each coordinate is in the block's range on its axis. -/
theorem mem_blk1 (t : Fin cfg1.N) (i : S503808x17.Idx) :
    i ∈ ((cfg1.win 1).blk t).view.set ↔ ∀ a : Fin 2, win1_1.index t a * S4096x17.size a ≤ (i a).val ∧ (i a).val < win1_1.index t a * S4096x17.size a + S4096x17.size a := by
  show i ∈ ((View.whole main_v44).slice (win1_1.rect t)).set ↔ _
  rw [View.set_slice_whole, Rect.mem_set_unit]
  exact Iff.rfl

/-- Row r lies in the block of point r / 4096: the blocks cover the array. -/
theorem cover1 (i : S503808x17.Idx) : ∃ t : Fin cfg1.N, (cfg1.win 1).flush t = true ∧ i ∈ ((cfg1.win 1).blk t).view.set := by
  have hi0 : (i 0).val < 503808 := (i 0).isLt
  have hi1 : (i 1).val < 17 := (i 1).isLt
  have hN : cfg1.N = 123 := N_1
  have hlt : (i 0).val / 4096 < cfg1.N := by rw [hN]; omega
  obtain ⟨-, -, e0, e1⟩ := idx_facts1 ⟨(i 0).val / 4096, hlt⟩
  have e0' : win1_1.index ⟨(i 0).val / 4096, hlt⟩ (0 : Fin 2) = (i 0).val / 4096 := e0
  refine ⟨⟨(i 0).val / 4096, hlt⟩, flush1_1 _, ?_⟩
  rw [mem_blk1]
  intro a
  match a with
  | ⟨0, _⟩ => show win1_1.index ⟨(i 0).val / 4096, hlt⟩ (0 : Fin 2) * 4096 ≤ (i 0).val ∧ (i 0).val < win1_1.index ⟨(i 0).val / 4096, hlt⟩ (0 : Fin 2) * 4096 + 4096; omega
  | ⟨1, _⟩ => show win1_1.index ⟨(i 0).val / 4096, hlt⟩ (1 : Fin 2) * 17 ≤ (i 1).val ∧ (i 1).val < win1_1.index ⟨(i 0).val / 4096, hlt⟩ (1 : Fin 2) * 17 + 17; omega

/-- The array the second region leaves is softRows of the array it finds. -/
theorem out_eq (c : Dev nD) : outArr m ρ c = softRows (dbArr m ρ c) :=
  (W6_arr m ρ c 1).trans
    ((dat1 (V5 m ρ) c).arrAt_eq_of_cover 1 (softRows (dbArr m ρ c)) (fun t _ => flushed1_eq m ρ c t) cover1)

end Run

end Region1

open Region1

variable (m : (ℓ : Loc nD τ sig) → Buf (Elt Ideal) ℓ) (ρ : Dev nD → PrngReg)

theorem softmaxed_q (c : Dev nD) (r : Fin 503808) (k : Fin 16) :
    outArr m ρ c (ix2 r (Fin.castLE (by decide : 16 ≤ 17) k))
      = Spec.qzK (fun k' => dbArr m ρ c (ix2 r (Fin.castLE (by decide : 16 ≤ 17) k'))) k := by
  rw [out_eq]
  exact softEntry_lt _ r k

theorem softmaxed_v (c : Dev nD) (r : Fin 503808) :
    outArr m ρ c (ix2 r (16 : Fin 17))
      = Spec.vqK (fun k' => dbArr m ρ c (ix2 r (Fin.castLE (by decide : 16 ≤ 17) k'))) (dbArr m ρ c (ix2 r (16 : Fin 17))) := by
  rw [out_eq]
  exact softEntry_16 _ r

end Cert.KernelIdeal.Stage

end
-- ==== Proof.KHost2.lean ====
/-
  The host operations after the second region: the first 500000 rows of its output, columns 0 … 15 as the first result and
  column 16 as the second.
-/
import proofs.«115153_j22256520528420_1_alg».proof.Proof.KStageDefs
import Idealize.ShloMosaic.Lib.Pipeline.Value

noncomputable section

open scoped BigOperators
open Idealize.ShloMosaic Idealize.ShloMosaic.TcCoe Idealize.SL.Sem Idealize.ShloMosaic.ValueIdx
open Cert.KernelIdeal Cert.KernelIdeal.Gen

namespace Cert.KernelIdeal.Stage

variable (m : (ℓ : Loc nD τ sig) → Buf (Elt Ideal) ℓ) (ρ : Dev nD → PrngReg)

/-- The first result: rows 0 … 499999, then columns 0 … 15, of what the second region leaves. -/
theorem qArr_eq (c : Dev nD) :
    (qArr m ρ c : S500000x16.Idx → EReal)
      = extractStridedSlice S500000x16 ![0, 0]
          (extractStridedSlice S500000x17 ![0, 0] (outArr m ρ c) slices_S503808x17_S500000x17_0_0)
          slices_S500000x17_S500000x16_0_0 := by
  show StableHlo.after hostOps2 (W6 m ρ c) (Proc.devRef .tc main_v46) = _
  after_results

/-- The second result: rows 0 … 499999, then column 16, of what the second region leaves, as a vector. -/
theorem vArr_eq (c : Dev nD) :
    (vArr m ρ c : S500000.Idx → EReal)
      = shapeCast S500000
          (extractStridedSlice S500000x1 ![0, 16]
            (extractStridedSlice S500000x17 ![0, 0] (outArr m ρ c) slices_S503808x17_S500000x17_0_0)
            slices_S500000x17_S500000x1_0_16)
          shapeCasts_S500000x1_S500000 := by
  show StableHlo.after hostOps2 (W6 m ρ c) (Proc.devRef .tc main_v48) = _
  after_results
  rfl

/-- The leading 500000 rows of an array of 503808 rows of 17, read at (i, k). -/
private theorem rows_apply (x : S503808x17.Idx → EReal) (i : Fin 500000) (k : Fin 17) :
    extractStridedSlice S500000x17 ![0, 0] x slices_S503808x17_S500000x17_0_0 (ix2 i k)
      = x (ix2 (Fin.castLE (by decide : 500000 ≤ 503808) i) k) :=
  extractStridedSlice_apply _ x slices_S503808x17_S500000x17_0_0 (ix2 i k)
    (ix2 (Fin.castLE (by decide : 500000 ≤ 503808) i) k)
    (fun a => match a with
      | ⟨0, _⟩ => by show i.val = 0 + i.val; omega
      | ⟨1, _⟩ => by show k.val = 0 + k.val; omega)

theorem out_q (c : Dev nD) (i : Fin 500000) (k : Fin 16) :
    qArr m ρ c (ix2 i k)
      = outArr m ρ c (ix2 (Fin.castLE (by decide : 500000 ≤ 503808) i) (Fin.castLE (by decide : 16 ≤ 17) k)) := by
  refine (congrFun (qArr_eq m ρ c) (ix2 i k)).trans ?_
  refine (extractStridedSlice_apply _ _ slices_S500000x17_S500000x16_0_0 (ix2 i k)
    (ix2 i (Fin.castLE (by decide : 16 ≤ 17) k))
    (fun a => match a with
      | ⟨0, _⟩ => by show i.val = 0 + i.val; omega
      | ⟨1, _⟩ => by show k.val = 0 + k.val; omega)).trans ?_
  exact rows_apply _ i _

theorem out_v (c : Dev nD) (i : Fin 500000) :
    vArr m ρ c (ix1 i) = outArr m ρ c (ix2 (Fin.castLE (by decide : 500000 ≤ 503808) i) (16 : Fin 17)) := by
  refine (congrFun (vArr_eq m ρ c) (ix1 i)).trans ?_
  refine (shapeCast_apply _ shapeCasts_S500000x1_S500000 (ix1 i) (ix2 i (0 : Fin 1)) (by
    rw [Shape.rowMajor_val_two, Shape.rowMajor_val_one]
    show i.val * 1 + 0 = i.val
    omega)).trans ?_
  refine (extractStridedSlice_apply _ _ slices_S500000x17_S500000x1_0_16 (ix2 i (0 : Fin 1))
    (ix2 i (16 : Fin 17))
    (fun a => match a with
      | ⟨0, _⟩ => by show i.val = 0 + i.val; omega
      | ⟨1, _⟩ => rfl)).trans ?_
  exact rows_apply _ i _

end Cert.KernelIdeal.Stage

end
-- ==== Proof.KernelValue.lean ====
/-
  The kernel program's two results as formulas. For index words in range (task I n, worker J n, class Y n): the first region
  gathers each observation's pair (base, diff) of its worker; the scatter-adds sum base over a task's observations and diff over a
  task's observations of each class; the second region takes each task's softmax and value. The padding rows never reach a result.
-/
import proofs.«115153_j22256520528420_1_alg».proof.Proof.KStageDefs
import proofs.«115153_j22256520528420_1_alg».proof.Proof.KHost0
import proofs.«115153_j22256520528420_1_alg».proof.Proof.KRegion0
import proofs.«115153_j22256520528420_1_alg».proof.Proof.KHost1
import proofs.«115153_j22256520528420_1_alg».proof.Proof.KRegion1
import proofs.«115153_j22256520528420_1_alg».proof.Proof.KHost2

noncomputable section

open scoped BigOperators
open Idealize.ShloMosaic Idealize.ShloMosaic.TcCoe Idealize.SL.Sem Idealize.ShloMosaic.ValueIdx
open Cert.KernelIdeal Cert.KernelIdeal.Gen

namespace Cert.KernelIdeal.Stage

variable (m : (ℓ : Loc nD τ sig) → Buf (Elt Ideal) ℓ) (ρ : Dev nD → PrngReg)
variable (I : Fin 5000000 → Fin 500000) (J : Fin 5000000 → Fin 5000) (Y : Fin 5000000 → Fin 16)

/-- A word below 5000 written from a number is that number. -/
theorem toNat_ofNat_lt (a : ℕ) (h : a < 5000) : (BitVec.ofNat 32 a).toNat = a := by
  rw [BitVec.toNat_ofNat]; exact Nat.mod_eq_of_lt (by omega)

/-- Observation n's gathered entry in column q is its worker's table entry. -/
theorem gathered_obs (c : Dev nD) (hJ : ∀ n, jjArg m c (ix1 n) = BitVec.ofNat 32 (J n).val) (n : Fin 5000000) (q : Fin 2) :
    bdArr m ρ c (ix2 (Fin.castLE (by decide : 5000000 ≤ 5001216) n) q) = tabArr m ρ c (ix2 (J n) q) := by
  rw [gathered, padded_jj, dif_pos (show (Fin.castLE (by decide : 5000000 ≤ 5001216) n).val < 5000000 from n.isLt)]
  have e : jjArg m c (ix1 (⟨(Fin.castLE (by decide : 5000000 ≤ 5001216) n).val, n.isLt⟩ : Fin 5000000)) = BitVec.ofNat 32 (J n).val := hJ n
  rw [e]
  unfold Spec.gatherE
  have hlt : (BitVec.ofNat 32 (J n).val).toNat < 5000 := by rw [toNat_ofNat_lt _ (J n).isLt]; exact (J n).isLt
  rw [dif_pos hlt]
  exact congrArg (fun r => tabArr m ρ c (ix2 r q)) (Fin.ext (toNat_ofNat_lt _ (J n).isLt))

/-- The second region's input row of task i, columns 0 … 15: the kernel's sums of diff. -/
theorem db_row (c : Dev nD) (hI : ∀ n, iiArg m c (ix1 n) = BitVec.ofNat 32 (I n).val)
    (hJ : ∀ n, jjArg m c (ix1 n) = BitVec.ofNat 32 (J n).val) (hY : ∀ n, yArg m c (ix1 n) = BitVec.ofNat 32 (Y n).val)
    (i : Fin 500000) :
    (fun k' : Fin 16 => dbArr m ρ c (ix2 (Fin.castLE (by decide : 500000 ≤ 503808) i) (Fin.castLE (by decide : 16 ≤ 17) k')))
      = Spec.dsum (fun j => xArg m c (ix1 j)) I J Y i := by
  funext k
  rw [db_d m ρ I Y c hI hY i k]
  unfold Spec.dsum
  refine congrArg (fun s => Spec.c0 + s) (Finset.sum_congr rfl fun n _ => ?_)
  rw [gathered_obs m ρ J c hJ n (1 : Fin 2), table_diff]

/-- and its column 16: the kernel's sum of base. -/
theorem db_last (c : Dev nD) (hI : ∀ n, iiArg m c (ix1 n) = BitVec.ofNat 32 (I n).val)
    (hJ : ∀ n, jjArg m c (ix1 n) = BitVec.ofNat 32 (J n).val) (i : Fin 500000) :
    dbArr m ρ c (ix2 (Fin.castLE (by decide : 500000 ≤ 503808) i) (16 : Fin 17))
      = Spec.bsum (fun j => xArg m c (ix1 j)) I J i := by
  rw [db_b m ρ I c hI i]
  unfold Spec.bsum
  refine congrArg (fun s => Spec.c0 + s) (Finset.sum_congr rfl fun n _ => ?_)
  rw [gathered_obs m ρ J c hJ n (0 : Fin 2), table_base]

/-- The first result at (i, k). -/
theorem kernel_q (c : Dev nD) (hI : ∀ n, iiArg m c (ix1 n) = BitVec.ofNat 32 (I n).val)
    (hJ : ∀ n, jjArg m c (ix1 n) = BitVec.ofNat 32 (J n).val) (hY : ∀ n, yArg m c (ix1 n) = BitVec.ofNat 32 (Y n).val)
    (i : Fin 500000) (k : Fin 16) :
    qArr m ρ c (ix2 i k) = Spec.kernelQ (fun j => xArg m c (ix1 j)) I J Y i k := by
  rw [out_q, softmaxed_q, db_row m ρ I J Y c hI hJ hY i]
  rfl

/-- The second result at i. -/
theorem kernel_v (c : Dev nD) (hI : ∀ n, iiArg m c (ix1 n) = BitVec.ofNat 32 (I n).val)
    (hJ : ∀ n, jjArg m c (ix1 n) = BitVec.ofNat 32 (J n).val) (hY : ∀ n, yArg m c (ix1 n) = BitVec.ofNat 32 (Y n).val)
    (i : Fin 500000) :
    vArr m ρ c (ix1 i) = Spec.kernelV (fun j => xArg m c (ix1 j)) I J Y i := by
  rw [out_v, softmaxed_v, db_row m ρ I J Y c hI hJ hY i, db_last m ρ I J c hI hJ i]
  rfl

end Cert.KernelIdeal.Stage

end
-- ==== Proof.RefRun.lean ====
/-
  The reference program's run. Its @main is a straight line of 91 host operations; every weakly fair execution terminates with
  each buffer at the fold of the operations' results over the launch contents. The fold is read in three stretches — the
  per-worker log matrix (stage 37), the index preparation with the gather and the scatter-add (stage 54), and the log-softmax
  with the two results (stages 56 and 61) — each stretch's result a function of what the stretch before left, and the three
  composed are the stages of the operation-by-operation reading. The log-softmax's operations stand in @main over typed
  references; at a literal reference the carried type is the buffer's own, the transport along that equation is the identity,
  and each such operation is the plain operation on the references: the third stretch is read on that plain list.
-/
import proofs.«115153_j22256520528420_1_alg».proof.Proof.Gen.ReferenceIdeal
import Idealize.ShloMosaic.Lib.StableHlo.Run
import proofs.«115153_j22256520528420_1_alg».proof.Proof.RefRead

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The first stretch: the 46 operations that build the per-worker log matrix (through stage 37). -/
abbrev opsA : List (HloOp τ sig (Elt F)) :=
  [ unary main_arg0 main_v0 (Host.negf : (⟨S5000, .f32⟩ : BufTy).Contents (Elt F) → (⟨S5000, .f32⟩ : BufTy).Contents (Elt F)),
    unary main_v0 main_v1 (Host.exp : (⟨S5000, .f32⟩ : BufTy).Contents (Elt F) → (⟨S5000, .f32⟩ : BufTy).Contents (Elt F)),
    nullary main_cst (constant S_ .f32 0x3F800000#32),
    unary main_cst main_v2 (broadcastInDim S5000 ![] bcast_S_S5000 : (⟨S_, .f32⟩ : BufTy).Contents (Elt F) → (⟨S5000, .f32⟩ : BufTy).Contents (Elt F)),
    binary main_v2 main_v1 main_v3 (addf : (⟨S5000, .f32⟩ : BufTy).Contents (Elt F) → (⟨S5000, .f32⟩ : BufTy).Contents (Elt F) → (⟨S5000, .f32⟩ : BufTy).Contents (Elt F)),
    nullary main_cst_0 (constant S_ .f32 0x3F800000#32),
    unary main_cst_0 main_v4 (broadcastInDim S5000 ![] bcast_S_S5000 : (⟨S_, .f32⟩ : BufTy).Contents (Elt F) → (⟨S5000, .f32⟩ : BufTy).Contents (Elt F)),
    binary main_v4 main_v3 main_v5 (Host.divf : (⟨S5000, .f32⟩ : BufTy).Contents (Elt F) → (⟨S5000, .f32⟩ : BufTy).Contents (Elt F) → (⟨S5000, .f32⟩ : BufTy).Contents (Elt F)),
    unary main_arg0 main_v6 (Host.negf : (⟨S5000, .f32⟩ : BufTy).Contents (Elt F) → (⟨S5000, .f32⟩ : BufTy).Contents (Elt F)),
    unary main_v6 main_v7 (Host.negf : (⟨S5000, .f32⟩ : BufTy).Contents (Elt F) → (⟨S5000, .f32⟩ : BufTy).Contents (Elt F)),
    unary main_v7 main_v8 (Host.exp : (⟨S5000, .f32⟩ : BufTy).Contents (Elt F) → (⟨S5000, .f32⟩ : BufTy).Contents (Elt F)),
    nullary main_cst_1 (constant S_ .f32 0x3F800000#32),
    unary main_cst_1 main_v9 (broadcastInDim S5000 ![] bcast_S_S5000 : (⟨S_, .f32⟩ : BufTy).Contents (Elt F) → (⟨S5000, .f32⟩ : BufTy).Contents (Elt F)),
    binary main_v9 main_v8 main_v10 (addf : (⟨S5000, .f32⟩ : BufTy).Contents (Elt F) → (⟨S5000, .f32⟩ : BufTy).Contents (Elt F) → (⟨S5000, .f32⟩ : BufTy).Contents (Elt F)),
    nullary main_cst_2 (constant S_ .f32 0x3F800000#32),
    unary main_cst_2 main_v11 (broadcastInDim S5000 ![] bcast_S_S5000 : (⟨S_, .f32⟩ : BufTy).Contents (Elt F) → (⟨S5000, .f32⟩ : BufTy).Contents (Elt F)),
    binary main_v11 main_v10 main_v12 (Host.divf : (⟨S5000, .f32⟩ : BufTy).Contents (Elt F) → (⟨S5000, .f32⟩ : BufTy).Contents (Elt F) → (⟨S5000, .f32⟩ : BufTy).Contents (Elt F)),
    nullary main_v13 (iotaInDim S16x16 32 0),
    nullary main_v14 (iotaInDim S16x16 32 1),
    nullary main_c (constantI S_ 32 0#32),
    unary main_c main_v15 (broadcastInDim S16x16 ![] bcast_S_S16x16 : (⟨S_, .i32⟩ : BufTy).Contents (Elt F) → (⟨S16x16, .i32⟩ : BufTy).Contents (Elt F)),
    binary main_v13 main_v15 main_v16 (addi : (⟨S16x16, .i32⟩ : BufTy).Contents (Elt F) → (⟨S16x16, .i32⟩ : BufTy).Contents (Elt F) → (⟨S16x16, .i32⟩ : BufTy).Contents (Elt F)),
    binary main_v16 main_v14 main_v17 (cmpi .eq : (⟨S16x16, .i32⟩ : BufTy).Contents (Elt F) → (⟨S16x16, .i32⟩ : BufTy).Contents (Elt F) → (⟨S16x16, .i1⟩ : BufTy).Contents (Elt F)),
    unary main_v17 main_v18 (uitofp .f32 : (⟨S16x16, .i1⟩ : BufTy).Contents (Elt F) → (⟨S16x16, .f32⟩ : BufTy).Contents (Elt F)),
    nullary main_cst_3 (constant S_ .f32 0x3D800000#32),
    unary main_cst_3 main_v19 (broadcastInDim S16x16 ![] bcast_S_S16x16 : (⟨S_, .f32⟩ : BufTy).Contents (Elt F) → (⟨S16x16, .f32⟩ : BufTy).Contents (Elt F)),
    unary main_v5 main_v20 (broadcastInDim S5000x1x1 ![0] bcast_S5000_S5000x1x1_0 : (⟨S5000, .f32⟩ : BufTy).Contents (Elt F) → (⟨S5000x1x1, .f32⟩ : BufTy).Contents (Elt F)),
    unary main_v18 main_v21 (broadcastInDim S1x16x16 ![1, 2] bcast_S16x16_S1x16x16_1_2 : (⟨S16x16, .f32⟩ : BufTy).Contents (Elt F) → (⟨S1x16x16, .f32⟩ : BufTy).Contents (Elt F)),
    unary main_v20 main_v22 (broadcastInDim S5000x16x16 ![0, 1, 2] bcast_S5000x1x1_S5000x16x16_0_1_2 : (⟨S5000x1x1, .f32⟩ : BufTy).Contents (Elt F) → (⟨S5000x16x16, .f32⟩ : BufTy).Contents (Elt F)),
    unary main_v21 main_v23 (broadcastInDim S5000x16x16 ![0, 1, 2] bcast_S1x16x16_S5000x16x16_0_1_2 : (⟨S1x16x16, .f32⟩ : BufTy).Contents (Elt F) → (⟨S5000x16x16, .f32⟩ : BufTy).Contents (Elt F)),
    binary main_v22 main_v23 main_v24 (mulf : (⟨S5000x16x16, .f32⟩ : BufTy).Contents (Elt F) → (⟨S5000x16x16, .f32⟩ : BufTy).Contents (Elt F) → (⟨S5000x16x16, .f32⟩ : BufTy).Contents (Elt F)),
    unary main_v12 main_v25 (broadcastInDim S5000x1x1 ![0] bcast_S5000_S5000x1x1_0 : (⟨S5000, .f32⟩ : BufTy).Contents (Elt F) → (⟨S5000x1x1, .f32⟩ : BufTy).Contents (Elt F)),
    unary main_v19 main_v26 (broadcastInDim S1x16x16 ![1, 2] bcast_S16x16_S1x16x16_1_2 : (⟨S16x16, .f32⟩ : BufTy).Contents (Elt F) → (⟨S1x16x16, .f32⟩ : BufTy).Contents (Elt F)),
    unary main_v25 main_v27 (broadcastInDim S5000x16x16 ![0, 1, 2] bcast_S5000x1x1_S5000x16x16_0_1_2 : (⟨S5000x1x1, .f32⟩ : BufTy).Contents (Elt F) → (⟨S5000x16x16, .f32⟩ : BufTy).Contents (Elt F)),
    unary main_v26 main_v28 (broadcastInDim S5000x16x16 ![0, 1, 2] bcast_S1x16x16_S5000x16x16_0_1_2 : (⟨S1x16x16, .f32⟩ : BufTy).Contents (Elt F) → (⟨S5000x16x16, .f32⟩ : BufTy).Contents (Elt F)),
    binary main_v27 main_v28 main_v29 (mulf : (⟨S5000x16x16, .f32⟩ : BufTy).Contents (Elt F) → (⟨S5000x16x16, .f32⟩ : BufTy).Contents (Elt F) → (⟨S5000x16x16, .f32⟩ : BufTy).Contents (Elt F)),
    binary main_v24 main_v29 main_v30 (addf : (⟨S5000x16x16, .f32⟩ : BufTy).Contents (Elt F) → (⟨S5000x16x16, .f32⟩ : BufTy).Contents (Elt F) → (⟨S5000x16x16, .f32⟩ : BufTy).Contents (Elt F)),
    nullary main_cst_4 (constant S_ .f32 0x40000000#32),
    unary main_cst_4 main_v31 (broadcastInDim S5000x16x16 ![] bcast_S_S5000x16x16 : (⟨S_, .f32⟩ : BufTy).Contents (Elt F) → (⟨S5000x16x16, .f32⟩ : BufTy).Contents (Elt F)),
    binary main_v30 main_v31 main_v32 (Host.divf : (⟨S5000x16x16, .f32⟩ : BufTy).Contents (Elt F) → (⟨S5000x16x16, .f32⟩ : BufTy).Contents (Elt F) → (⟨S5000x16x16, .f32⟩ : BufTy).Contents (Elt F)),
    nullary main_cst_5 (constant S_ .f32 0x00000000#32),
    binary main_v32 main_cst_5 main_v33 ((fun x v => Host.reduceAdd x v reducesTo_S5000x16x16_S5000x16_d2 h_S_) : (⟨S5000x16x16, .f32⟩ : BufTy).Contents (Elt F) → (⟨S_, .f32⟩ : BufTy).Contents (Elt F) → (⟨S5000x16, .f32⟩ : BufTy).Contents (Elt F)),
    unary main_v33 main_v34 (broadcastInDim S5000x16x1 ![0, 1] bcast_S5000x16_S5000x16x1_0_1 : (⟨S5000x16, .f32⟩ : BufTy).Contents (Elt F) → (⟨S5000x16x1, .f32⟩ : BufTy).Contents (Elt F)),
    unary main_v34 main_v35 (broadcastInDim S5000x16x16 ![0, 1, 2] bcast_S5000x16x1_S5000x16x16_0_1_2 : (⟨S5000x16x1, .f32⟩ : BufTy).Contents (Elt F) → (⟨S5000x16x16, .f32⟩ : BufTy).Contents (Elt F)),
    binary main_v32 main_v35 main_v36 (Host.divf : (⟨S5000x16x16, .f32⟩ : BufTy).Contents (Elt F) → (⟨S5000x16x16, .f32⟩ : BufTy).Contents (Elt F) → (⟨S5000x16x16, .f32⟩ : BufTy).Contents (Elt F)),
    unary main_v36 main_v37 (Host.log : (⟨S5000x16x16, .f32⟩ : BufTy).Contents (Elt F) → (⟨S5000x16x16, .f32⟩ : BufTy).Contents (Elt F)) ]

/-- The second stretch: the 22 operations that wrap the two index columns, join them, gather the log matrix's rows and
    scatter-add them by item (through stage 54). -/
abbrev opsB : List (HloOp τ sig (Elt F)) :=
  [ nullary main_c_6 (constantI S_ 32 0#32),
    unary main_c_6 main_v38 (broadcastInDim S5000000 ![] bcast_S_S5000000 : (⟨S_, .i32⟩ : BufTy).Contents (Elt F) → (⟨S5000000, .i32⟩ : BufTy).Contents (Elt F)),
    binary main_arg2 main_v38 main_v39 (cmpi .slt : (⟨S5000000, .i32⟩ : BufTy).Contents (Elt F) → (⟨S5000000, .i32⟩ : BufTy).Contents (Elt F) → (⟨S5000000, .i1⟩ : BufTy).Contents (Elt F)),
    nullary main_c_7 (constantI S_ 32 5000#32),
    unary main_c_7 main_v40 (broadcastInDim S5000000 ![] bcast_S_S5000000 : (⟨S_, .i32⟩ : BufTy).Contents (Elt F) → (⟨S5000000, .i32⟩ : BufTy).Contents (Elt F)),
    binary main_arg2 main_v40 main_v41 (addi : (⟨S5000000, .i32⟩ : BufTy).Contents (Elt F) → (⟨S5000000, .i32⟩ : BufTy).Contents (Elt F) → (⟨S5000000, .i32⟩ : BufTy).Contents (Elt F)),
    ternary main_v39 main_v41 main_arg2 main_v42 (select : (⟨S5000000, .i1⟩ : BufTy).Contents (Elt F) → (⟨S5000000, .i32⟩ : BufTy).Contents (Elt F) → (⟨S5000000, .i32⟩ : BufTy).Contents (Elt F) → (⟨S5000000, .i32⟩ : BufTy).Contents (Elt F)),
    nullary main_c_8 (constantI S_ 32 0#32),
    unary main_c_8 main_v43 (broadcastInDim S5000000 ![] bcast_S_S5000000 : (⟨S_, .i32⟩ : BufTy).Contents (Elt F) → (⟨S5000000, .i32⟩ : BufTy).Contents (Elt F)),
    binary main_arg3 main_v43 main_v44 (cmpi .slt : (⟨S5000000, .i32⟩ : BufTy).Contents (Elt F) → (⟨S5000000, .i32⟩ : BufTy).Contents (Elt F) → (⟨S5000000, .i1⟩ : BufTy).Contents (Elt F)),
    nullary main_c_9 (constantI S_ 32 16#32),
    unary main_c_9 main_v45 (broadcastInDim S5000000 ![] bcast_S_S5000000 : (⟨S_, .i32⟩ : BufTy).Contents (Elt F) → (⟨S5000000, .i32⟩ : BufTy).Contents (Elt F)),
    binary main_arg3 main_v45 main_v46 (addi : (⟨S5000000, .i32⟩ : BufTy).Contents (Elt F) → (⟨S5000000, .i32⟩ : BufTy).Contents (Elt F) → (⟨S5000000, .i32⟩ : BufTy).Contents (Elt F)),
    ternary main_v44 main_v46 main_arg3 main_v47 (select : (⟨S5000000, .i1⟩ : BufTy).Contents (Elt F) → (⟨S5000000, .i32⟩ : BufTy).Contents (Elt F) → (⟨S5000000, .i32⟩ : BufTy).Contents (Elt F) → (⟨S5000000, .i32⟩ : BufTy).Contents (Elt F)),
    unary main_v42 main_v48 (broadcastInDim S5000000x1 ![0] bcast_S5000000_S5000000x1_0 : (⟨S5000000, .i32⟩ : BufTy).Contents (Elt F) → (⟨S5000000x1, .i32⟩ : BufTy).Contents (Elt F)),
    unary main_v47 main_v49 (broadcastInDim S5000000x1 ![0] bcast_S5000000_S5000000x1_0 : (⟨S5000000, .i32⟩ : BufTy).Contents (Elt F) → (⟨S5000000x1, .i32⟩ : BufTy).Contents (Elt F)),
    binary main_v48 main_v49 main_v50 ((fun a b => concatenate S5000000x2 1 [⟨S5000000x1, a⟩, ⟨S5000000x1, b⟩] concatenates_S5000000x1_S5000000x1_S5000000x2_d1) : (⟨S5000000x1, .i32⟩ : BufTy).Contents (Elt F) → (⟨S5000000x1, .i32⟩ : BufTy).Contents (Elt F) → (⟨S5000000x2, .i32⟩ : BufTy).Contents (Elt F)),
    binary main_v37 main_v50 main_v51 ((fun x i => Host.gather gather_S5000x16x16_S5000000x2_S5000000x16_1_02_n_n_02_1_1161 x i) : (⟨S5000x16x16, .f32⟩ : BufTy).Contents (Elt F) → (⟨S5000000x2, .i32⟩ : BufTy).Contents (Elt F) → (⟨S5000000x16, .f32⟩ : BufTy).Contents (Elt F)),
    nullary main_cst_10 (constant S_ .f32 0x00000000#32),
    unary main_cst_10 main_v52 (broadcastInDim S500000x16 ![] bcast_S_S500000x16 : (⟨S_, .f32⟩ : BufTy).Contents (Elt F) → (⟨S500000x16, .f32⟩ : BufTy).Contents (Elt F)),
    unary main_arg1 main_v53 (broadcastInDim S5000000x1 ![0] bcast_S5000000_S5000000x1_0 : (⟨S5000000, .i32⟩ : BufTy).Contents (Elt F) → (⟨S5000000x1, .i32⟩ : BufTy).Contents (Elt F)),
    ternary main_v52 main_v53 main_v51 main_v54 ((fun x i u => Host.scatterAdd scatter_S500000x16_S5000000x1_S5000000x16_1_0_0_1 x i u) : (⟨S500000x16, .f32⟩ : BufTy).Contents (Elt F) → (⟨S5000000x1, .i32⟩ : BufTy).Contents (Elt F) → (⟨S5000000x16, .f32⟩ : BufTy).Contents (Elt F) → (⟨S500000x16, .f32⟩ : BufTy).Contents (Elt F)) ]

/-- The third stretch as @main has it: the 15 operations of the log-softmax, over typed references, and the last 8
    (through stages 56 and 61). -/
abbrev opsC : List (HloOp τ sig (Elt F)) :=
  [ TRef.nullary (TRef.of (T := ⟨S_, .f32⟩) main_call0_cst) (constant S_ .f32 0xFF800000#32),
    TRef.binary (TRef.of (T := ⟨S500000x16, .f32⟩) main_v54) (TRef.of (T := ⟨S_, .f32⟩) main_call0_cst) (TRef.of (T := ⟨S500000, .f32⟩) main_call0_v0) (fun x v => Host.reduce FloatOps.maximumf x v reducesTo_S500000x16_S500000_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S500000, .f32⟩) main_call0_v1) (broadcastInDim S500000 ![] bcast_S_S500000),
    TRef.binary (TRef.of (T := ⟨S500000, .f32⟩) main_call0_v1) (TRef.of (T := ⟨S500000, .f32⟩) main_call0_v0) (TRef.of (T := ⟨S500000, .f32⟩) main_call0_v2) maximumf,
    TRef.unary (TRef.of (T := ⟨S500000, .f32⟩) main_call0_v2) (TRef.of (T := ⟨S500000x1, .f32⟩) main_call0_v3) (broadcastInDim S500000x1 ![0] bcast_S500000_S500000x1_0),
    TRef.unary (TRef.of (T := ⟨S500000x1, .f32⟩) main_call0_v3) (TRef.of (T := ⟨S500000x16, .f32⟩) main_call0_v4) (broadcastInDim S500000x16 ![0, 1] bcast_S500000x1_S500000x16_0_1),
    TRef.binary (TRef.of (T := ⟨S500000x16, .f32⟩) main_v54) (TRef.of (T := ⟨S500000x16, .f32⟩) main_call0_v4) (TRef.of (T := ⟨S500000x16, .f32⟩) main_call0_v5) subf,
    TRef.unary (TRef.of (T := ⟨S500000x16, .f32⟩) main_call0_v5) (TRef.of (T := ⟨S500000x16, .f32⟩) main_call0_v6) Host.exp,
    TRef.nullary (TRef.of (T := ⟨S_, .f32⟩) main_call0_cst_1) (constant S_ .f32 0x00000000#32),
    TRef.binary (TRef.of (T := ⟨S500000x16, .f32⟩) main_call0_v6) (TRef.of (T := ⟨S_, .f32⟩) main_call0_cst_1) (TRef.of (T := ⟨S500000, .f32⟩) main_call0_v7) (fun x v => Host.reduceAdd x v reducesTo_S500000x16_S500000_d1 h_S_),
    TRef.unary (TRef.of (T := ⟨S500000, .f32⟩) main_call0_v7) (TRef.of (T := ⟨S500000x1, .f32⟩) main_call0_v8) (broadcastInDim S500000x1 ![0] bcast_S500000_S500000x1_0),
    TRef.unary (TRef.of (T := ⟨S500000x1, .f32⟩) main_call0_v8) (TRef.of (T := ⟨S500000x1, .f32⟩) main_call0_v9) Host.log,
    TRef.unary (TRef.of (T := ⟨S500000x1, .f32⟩) main_call0_v9) (TRef.of (T := ⟨S500000x16, .f32⟩) main_call0_v10) (broadcastInDim S500000x16 ![0, 1] bcast_S500000x1_S500000x16_0_1),
    TRef.binary (TRef.of (T := ⟨S500000x16, .f32⟩) main_call0_v5) (TRef.of (T := ⟨S500000x16, .f32⟩) main_call0_v10) (TRef.of (T := ⟨S500000x16, .f32⟩) main_v55) subf,
    unary main_v55 main_v56 (Host.exp : (⟨S500000x16, .f32⟩ : BufTy).Contents (Elt F) → (⟨S500000x16, .f32⟩ : BufTy).Contents (Elt F)),
    binary main_v56 main_v54 main_v57 (mulf : (⟨S500000x16, .f32⟩ : BufTy).Contents (Elt F) → (⟨S500000x16, .f32⟩ : BufTy).Contents (Elt F) → (⟨S500000x16, .f32⟩ : BufTy).Contents (Elt F)),
    nullary main_cst_11 (constant S_ .f32 0x00000000#32),
    binary main_v57 main_cst_11 main_v58 ((fun x v => Host.reduceAdd x v reducesTo_S500000x16_S500000_d1 h_S_) : (⟨S500000x16, .f32⟩ : BufTy).Contents (Elt F) → (⟨S_, .f32⟩ : BufTy).Contents (Elt F) → (⟨S500000, .f32⟩ : BufTy).Contents (Elt F)),
    binary main_v56 main_v55 main_v59 (mulf : (⟨S500000x16, .f32⟩ : BufTy).Contents (Elt F) → (⟨S500000x16, .f32⟩ : BufTy).Contents (Elt F) → (⟨S500000x16, .f32⟩ : BufTy).Contents (Elt F)),
    nullary main_cst_12 (constant S_ .f32 0x00000000#32),
    binary main_v59 main_cst_12 main_v60 ((fun x v => Host.reduceAdd x v reducesTo_S500000x16_S500000_d1 h_S_) : (⟨S500000x16, .f32⟩ : BufTy).Contents (Elt F) → (⟨S_, .f32⟩ : BufTy).Contents (Elt F) → (⟨S500000, .f32⟩ : BufTy).Contents (Elt F)),
    binary main_v58 main_v60 main_v61 (subf : (⟨S500000, .f32⟩ : BufTy).Contents (Elt F) → (⟨S500000, .f32⟩ : BufTy).Contents (Elt F) → (⟨S500000, .f32⟩ : BufTy).Contents (Elt F)) ]

/-- The third stretch with the log-softmax's operations stated on the references themselves. -/
abbrev opsC' : List (HloOp τ sig (Elt F)) :=
  [ nullary main_call0_cst (constant S_ .f32 0xFF800000#32),
    binary main_v54 main_call0_cst main_call0_v0 ((fun x v => Host.reduce FloatOps.maximumf x v reducesTo_S500000x16_S500000_d1 h_S_) : (⟨S500000x16, .f32⟩ : BufTy).Contents (Elt F) → (⟨S_, .f32⟩ : BufTy).Contents (Elt F) → (⟨S500000, .f32⟩ : BufTy).Contents (Elt F)),
    nullary main_call0_cst_0 (constant S_ .f32 0xFF800000#32),
    unary main_call0_cst_0 main_call0_v1 ((broadcastInDim S500000 ![] bcast_S_S500000) : (⟨S_, .f32⟩ : BufTy).Contents (Elt F) → (⟨S500000, .f32⟩ : BufTy).Contents (Elt F)),
    binary main_call0_v1 main_call0_v0 main_call0_v2 ((maximumf) : (⟨S500000, .f32⟩ : BufTy).Contents (Elt F) → (⟨S500000, .f32⟩ : BufTy).Contents (Elt F) → (⟨S500000, .f32⟩ : BufTy).Contents (Elt F)),
    unary main_call0_v2 main_call0_v3 ((broadcastInDim S500000x1 ![0] bcast_S500000_S500000x1_0) : (⟨S500000, .f32⟩ : BufTy).Contents (Elt F) → (⟨S500000x1, .f32⟩ : BufTy).Contents (Elt F)),
    unary main_call0_v3 main_call0_v4 ((broadcastInDim S500000x16 ![0, 1] bcast_S500000x1_S500000x16_0_1) : (⟨S500000x1, .f32⟩ : BufTy).Contents (Elt F) → (⟨S500000x16, .f32⟩ : BufTy).Contents (Elt F)),
    binary main_v54 main_call0_v4 main_call0_v5 ((subf) : (⟨S500000x16, .f32⟩ : BufTy).Contents (Elt F) → (⟨S500000x16, .f32⟩ : BufTy).Contents (Elt F) → (⟨S500000x16, .f32⟩ : BufTy).Contents (Elt F)),
    unary main_call0_v5 main_call0_v6 ((Host.exp) : (⟨S500000x16, .f32⟩ : BufTy).Contents (Elt F) → (⟨S500000x16, .f32⟩ : BufTy).Contents (Elt F)),
    nullary main_call0_cst_1 (constant S_ .f32 0x00000000#32),
    binary main_call0_v6 main_call0_cst_1 main_call0_v7 ((fun x v => Host.reduceAdd x v reducesTo_S500000x16_S500000_d1 h_S_) : (⟨S500000x16, .f32⟩ : BufTy).Contents (Elt F) → (⟨S_, .f32⟩ : BufTy).Contents (Elt F) → (⟨S500000, .f32⟩ : BufTy).Contents (Elt F)),
    unary main_call0_v7 main_call0_v8 ((broadcastInDim S500000x1 ![0] bcast_S500000_S500000x1_0) : (⟨S500000, .f32⟩ : BufTy).Contents (Elt F) → (⟨S500000x1, .f32⟩ : BufTy).Contents (Elt F)),
    unary main_call0_v8 main_call0_v9 ((Host.log) : (⟨S500000x1, .f32⟩ : BufTy).Contents (Elt F) → (⟨S500000x1, .f32⟩ : BufTy).Contents (Elt F)),
    unary main_call0_v9 main_call0_v10 ((broadcastInDim S500000x16 ![0, 1] bcast_S500000x1_S500000x16_0_1) : (⟨S500000x1, .f32⟩ : BufTy).Contents (Elt F) → (⟨S500000x16, .f32⟩ : BufTy).Contents (Elt F)),
    binary main_call0_v5 main_call0_v10 main_v55 ((subf) : (⟨S500000x16, .f32⟩ : BufTy).Contents (Elt F) → (⟨S500000x16, .f32⟩ : BufTy).Contents (Elt F) → (⟨S500000x16, .f32⟩ : BufTy).Contents (Elt F)),
    unary main_v55 main_v56 (Host.exp : (⟨S500000x16, .f32⟩ : BufTy).Contents (Elt F) → (⟨S500000x16, .f32⟩ : BufTy).Contents (Elt F)),
    binary main_v56 main_v54 main_v57 (mulf : (⟨S500000x16, .f32⟩ : BufTy).Contents (Elt F) → (⟨S500000x16, .f32⟩ : BufTy).Contents (Elt F) → (⟨S500000x16, .f32⟩ : BufTy).Contents (Elt F)),
    nullary main_cst_11 (constant S_ .f32 0x00000000#32),
    binary main_v57 main_cst_11 main_v58 ((fun x v => Host.reduceAdd x v reducesTo_S500000x16_S500000_d1 h_S_) : (⟨S500000x16, .f32⟩ : BufTy).Contents (Elt F) → (⟨S_, .f32⟩ : BufTy).Contents (Elt F) → (⟨S500000, .f32⟩ : BufTy).Contents (Elt F)),
    binary main_v56 main_v55 main_v59 (mulf : (⟨S500000x16, .f32⟩ : BufTy).Contents (Elt F) → (⟨S500000x16, .f32⟩ : BufTy).Contents (Elt F) → (⟨S500000x16, .f32⟩ : BufTy).Contents (Elt F)),
    nullary main_cst_12 (constant S_ .f32 0x00000000#32),
    binary main_v59 main_cst_12 main_v60 ((fun x v => Host.reduceAdd x v reducesTo_S500000x16_S500000_d1 h_S_) : (⟨S500000x16, .f32⟩ : BufTy).Contents (Elt F) → (⟨S_, .f32⟩ : BufTy).Contents (Elt F) → (⟨S500000, .f32⟩ : BufTy).Contents (Elt F)),
    binary main_v58 main_v60 main_v61 (subf : (⟨S500000, .f32⟩ : BufTy).Contents (Elt F) → (⟨S500000, .f32⟩ : BufTy).Contents (Elt F) → (⟨S500000, .f32⟩ : BufTy).Contents (Elt F)) ]

/-- @main's 91 operations, in order (the called function's operations stand in its call's place). -/
abbrev ops : List (HloOp τ sig (Elt F)) :=
  [ unary main_arg0 main_v0 (Host.negf : (⟨S5000, .f32⟩ : BufTy).Contents (Elt F) → (⟨S5000, .f32⟩ : BufTy).Contents (Elt F)),
    unary main_v0 main_v1 (Host.exp : (⟨S5000, .f32⟩ : BufTy).Contents (Elt F) → (⟨S5000, .f32⟩ : BufTy).Contents (Elt F)),
    nullary main_cst (constant S_ .f32 0x3F800000#32),
    unary main_cst main_v2 (broadcastInDim S5000 ![] bcast_S_S5000 : (⟨S_, .f32⟩ : BufTy).Contents (Elt F) → (⟨S5000, .f32⟩ : BufTy).Contents (Elt F)),
    binary main_v2 main_v1 main_v3 (addf : (⟨S5000, .f32⟩ : BufTy).Contents (Elt F) → (⟨S5000, .f32⟩ : BufTy).Contents (Elt F) → (⟨S5000, .f32⟩ : BufTy).Contents (Elt F)),
    nullary main_cst_0 (constant S_ .f32 0x3F800000#32),
    unary main_cst_0 main_v4 (broadcastInDim S5000 ![] bcast_S_S5000 : (⟨S_, .f32⟩ : BufTy).Contents (Elt F) → (⟨S5000, .f32⟩ : BufTy).Contents (Elt F)),
    binary main_v4 main_v3 main_v5 (Host.divf : (⟨S5000, .f32⟩ : BufTy).Contents (Elt F) → (⟨S5000, .f32⟩ : BufTy).Contents (Elt F) → (⟨S5000, .f32⟩ : BufTy).Contents (Elt F)),
    unary main_arg0 main_v6 (Host.negf : (⟨S5000, .f32⟩ : BufTy).Contents (Elt F) → (⟨S5000, .f32⟩ : BufTy).Contents (Elt F)),
    unary main_v6 main_v7 (Host.negf : (⟨S5000, .f32⟩ : BufTy).Contents (Elt F) → (⟨S5000, .f32⟩ : BufTy).Contents (Elt F)),
    unary main_v7 main_v8 (Host.exp : (⟨S5000, .f32⟩ : BufTy).Contents (Elt F) → (⟨S5000, .f32⟩ : BufTy).Contents (Elt F)),
    nullary main_cst_1 (constant S_ .f32 0x3F800000#32),
    unary main_cst_1 main_v9 (broadcastInDim S5000 ![] bcast_S_S5000 : (⟨S_, .f32⟩ : BufTy).Contents (Elt F) → (⟨S5000, .f32⟩ : BufTy).Contents (Elt F)),
    binary main_v9 main_v8 main_v10 (addf : (⟨S5000, .f32⟩ : BufTy).Contents (Elt F) → (⟨S5000, .f32⟩ : BufTy).Contents (Elt F) → (⟨S5000, .f32⟩ : BufTy).Contents (Elt F)),
    nullary main_cst_2 (constant S_ .f32 0x3F800000#32),
    unary main_cst_2 main_v11 (broadcastInDim S5000 ![] bcast_S_S5000 : (⟨S_, .f32⟩ : BufTy).Contents (Elt F) → (⟨S5000, .f32⟩ : BufTy).Contents (Elt F)),
    binary main_v11 main_v10 main_v12 (Host.divf : (⟨S5000, .f32⟩ : BufTy).Contents (Elt F) → (⟨S5000, .f32⟩ : BufTy).Contents (Elt F) → (⟨S5000, .f32⟩ : BufTy).Contents (Elt F)),
    nullary main_v13 (iotaInDim S16x16 32 0),
    nullary main_v14 (iotaInDim S16x16 32 1),
    nullary main_c (constantI S_ 32 0#32),
    unary main_c main_v15 (broadcastInDim S16x16 ![] bcast_S_S16x16 : (⟨S_, .i32⟩ : BufTy).Contents (Elt F) → (⟨S16x16, .i32⟩ : BufTy).Contents (Elt F)),
    binary main_v13 main_v15 main_v16 (addi : (⟨S16x16, .i32⟩ : BufTy).Contents (Elt F) → (⟨S16x16, .i32⟩ : BufTy).Contents (Elt F) → (⟨S16x16, .i32⟩ : BufTy).Contents (Elt F)),
    binary main_v16 main_v14 main_v17 (cmpi .eq : (⟨S16x16, .i32⟩ : BufTy).Contents (Elt F) → (⟨S16x16, .i32⟩ : BufTy).Contents (Elt F) → (⟨S16x16, .i1⟩ : BufTy).Contents (Elt F)),
    unary main_v17 main_v18 (uitofp .f32 : (⟨S16x16, .i1⟩ : BufTy).Contents (Elt F) → (⟨S16x16, .f32⟩ : BufTy).Contents (Elt F)),
    nullary main_cst_3 (constant S_ .f32 0x3D800000#32),
    unary main_cst_3 main_v19 (broadcastInDim S16x16 ![] bcast_S_S16x16 : (⟨S_, .f32⟩ : BufTy).Contents (Elt F) → (⟨S16x16, .f32⟩ : BufTy).Contents (Elt F)),
    unary main_v5 main_v20 (broadcastInDim S5000x1x1 ![0] bcast_S5000_S5000x1x1_0 : (⟨S5000, .f32⟩ : BufTy).Contents (Elt F) → (⟨S5000x1x1, .f32⟩ : BufTy).Contents (Elt F)),
    unary main_v18 main_v21 (broadcastInDim S1x16x16 ![1, 2] bcast_S16x16_S1x16x16_1_2 : (⟨S16x16, .f32⟩ : BufTy).Contents (Elt F) → (⟨S1x16x16, .f32⟩ : BufTy).Contents (Elt F)),
    unary main_v20 main_v22 (broadcastInDim S5000x16x16 ![0, 1, 2] bcast_S5000x1x1_S5000x16x16_0_1_2 : (⟨S5000x1x1, .f32⟩ : BufTy).Contents (Elt F) → (⟨S5000x16x16, .f32⟩ : BufTy).Contents (Elt F)),
    unary main_v21 main_v23 (broadcastInDim S5000x16x16 ![0, 1, 2] bcast_S1x16x16_S5000x16x16_0_1_2 : (⟨S1x16x16, .f32⟩ : BufTy).Contents (Elt F) → (⟨S5000x16x16, .f32⟩ : BufTy).Contents (Elt F)),
    binary main_v22 main_v23 main_v24 (mulf : (⟨S5000x16x16, .f32⟩ : BufTy).Contents (Elt F) → (⟨S5000x16x16, .f32⟩ : BufTy).Contents (Elt F) → (⟨S5000x16x16, .f32⟩ : BufTy).Contents (Elt F)),
    unary main_v12 main_v25 (broadcastInDim S5000x1x1 ![0] bcast_S5000_S5000x1x1_0 : (⟨S5000, .f32⟩ : BufTy).Contents (Elt F) → (⟨S5000x1x1, .f32⟩ : BufTy).Contents (Elt F)),
    unary main_v19 main_v26 (broadcastInDim S1x16x16 ![1, 2] bcast_S16x16_S1x16x16_1_2 : (⟨S16x16, .f32⟩ : BufTy).Contents (Elt F) → (⟨S1x16x16, .f32⟩ : BufTy).Contents (Elt F)),
    unary main_v25 main_v27 (broadcastInDim S5000x16x16 ![0, 1, 2] bcast_S5000x1x1_S5000x16x16_0_1_2 : (⟨S5000x1x1, .f32⟩ : BufTy).Contents (Elt F) → (⟨S5000x16x16, .f32⟩ : BufTy).Contents (Elt F)),
    unary main_v26 main_v28 (broadcastInDim S5000x16x16 ![0, 1, 2] bcast_S1x16x16_S5000x16x16_0_1_2 : (⟨S1x16x16, .f32⟩ : BufTy).Contents (Elt F) → (⟨S5000x16x16, .f32⟩ : BufTy).Contents (Elt F)),
    binary main_v27 main_v28 main_v29 (mulf : (⟨S5000x16x16, .f32⟩ : BufTy).Contents (Elt F) → (⟨S5000x16x16, .f32⟩ : BufTy).Contents (Elt F) → (⟨S5000x16x16, .f32⟩ : BufTy).Contents (Elt F)),
    binary main_v24 main_v29 main_v30 (addf : (⟨S5000x16x16, .f32⟩ : BufTy).Contents (Elt F) → (⟨S5000x16x16, .f32⟩ : BufTy).Contents (Elt F) → (⟨S5000x16x16, .f32⟩ : BufTy).Contents (Elt F)),
    nullary main_cst_4 (constant S_ .f32 0x40000000#32),
    unary main_cst_4 main_v31 (broadcastInDim S5000x16x16 ![] bcast_S_S5000x16x16 : (⟨S_, .f32⟩ : BufTy).Contents (Elt F) → (⟨S5000x16x16, .f32⟩ : BufTy).Contents (Elt F)),
    binary main_v30 main_v31 main_v32 (Host.divf : (⟨S5000x16x16, .f32⟩ : BufTy).Contents (Elt F) → (⟨S5000x16x16, .f32⟩ : BufTy).Contents (Elt F) → (⟨S5000x16x16, .f32⟩ : BufTy).Contents (Elt F)),
    nullary main_cst_5 (constant S_ .f32 0x00000000#32),
    binary main_v32 main_cst_5 main_v33 ((fun x v => Host.reduceAdd x v reducesTo_S5000x16x16_S5000x16_d2 h_S_) : (⟨S5000x16x16, .f32⟩ : BufTy).Contents (Elt F) → (⟨S_, .f32⟩ : BufTy).Contents (Elt F) → (⟨S5000x16, .f32⟩ : BufTy).Contents (Elt F)),
    unary main_v33 main_v34 (broadcastInDim S5000x16x1 ![0, 1] bcast_S5000x16_S5000x16x1_0_1 : (⟨S5000x16, .f32⟩ : BufTy).Contents (Elt F) → (⟨S5000x16x1, .f32⟩ : BufTy).Contents (Elt F)),
    unary main_v34 main_v35 (broadcastInDim S5000x16x16 ![0, 1, 2] bcast_S5000x16x1_S5000x16x16_0_1_2 : (⟨S5000x16x1, .f32⟩ : BufTy).Contents (Elt F) → (⟨S5000x16x16, .f32⟩ : BufTy).Contents (Elt F)),
    binary main_v32 main_v35 main_v36 (Host.divf : (⟨S5000x16x16, .f32⟩ : BufTy).Contents (Elt F) → (⟨S5000x16x16, .f32⟩ : BufTy).Contents (Elt F) → (⟨S5000x16x16, .f32⟩ : BufTy).Contents (Elt F)),
    unary main_v36 main_v37 (Host.log : (⟨S5000x16x16, .f32⟩ : BufTy).Contents (Elt F) → (⟨S5000x16x16, .f32⟩ : BufTy).Contents (Elt F)),
    nullary main_c_6 (constantI S_ 32 0#32),
    unary main_c_6 main_v38 (broadcastInDim S5000000 ![] bcast_S_S5000000 : (⟨S_, .i32⟩ : BufTy).Contents (Elt F) → (⟨S5000000, .i32⟩ : BufTy).Contents (Elt F)),
    binary main_arg2 main_v38 main_v39 (cmpi .slt : (⟨S5000000, .i32⟩ : BufTy).Contents (Elt F) → (⟨S5000000, .i32⟩ : BufTy).Contents (Elt F) → (⟨S5000000, .i1⟩ : BufTy).Contents (Elt F)),
    nullary main_c_7 (constantI S_ 32 5000#32),
    unary main_c_7 main_v40 (broadcastInDim S5000000 ![] bcast_S_S5000000 : (⟨S_, .i32⟩ : BufTy).Contents (Elt F) → (⟨S5000000, .i32⟩ : BufTy).Contents (Elt F)),
    binary main_arg2 main_v40 main_v41 (addi : (⟨S5000000, .i32⟩ : BufTy).Contents (Elt F) → (⟨S5000000, .i32⟩ : BufTy).Contents (Elt F) → (⟨S5000000, .i32⟩ : BufTy).Contents (Elt F)),
    ternary main_v39 main_v41 main_arg2 main_v42 (select : (⟨S5000000, .i1⟩ : BufTy).Contents (Elt F) → (⟨S5000000, .i32⟩ : BufTy).Contents (Elt F) → (⟨S5000000, .i32⟩ : BufTy).Contents (Elt F) → (⟨S5000000, .i32⟩ : BufTy).Contents (Elt F)),
    nullary main_c_8 (constantI S_ 32 0#32),
    unary main_c_8 main_v43 (broadcastInDim S5000000 ![] bcast_S_S5000000 : (⟨S_, .i32⟩ : BufTy).Contents (Elt F) → (⟨S5000000, .i32⟩ : BufTy).Contents (Elt F)),
    binary main_arg3 main_v43 main_v44 (cmpi .slt : (⟨S5000000, .i32⟩ : BufTy).Contents (Elt F) → (⟨S5000000, .i32⟩ : BufTy).Contents (Elt F) → (⟨S5000000, .i1⟩ : BufTy).Contents (Elt F)),
    nullary main_c_9 (constantI S_ 32 16#32),
    unary main_c_9 main_v45 (broadcastInDim S5000000 ![] bcast_S_S5000000 : (⟨S_, .i32⟩ : BufTy).Contents (Elt F) → (⟨S5000000, .i32⟩ : BufTy).Contents (Elt F)),
    binary main_arg3 main_v45 main_v46 (addi : (⟨S5000000, .i32⟩ : BufTy).Contents (Elt F) → (⟨S5000000, .i32⟩ : BufTy).Contents (Elt F) → (⟨S5000000, .i32⟩ : BufTy).Contents (Elt F)),
    ternary main_v44 main_v46 main_arg3 main_v47 (select : (⟨S5000000, .i1⟩ : BufTy).Contents (Elt F) → (⟨S5000000, .i32⟩ : BufTy).Contents (Elt F) → (⟨S5000000, .i32⟩ : BufTy).Contents (Elt F) → (⟨S5000000, .i32⟩ : BufTy).Contents (Elt F)),
    unary main_v42 main_v48 (broadcastInDim S5000000x1 ![0] bcast_S5000000_S5000000x1_0 : (⟨S5000000, .i32⟩ : BufTy).Contents (Elt F) → (⟨S5000000x1, .i32⟩ : BufTy).Contents (Elt F)),
    unary main_v47 main_v49 (broadcastInDim S5000000x1 ![0] bcast_S5000000_S5000000x1_0 : (⟨S5000000, .i32⟩ : BufTy).Contents (Elt F) → (⟨S5000000x1, .i32⟩ : BufTy).Contents (Elt F)),
    binary main_v48 main_v49 main_v50 ((fun a b => concatenate S5000000x2 1 [⟨S5000000x1, a⟩, ⟨S5000000x1, b⟩] concatenates_S5000000x1_S5000000x1_S5000000x2_d1) : (⟨S5000000x1, .i32⟩ : BufTy).Contents (Elt F) → (⟨S5000000x1, .i32⟩ : BufTy).Contents (Elt F) → (⟨S5000000x2, .i32⟩ : BufTy).Contents (Elt F)),
    binary main_v37 main_v50 main_v51 ((fun x i => Host.gather gather_S5000x16x16_S5000000x2_S5000000x16_1_02_n_n_02_1_1161 x i) : (⟨S5000x16x16, .f32⟩ : BufTy).Contents (Elt F) → (⟨S5000000x2, .i32⟩ : BufTy).Contents (Elt F) → (⟨S5000000x16, .f32⟩ : BufTy).Contents (Elt F)),
    nullary main_cst_10 (constant S_ .f32 0x00000000#32),
    unary main_cst_10 main_v52 (broadcastInDim S500000x16 ![] bcast_S_S500000x16 : (⟨S_, .f32⟩ : BufTy).Contents (Elt F) → (⟨S500000x16, .f32⟩ : BufTy).Contents (Elt F)),
    unary main_arg1 main_v53 (broadcastInDim S5000000x1 ![0] bcast_S5000000_S5000000x1_0 : (⟨S5000000, .i32⟩ : BufTy).Contents (Elt F) → (⟨S5000000x1, .i32⟩ : BufTy).Contents (Elt F)),
    ternary main_v52 main_v53 main_v51 main_v54 ((fun x i u => Host.scatterAdd scatter_S500000x16_S5000000x1_S5000000x16_1_0_0_1 x i u) : (⟨S500000x16, .f32⟩ : BufTy).Contents (Elt F) → (⟨S5000000x1, .i32⟩ : BufTy).Contents (Elt F) → (⟨S5000000x16, .f32⟩ : BufTy).Contents (Elt F) → (⟨S500000x16, .f32⟩ : BufTy).Contents (Elt F)),
    TRef.nullary (TRef.of (T := ⟨S_, .f32⟩) main_call0_cst) (constant S_ .f32 0xFF800000#32),
    TRef.binary (TRef.of (T := ⟨S500000x16, .f32⟩) main_v54) (TRef.of (T := ⟨S_, .f32⟩) main_call0_cst) (TRef.of (T := ⟨S500000, .f32⟩) main_call0_v0) (fun x v => Host.reduce FloatOps.maximumf x v reducesTo_S500000x16_S500000_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S500000, .f32⟩) main_call0_v1) (broadcastInDim S500000 ![] bcast_S_S500000),
    TRef.binary (TRef.of (T := ⟨S500000, .f32⟩) main_call0_v1) (TRef.of (T := ⟨S500000, .f32⟩) main_call0_v0) (TRef.of (T := ⟨S500000, .f32⟩) main_call0_v2) maximumf,
    TRef.unary (TRef.of (T := ⟨S500000, .f32⟩) main_call0_v2) (TRef.of (T := ⟨S500000x1, .f32⟩) main_call0_v3) (broadcastInDim S500000x1 ![0] bcast_S500000_S500000x1_0),
    TRef.unary (TRef.of (T := ⟨S500000x1, .f32⟩) main_call0_v3) (TRef.of (T := ⟨S500000x16, .f32⟩) main_call0_v4) (broadcastInDim S500000x16 ![0, 1] bcast_S500000x1_S500000x16_0_1),
    TRef.binary (TRef.of (T := ⟨S500000x16, .f32⟩) main_v54) (TRef.of (T := ⟨S500000x16, .f32⟩) main_call0_v4) (TRef.of (T := ⟨S500000x16, .f32⟩) main_call0_v5) subf,
    TRef.unary (TRef.of (T := ⟨S500000x16, .f32⟩) main_call0_v5) (TRef.of (T := ⟨S500000x16, .f32⟩) main_call0_v6) Host.exp,
    TRef.nullary (TRef.of (T := ⟨S_, .f32⟩) main_call0_cst_1) (constant S_ .f32 0x00000000#32),
    TRef.binary (TRef.of (T := ⟨S500000x16, .f32⟩) main_call0_v6) (TRef.of (T := ⟨S_, .f32⟩) main_call0_cst_1) (TRef.of (T := ⟨S500000, .f32⟩) main_call0_v7) (fun x v => Host.reduceAdd x v reducesTo_S500000x16_S500000_d1 h_S_),
    TRef.unary (TRef.of (T := ⟨S500000, .f32⟩) main_call0_v7) (TRef.of (T := ⟨S500000x1, .f32⟩) main_call0_v8) (broadcastInDim S500000x1 ![0] bcast_S500000_S500000x1_0),
    TRef.unary (TRef.of (T := ⟨S500000x1, .f32⟩) main_call0_v8) (TRef.of (T := ⟨S500000x1, .f32⟩) main_call0_v9) Host.log,
    TRef.unary (TRef.of (T := ⟨S500000x1, .f32⟩) main_call0_v9) (TRef.of (T := ⟨S500000x16, .f32⟩) main_call0_v10) (broadcastInDim S500000x16 ![0, 1] bcast_S500000x1_S500000x16_0_1),
    TRef.binary (TRef.of (T := ⟨S500000x16, .f32⟩) main_call0_v5) (TRef.of (T := ⟨S500000x16, .f32⟩) main_call0_v10) (TRef.of (T := ⟨S500000x16, .f32⟩) main_v55) subf,
    unary main_v55 main_v56 (Host.exp : (⟨S500000x16, .f32⟩ : BufTy).Contents (Elt F) → (⟨S500000x16, .f32⟩ : BufTy).Contents (Elt F)),
    binary main_v56 main_v54 main_v57 (mulf : (⟨S500000x16, .f32⟩ : BufTy).Contents (Elt F) → (⟨S500000x16, .f32⟩ : BufTy).Contents (Elt F) → (⟨S500000x16, .f32⟩ : BufTy).Contents (Elt F)),
    nullary main_cst_11 (constant S_ .f32 0x00000000#32),
    binary main_v57 main_cst_11 main_v58 ((fun x v => Host.reduceAdd x v reducesTo_S500000x16_S500000_d1 h_S_) : (⟨S500000x16, .f32⟩ : BufTy).Contents (Elt F) → (⟨S_, .f32⟩ : BufTy).Contents (Elt F) → (⟨S500000, .f32⟩ : BufTy).Contents (Elt F)),
    binary main_v56 main_v55 main_v59 (mulf : (⟨S500000x16, .f32⟩ : BufTy).Contents (Elt F) → (⟨S500000x16, .f32⟩ : BufTy).Contents (Elt F) → (⟨S500000x16, .f32⟩ : BufTy).Contents (Elt F)),
    nullary main_cst_12 (constant S_ .f32 0x00000000#32),
    binary main_v59 main_cst_12 main_v60 ((fun x v => Host.reduceAdd x v reducesTo_S500000x16_S500000_d1 h_S_) : (⟨S500000x16, .f32⟩ : BufTy).Contents (Elt F) → (⟨S_, .f32⟩ : BufTy).Contents (Elt F) → (⟨S500000, .f32⟩ : BufTy).Contents (Elt F)),
    binary main_v58 main_v60 main_v61 (subf : (⟨S500000, .f32⟩ : BufTy).Contents (Elt F) → (⟨S500000, .f32⟩ : BufTy).Contents (Elt F) → (⟨S500000, .f32⟩ : BufTy).Contents (Elt F)) ]

theorem ops_split : (ops : List (HloOp τ sig (Elt F))) = opsA ++ (opsB ++ opsC) := rfl

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., unary_bufs_sub .., unary_bufs_sub .., unary_bufs_sub .., nullary_bufs_sub .., unary_bufs_sub .., binary_bufs_sub .., nullary_bufs_sub .., unary_bufs_sub .., binary_bufs_sub .., nullary_bufs_sub .., nullary_bufs_sub .., nullary_bufs_sub .., unary_bufs_sub .., binary_bufs_sub .., binary_bufs_sub .., unary_bufs_sub .., nullary_bufs_sub .., unary_bufs_sub .., unary_bufs_sub .., unary_bufs_sub .., unary_bufs_sub .., unary_bufs_sub .., binary_bufs_sub .., unary_bufs_sub .., unary_bufs_sub .., unary_bufs_sub .., unary_bufs_sub .., binary_bufs_sub .., binary_bufs_sub .., nullary_bufs_sub .., unary_bufs_sub .., binary_bufs_sub .., nullary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., unary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., binary_bufs_sub .., nullary_bufs_sub .., binary_bufs_sub .., binary_bufs_sub .., nullary_bufs_sub .., binary_bufs_sub .., binary_bufs_sub ..⟩

/-- The fold over a concatenation is the fold over the second list from the fold over the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-! ## Typed references at their own buffer type

The called function's operations are stated over typed references; at a literal reference the carried type is the buffer's own
and the transport along that equation is the identity, so each such operation is the plain operation on the references. -/

section TypedRefs
variable {Val : EltTy → Type}

theorem tref_nullary (y : Ref sig .tc) (dy : y.space ≠ .host) (sy : y.isScoped = false) (v : y.ty.Contents Val) :
    (TRef.nullary (TRef.of (T := y.ty) y rfl dy sy) v : HloOp τ sig Val) = StableHlo.nullary y v ⟨dy, sy⟩ := rfl

theorem tref_unary (x y : Ref sig .tc) (dx : x.space ≠ .host) (sx : x.isScoped = false) (dy : y.space ≠ .host)
    (sy : y.isScoped = false) (f : x.ty.Contents Val → y.ty.Contents Val) :
    (TRef.unary (TRef.of (T := x.ty) x rfl dx sx) (TRef.of (T := y.ty) y rfl dy sy) f : HloOp τ sig Val)
      = StableHlo.unary x y f ⟨dx, sx⟩ ⟨dy, sy⟩ := rfl

theorem tref_binary (a b y : Ref sig .tc) (da : a.space ≠ .host) (sa : a.isScoped = false) (db : b.space ≠ .host)
    (sb : b.isScoped = false) (dy : y.space ≠ .host) (sy : y.isScoped = false)
    (f : a.ty.Contents Val → b.ty.Contents Val → y.ty.Contents Val) :
    (TRef.binary (TRef.of (T := a.ty) a rfl da sa) (TRef.of (T := b.ty) b rfl db sb) (TRef.of (T := y.ty) y rfl dy sy) f
        : HloOp τ sig Val)
      = StableHlo.binary a b y f ⟨da, sa⟩ ⟨db, sb⟩ ⟨dy, sy⟩ := rfl

end TypedRefs

theorem opC0 : (TRef.nullary (TRef.of (T := ⟨S_, .f32⟩) main_call0_cst) (constant S_ .f32 0xFF800000#32) : HloOp τ sig (Elt F))
    = nullary main_call0_cst (constant S_ .f32 0xFF800000#32) :=
  tref_nullary main_call0_cst _ _ _
theorem opC1 : (TRef.binary (TRef.of (T := ⟨S500000x16, .f32⟩) main_v54) (TRef.of (T := ⟨S_, .f32⟩) main_call0_cst) (TRef.of (T := ⟨S500000, .f32⟩) main_call0_v0) (fun x v => Host.reduce FloatOps.maximumf x v reducesTo_S500000x16_S500000_d1 h_S_) : HloOp τ sig (Elt F))
    = binary main_v54 main_call0_cst main_call0_v0 ((fun x v => Host.reduce FloatOps.maximumf x v reducesTo_S500000x16_S500000_d1 h_S_) : (⟨S500000x16, .f32⟩ : BufTy).Contents (Elt F) → (⟨S_, .f32⟩ : BufTy).Contents (Elt F) → (⟨S500000, .f32⟩ : BufTy).Contents (Elt F)) :=
  tref_binary main_v54 main_call0_cst main_call0_v0 _ _ _ _ _ _ _
theorem opC2 : (TRef.nullary (TRef.of (T := ⟨S_, .f32⟩) main_call0_cst_0) (constant S_ .f32 0xFF800000#32) : HloOp τ sig (Elt F))
    = nullary main_call0_cst_0 (constant S_ .f32 0xFF800000#32) :=
  tref_nullary main_call0_cst_0 _ _ _
theorem opC3 : (TRef.unary (TRef.of (T := ⟨S_, .f32⟩) main_call0_cst_0) (TRef.of (T := ⟨S500000, .f32⟩) main_call0_v1) (broadcastInDim S500000 ![] bcast_S_S500000) : HloOp τ sig (Elt F))
    = unary main_call0_cst_0 main_call0_v1 ((broadcastInDim S500000 ![] bcast_S_S500000) : (⟨S_, .f32⟩ : BufTy).Contents (Elt F) → (⟨S500000, .f32⟩ : BufTy).Contents (Elt F)) :=
  tref_unary main_call0_cst_0 main_call0_v1 _ _ _ _ _
theorem opC4 : (TRef.binary (TRef.of (T := ⟨S500000, .f32⟩) main_call0_v1) (TRef.of (T := ⟨S500000, .f32⟩) main_call0_v0) (TRef.of (T := ⟨S500000, .f32⟩) main_call0_v2) maximumf : HloOp τ sig (Elt F))
    = binary main_call0_v1 main_call0_v0 main_call0_v2 ((maximumf) : (⟨S500000, .f32⟩ : BufTy).Contents (Elt F) → (⟨S500000, .f32⟩ : BufTy).Contents (Elt F) → (⟨S500000, .f32⟩ : BufTy).Contents (Elt F)) :=
  tref_binary main_call0_v1 main_call0_v0 main_call0_v2 _ _ _ _ _ _ _
theorem opC5 : (TRef.unary (TRef.of (T := ⟨S500000, .f32⟩) main_call0_v2) (TRef.of (T := ⟨S500000x1, .f32⟩) main_call0_v3) (broadcastInDim S500000x1 ![0] bcast_S500000_S500000x1_0) : HloOp τ sig (Elt F))
    = unary main_call0_v2 main_call0_v3 ((broadcastInDim S500000x1 ![0] bcast_S500000_S500000x1_0) : (⟨S500000, .f32⟩ : BufTy).Contents (Elt F) → (⟨S500000x1, .f32⟩ : BufTy).Contents (Elt F)) :=
  tref_unary main_call0_v2 main_call0_v3 _ _ _ _ _
theorem opC6 : (TRef.unary (TRef.of (T := ⟨S500000x1, .f32⟩) main_call0_v3) (TRef.of (T := ⟨S500000x16, .f32⟩) main_call0_v4) (broadcastInDim S500000x16 ![0, 1] bcast_S500000x1_S500000x16_0_1) : HloOp τ sig (Elt F))
    = unary main_call0_v3 main_call0_v4 ((broadcastInDim S500000x16 ![0, 1] bcast_S500000x1_S500000x16_0_1) : (⟨S500000x1, .f32⟩ : BufTy).Contents (Elt F) → (⟨S500000x16, .f32⟩ : BufTy).Contents (Elt F)) :=
  tref_unary main_call0_v3 main_call0_v4 _ _ _ _ _
theorem opC7 : (TRef.binary (TRef.of (T := ⟨S500000x16, .f32⟩) main_v54) (TRef.of (T := ⟨S500000x16, .f32⟩) main_call0_v4) (TRef.of (T := ⟨S500000x16, .f32⟩) main_call0_v5) subf : HloOp τ sig (Elt F))
    = binary main_v54 main_call0_v4 main_call0_v5 ((subf) : (⟨S500000x16, .f32⟩ : BufTy).Contents (Elt F) → (⟨S500000x16, .f32⟩ : BufTy).Contents (Elt F) → (⟨S500000x16, .f32⟩ : BufTy).Contents (Elt F)) :=
  tref_binary main_v54 main_call0_v4 main_call0_v5 _ _ _ _ _ _ _
theorem opC8 : (TRef.unary (TRef.of (T := ⟨S500000x16, .f32⟩) main_call0_v5) (TRef.of (T := ⟨S500000x16, .f32⟩) main_call0_v6) Host.exp : HloOp τ sig (Elt F))
    = unary main_call0_v5 main_call0_v6 ((Host.exp) : (⟨S500000x16, .f32⟩ : BufTy).Contents (Elt F) → (⟨S500000x16, .f32⟩ : BufTy).Contents (Elt F)) :=
  tref_unary main_call0_v5 main_call0_v6 _ _ _ _ _
theorem opC9 : (TRef.nullary (TRef.of (T := ⟨S_, .f32⟩) main_call0_cst_1) (constant S_ .f32 0x00000000#32) : HloOp τ sig (Elt F))
    = nullary main_call0_cst_1 (constant S_ .f32 0x00000000#32) :=
  tref_nullary main_call0_cst_1 _ _ _
theorem opC10 : (TRef.binary (TRef.of (T := ⟨S500000x16, .f32⟩) main_call0_v6) (TRef.of (T := ⟨S_, .f32⟩) main_call0_cst_1) (TRef.of (T := ⟨S500000, .f32⟩) main_call0_v7) (fun x v => Host.reduceAdd x v reducesTo_S500000x16_S500000_d1 h_S_) : HloOp τ sig (Elt F))
    = binary main_call0_v6 main_call0_cst_1 main_call0_v7 ((fun x v => Host.reduceAdd x v reducesTo_S500000x16_S500000_d1 h_S_) : (⟨S500000x16, .f32⟩ : BufTy).Contents (Elt F) → (⟨S_, .f32⟩ : BufTy).Contents (Elt F) → (⟨S500000, .f32⟩ : BufTy).Contents (Elt F)) :=
  tref_binary main_call0_v6 main_call0_cst_1 main_call0_v7 _ _ _ _ _ _ _
theorem opC11 : (TRef.unary (TRef.of (T := ⟨S500000, .f32⟩) main_call0_v7) (TRef.of (T := ⟨S500000x1, .f32⟩) main_call0_v8) (broadcastInDim S500000x1 ![0] bcast_S500000_S500000x1_0) : HloOp τ sig (Elt F))
    = unary main_call0_v7 main_call0_v8 ((broadcastInDim S500000x1 ![0] bcast_S500000_S500000x1_0) : (⟨S500000, .f32⟩ : BufTy).Contents (Elt F) → (⟨S500000x1, .f32⟩ : BufTy).Contents (Elt F)) :=
  tref_unary main_call0_v7 main_call0_v8 _ _ _ _ _
theorem opC12 : (TRef.unary (TRef.of (T := ⟨S500000x1, .f32⟩) main_call0_v8) (TRef.of (T := ⟨S500000x1, .f32⟩) main_call0_v9) Host.log : HloOp τ sig (Elt F))
    = unary main_call0_v8 main_call0_v9 ((Host.log) : (⟨S500000x1, .f32⟩ : BufTy).Contents (Elt F) → (⟨S500000x1, .f32⟩ : BufTy).Contents (Elt F)) :=
  tref_unary main_call0_v8 main_call0_v9 _ _ _ _ _
theorem opC13 : (TRef.unary (TRef.of (T := ⟨S500000x1, .f32⟩) main_call0_v9) (TRef.of (T := ⟨S500000x16, .f32⟩) main_call0_v10) (broadcastInDim S500000x16 ![0, 1] bcast_S500000x1_S500000x16_0_1) : HloOp τ sig (Elt F))
    = unary main_call0_v9 main_call0_v10 ((broadcastInDim S500000x16 ![0, 1] bcast_S500000x1_S500000x16_0_1) : (⟨S500000x1, .f32⟩ : BufTy).Contents (Elt F) → (⟨S500000x16, .f32⟩ : BufTy).Contents (Elt F)) :=
  tref_unary main_call0_v9 main_call0_v10 _ _ _ _ _
theorem opC14 : (TRef.binary (TRef.of (T := ⟨S500000x16, .f32⟩) main_call0_v5) (TRef.of (T := ⟨S500000x16, .f32⟩) main_call0_v10) (TRef.of (T := ⟨S500000x16, .f32⟩) main_v55) subf : HloOp τ sig (Elt F))
    = binary main_call0_v5 main_call0_v10 main_v55 ((subf) : (⟨S500000x16, .f32⟩ : BufTy).Contents (Elt F) → (⟨S500000x16, .f32⟩ : BufTy).Contents (Elt F) → (⟨S500000x16, .f32⟩ : BufTy).Contents (Elt F)) :=
  tref_binary main_call0_v5 main_call0_v10 main_v55 _ _ _ _ _ _ _

/-- The third stretch is the same list of operations either way. -/
theorem opsC_eq : (opsC : List (HloOp τ sig (Elt F))) = opsC' := by
  delta opsC opsC'
  rw [opC0, opC1, opC2, opC3, opC4, opC5, opC6, opC7, opC8, opC9, opC10, opC11, opC12, opC13, opC14]

/-! ## The first stretch: the log matrix -/

set_option maxRecDepth 8192 in
set_option maxHeartbeats 4000000 in
/-- After the first stretch the log matrix's buffer holds stage 37 of the reading, a function of the scores alone. -/
theorem stretchA (W : Valuation τ sig (Elt F)) :
    after opsA W (Proc.devRef .tc main_v37) = ReadP.val_main_v37 (F := F) (W (Proc.devRef .tc main_arg0)) := by
  after_results_simp
  rfl

set_option maxRecDepth 8192 in
set_option maxHeartbeats 4000000 in
/-- The first stretch writes none of the four arguments. -/
theorem frameA (W : Valuation τ sig (Elt F)) :
    after opsA W (Proc.devRef .tc main_arg0) = W (Proc.devRef .tc main_arg0)
      ∧ after opsA W (Proc.devRef .tc main_arg1) = W (Proc.devRef .tc main_arg1)
      ∧ after opsA W (Proc.devRef .tc main_arg2) = W (Proc.devRef .tc main_arg2)
      ∧ after opsA W (Proc.devRef .tc main_arg3) = W (Proc.devRef .tc main_arg3) :=
  ⟨by after_results_simp <;> rfl, by after_results_simp <;> rfl, by after_results_simp <;> rfl, by after_results_simp <;> rfl⟩

/-! ## The second stretch: index wrap, concatenate, gather, scatter-add -/

set_option maxRecDepth 8192 in
set_option maxHeartbeats 4000000 in
/-- After the second stretch the item table's buffer holds stage 54 of the reading, given the log matrix at stage 37 and the
    three index arguments. -/
theorem stretchB (W : Valuation τ sig (Elt F)) (x0 : (⟨S5000, .f32⟩ : BufTy).Contents (Elt F)) (x1 x2 x3 : (⟨S5000000, .i32⟩ : BufTy).Contents (Elt F))
    (h37 : W (Proc.devRef .tc main_v37) = ReadP.val_main_v37 (F := F) x0)
    (h1 : W (Proc.devRef .tc main_arg1) = x1) (h2 : W (Proc.devRef .tc main_arg2) = x2)
    (h3 : W (Proc.devRef .tc main_arg3) = x3) :
    after opsB W (Proc.devRef .tc main_v54) = ReadP.val_main_v54 (F := F) x0 x1 x2 x3 := by
  after_results
  rw [h37, h1, h2, h3]
  rfl

set_option maxRecDepth 8192 in
set_option maxHeartbeats 4000000 in
/-- The second stretch writes none of the four arguments. -/
theorem frameB (W : Valuation τ sig (Elt F)) :
    after opsB W (Proc.devRef .tc main_arg0) = W (Proc.devRef .tc main_arg0)
      ∧ after opsB W (Proc.devRef .tc main_arg1) = W (Proc.devRef .tc main_arg1)
      ∧ after opsB W (Proc.devRef .tc main_arg2) = W (Proc.devRef .tc main_arg2)
      ∧ after opsB W (Proc.devRef .tc main_arg3) = W (Proc.devRef .tc main_arg3) :=
  ⟨by after_results_simp <;> rfl, by after_results_simp <;> rfl, by after_results_simp <;> rfl, by after_results_simp <;> rfl⟩

/-! ## The third stretch: the log-softmax and the two results -/

set_option maxRecDepth 8192 in
set_option maxHeartbeats 4000000 in
/-- After the third stretch the first result's buffer holds stage 56 of the reading, given the item table at stage 54. -/
theorem stretchC56 (W : Valuation τ sig (Elt F)) (x0 : (⟨S5000, .f32⟩ : BufTy).Contents (Elt F)) (x1 x2 x3 : (⟨S5000000, .i32⟩ : BufTy).Contents (Elt F))
    (h54 : W (Proc.devRef .tc main_v54) = ReadP.val_main_v54 (F := F) x0 x1 x2 x3) :
    after opsC' W (Proc.devRef .tc main_v56) = ReadP.val_main_v56 (F := F) x0 x1 x2 x3 := by
  after_results_simp
  rw [h54]
  rfl

set_option maxRecDepth 8192 in
set_option maxHeartbeats 4000000 in
/-- After the third stretch the second result's buffer holds stage 61 of the reading, given the item table at stage 54. -/
theorem stretchC61 (W : Valuation τ sig (Elt F)) (x0 : (⟨S5000, .f32⟩ : BufTy).Contents (Elt F)) (x1 x2 x3 : (⟨S5000000, .i32⟩ : BufTy).Contents (Elt F))
    (h54 : W (Proc.devRef .tc main_v54) = ReadP.val_main_v54 (F := F) x0 x1 x2 x3) :
    after opsC' W (Proc.devRef .tc main_v61) = ReadP.val_main_v61 (F := F) x0 x1 x2 x3 := by
  after_results_simp
  rw [h54]
  rfl

set_option maxRecDepth 8192 in
set_option maxHeartbeats 4000000 in
/-- The third stretch writes none of the four arguments. -/
theorem frameC (W : Valuation τ sig (Elt F)) :
    after opsC' W (Proc.devRef .tc main_arg0) = W (Proc.devRef .tc main_arg0)
      ∧ after opsC' W (Proc.devRef .tc main_arg1) = W (Proc.devRef .tc main_arg1)
      ∧ after opsC' W (Proc.devRef .tc main_arg2) = W (Proc.devRef .tc main_arg2)
      ∧ after opsC' W (Proc.devRef .tc main_arg3) = W (Proc.devRef .tc main_arg3) :=
  ⟨by after_results_simp <;> rfl, by after_results_simp <;> rfl, by after_results_simp <;> rfl, by after_results_simp <;> rfl⟩

/-! ## The three stretches composed -/

/-- The whole fold from any contents `V`: the two results at the last stages of the reading over `V` at the four arguments,
    which no operation writes. -/
theorem after_ops (V : Valuation τ sig (Elt F)) :
    after ops V (Proc.devRef .tc main_v56) = ReadP.val_main_v56 (F := F) (V (Proc.devRef .tc main_arg0)) (V (Proc.devRef .tc main_arg1)) (V (Proc.devRef .tc main_arg2)) (V (Proc.devRef .tc main_arg3))
      ∧ after ops V (Proc.devRef .tc main_v61) = ReadP.val_main_v61 (F := F) (V (Proc.devRef .tc main_arg0)) (V (Proc.devRef .tc main_arg1)) (V (Proc.devRef .tc main_arg2)) (V (Proc.devRef .tc main_arg3))
      ∧ after ops V (Proc.devRef .tc main_arg0) = V (Proc.devRef .tc main_arg0)
      ∧ after ops V (Proc.devRef .tc main_arg1) = V (Proc.devRef .tc main_arg1)
      ∧ after ops V (Proc.devRef .tc main_arg2) = V (Proc.devRef .tc main_arg2)
      ∧ after ops V (Proc.devRef .tc main_arg3) = V (Proc.devRef .tc main_arg3) := by
  rw [ops_split, opsC_eq, after_app, after_app]
  obtain ⟨hA0, hA1, hA2, hA3⟩ := frameA V
  have hA := stretchA V
  generalize after opsA V = W₁ at hA hA0 hA1 hA2 hA3 ⊢
  obtain ⟨hB0, hB1, hB2, hB3⟩ := frameB W₁
  have hB := stretchB W₁ _ _ _ _ hA hA1 hA2 hA3
  generalize after opsB W₁ = W₂ at hB hB0 hB1 hB2 hB3 ⊢
  obtain ⟨hC0, hC1, hC2, hC3⟩ := frameC W₂
  exact ⟨stretchC56 W₂ _ _ _ _ hB, stretchC61 W₂ _ _ _ _ hB, hC0.trans (hB0.trans hA0), hC1.trans (hB1.trans hA1),
    hC2.trans (hB2.trans hA2), hC3.trans (hB3.trans hA3)⟩

/-- Every weakly fair execution of the reference's @main terminates with the two results at the last stages of the
    operation-by-operation reading, as functions of the four arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v56)
          = ReadP.val_main_v56 (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v61)
          = ReadP.val_main_v61 (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => by
      obtain ⟨h56, h61, h0, h1, h2, h3⟩ := after_ops (F := F) (launchContents m c)
      exact ⟨(h c main_v56).trans h56, (h c main_v61).trans h61, (h c main_arg0).trans h0, (h c main_arg1).trans h1,
        (h c main_arg2).trans h2, (h c main_arg3).trans h3⟩)
    (run_seq scopedRefs_eq scopedSems_eq defs main (fun _ => ops) main_eq (fun _ => ops_sub) m ρ)

end Cert.ReferenceIdeal.RefRun

end
-- ==== Proof.RefLogTheta.lean ====
/-
  The reference's per-worker matrix read at an entry: stage 37 of the reference (the logarithm of each row-normalised entry of
  (sig · [k = k'] + nsig · (1/16)) / 2) at (j, k, k') is the specification's logThetaE of worker j's score.

  Bottom-up: the two sigmoids at worker j (stages 5 and 12), the identity matrix at (k, k') (stage 18: the two iotas are the
  words of k and k', both below 16, so the comparison bit is set exactly when k = k', and the bit as a float is 1 or 0), the
  matrix entry theta (stage 32), its row sum over the last axis (stage 33, broadcast back by stages 34 and 35), the quotient
  (stage 36) and its logarithm (stage 37).
-/
import proofs.«115153_j22256520528420_1_alg».proof.Proof.RefRead
import proofs.«115153_j22256520528420_1_alg».proof.Proof.Spec

noncomputable section

open scoped BigOperators
open Idealize.ShloMosaic Idealize.ShloMosaic.TcCoe Idealize.SL.Sem Idealize.ShloMosaic.ValueIdx
open Cert.ReferenceIdeal Cert.ReferenceIdeal.Gen Cert.ReferenceIdeal.ReadP

namespace Cert.ReferenceIdeal.RefValue

/-- Stage 5 at worker j: 1 / (1 + exp (-x j)). -/
theorem sig_eq (x0 : S5000.Idx → EReal) (j : Fin 5000) :
    val_main_v5 (F := Ideal) x0 (ix1 j) = Spec.sigE (x0 (ix1 j)) := by
  rw [val_main_v5_apply, val_main_v4_apply, val_main_cst_0_apply, val_main_v3_apply, val_main_v2_apply, val_main_cst_apply,
    val_main_v1_apply, val_main_v0_apply]
  rfl

/-- Stage 12 at worker j: 1 / (1 + exp (-(-x j))). -/
theorem nsig_eq (x0 : S5000.Idx → EReal) (j : Fin 5000) :
    val_main_v12 (F := Ideal) x0 (ix1 j) = Spec.nsigE (x0 (ix1 j)) := by
  rw [val_main_v12_apply, val_main_v11_apply, val_main_cst_2_apply, val_main_v10_apply, val_main_v9_apply, val_main_cst_1_apply,
    val_main_v8_apply, val_main_v7_apply, val_main_v6_apply]
  rfl

/-- Two words of numbers below 16 are equal exactly when the numbers are. -/
private theorem ofNat_eq_iff (k k' : Fin 16) : BitVec.ofNat 32 k.val = BitVec.ofNat 32 k'.val ↔ k = k' := by
  constructor
  · intro h
    have h' := congrArg BitVec.toNat h
    simp only [BitVec.toNat_ofNat] at h'
    have hk := k.isLt
    have hk' := k'.isLt
    exact Fin.ext (by omega)
  · rintro rfl; rfl

/-- Stage 18 at (k, k'): the identity matrix's entry. -/
theorem eye_eq (k k' : Fin 16) : val_main_v18 (F := Ideal) (ix2 k k') = Spec.eyeE k k' := by
  rw [val_main_v18_apply, val_main_v17_apply, val_main_v16_apply, val_main_v13_apply, val_main_v15_apply, val_main_c_apply,
    val_main_v14_apply]
  show (((IntOp.cmpi .eq (IntOp.addi (BitVec.ofNat 32 k.val) 0#32) (BitVec.ofNat 32 k'.val)).toNat : ℝ) : EReal) = _
  unfold Spec.eyeE
  simp only [IntOp.addi, BitVec.add_zero, IntOp.cmpi]
  by_cases hk : k = k'
  · rw [if_pos hk, beq_iff_eq.mpr ((ofNat_eq_iff k k').mpr hk)]
    simp
  · rw [if_neg hk, beq_eq_false_iff_ne.mpr (fun h => hk ((ofNat_eq_iff k k').mp h))]
    simp

/-- Stage 32 at (j, k, k'): (sig · [k = k'] + nsig · (1/16)) / 2. -/
theorem theta_eq (x0 : S5000.Idx → EReal) (j : Fin 5000) (k k' : Fin 16) :
    val_main_v32 (F := Ideal) x0 (ix3 j k k') = Spec.thetaE (x0 (ix1 j)) k k' := by
  rw [val_main_v32_apply, val_main_v31_apply, val_main_cst_4_apply, val_main_v30_apply, val_main_v24_apply, val_main_v22_apply,
    val_main_v20_apply, val_main_v23_apply, val_main_v21_apply, val_main_v29_apply, val_main_v27_apply, val_main_v25_apply,
    val_main_v28_apply, val_main_v26_apply, val_main_v19_apply, val_main_cst_3_apply]
  have e1 : idx_main_v20 (idx_main_v22 (ix3 j k k')) = ix1 j :=
    funext fun a => Fin.ext (by match a with | ⟨0, _⟩ => rfl)
  have e2 : idx_main_v21 (idx_main_v23 (ix3 j k k')) = ix2 k k' :=
    funext fun a => Fin.ext (by match a with | ⟨0, _⟩ => rfl | ⟨1, _⟩ => rfl)
  have e3 : idx_main_v25 (idx_main_v27 (ix3 j k k')) = ix1 j :=
    funext fun a => Fin.ext (by match a with | ⟨0, _⟩ => rfl)
  rw [e1, e2, e3, sig_eq, nsig_eq, eye_eq]
  rfl

/-- Stage 35 at (j, k, k'): the row sum of theta over the last axis, from the zero word. -/
theorem rowsum_eq (x0 : S5000.Idx → EReal) (j : Fin 5000) (k k' : Fin 16) :
    val_main_v35 (F := Ideal) x0 (ix3 j k k') = Spec.c0 + ∑ k'' : Fin 16, Spec.thetaE (x0 (ix1 j)) k k'' := by
  rw [val_main_v35_apply, val_main_v34_apply, val_main_v33_apply, val_main_cst_5_apply]
  refine congrArg (_ + ·) (Finset.sum_congr rfl fun k'' _ => ?_)
  have e : idx_main_v33 (idx_main_v34 (idx_main_v35 (ix3 j k k'))) k'' = ix3 j k k'' :=
    funext fun a => Fin.ext (by match a with | ⟨0, _⟩ => rfl | ⟨1, _⟩ => rfl | ⟨2, _⟩ => rfl)
  rw [e, theta_eq]

theorem logTheta_eq (x0 : S5000.Idx → EReal) (j : Fin 5000) (k k' : Fin 16) :
    val_main_v37 (F := Ideal) x0 (ix3 j k k') = Spec.logThetaE (x0 (ix1 j)) k k' := by
  rw [val_main_v37_apply, val_main_v36_apply, theta_eq, rowsum_eq]
  rfl

end Cert.ReferenceIdeal.RefValue

end
-- ==== Proof.RefCll.lean ====
/-
  The reference's gather and scatter-add read at an entry, for index words in range. Observation n gathers, for each k, entry
  (J n, k, Y n) of the log matrix (the negative-index wrap and the clamp do nothing to words in range); the scatter-add by task
  puts at (i, k) zero plus the sum over the observations of task i.

  The steps. A word written from a number below 2³¹ is not negative as a signed integer, so "add the extent if negative"
  returns it unchanged. The two wrapped index arrays, laid as the two columns of a [5000000, 2] array, are read back column
  by column. The gather's operand index at result (n, k) is, axis by axis, the clamped first component of row n of that
  array (axis 0, collapsed), the result's own second coordinate (axis 1, the one offset axis) and the clamped second
  component (axis 2, collapsed): (J n, k, Y n), since J n ≤ 4999 and Y n ≤ 15 are inside the clamps. The scatter sends update
  (n, k') to (I n, k'): its start on axis 0 is the task word read signed, its window coordinate on axis 1 is k', and both are
  inside the operand. So the updates landing at (i, k) are exactly the (n, k) with I n = i, and their sum is the sum over
  those n of entry (k, Y n) of worker J n's log matrix.
-/
import proofs.«115153_j22256520528420_1_alg».proof.Proof.RefRead
import proofs.«115153_j22256520528420_1_alg».proof.Proof.Spec
import proofs.«115153_j22256520528420_1_alg».proof.Proof.RefLogTheta
import Idealize.ShloMosaic.Lib.StableHlo.Predicate
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Cert.ReferenceIdeal Cert.ReferenceIdeal.Gen Cert.ReferenceIdeal.ReadP

namespace Cert.ReferenceIdeal.RefValue

open Idealize.ShloMosaic.StableHlo.Predicate

namespace Cll

/-! ## The negative-index wrap on a word in range -/

/-- A word below 2³¹ is not negative, so the select on "negative" keeps it. -/
theorem select_slt_zero (w c : BitVec 32) (hw : w.toNat < 2 ^ 31) :
    Scalar.select (IntOp.cmpi .slt w 0#32) c w = w := by
  have h : ¬ IntOp.cmpi .slt w 0#32 = 1#1 := by
    rw [slt_iff_toNat hw (by decide)]
    exact Nat.not_lt_zero _
  rw [eq_zero_of_ne_one h, select_zero]

theorem toNat_ofNat_lt (a : ℕ) (ha : a < 2 ^ 31) : (BitVec.ofNat 32 a).toNat < 2 ^ 31 := by
  rw [BitVec.toNat_ofNat]; exact lt_of_le_of_lt (Nat.mod_le _ _) ha

/-- The wrapped worker index is the worker index. -/
theorem v42_eq (x2 : S5000000.Idx → BitVec 32) (n : Fin 5000000) (a : ℕ) (ha : a < 2 ^ 31)
    (h : x2 (ix1 n) = BitVec.ofNat 32 a) : val_main_v42 (F := Ideal) x2 (ix1 n) = BitVec.ofNat 32 a := by
  rw [val_main_v42_apply, val_main_v39_apply, val_main_v38_apply, val_main_c_6_apply, h]
  exact select_slt_zero _ _ (toNat_ofNat_lt a ha)

/-- The wrapped class index is the class index. -/
theorem v47_eq (x3 : S5000000.Idx → BitVec 32) (n : Fin 5000000) (a : ℕ) (ha : a < 2 ^ 31)
    (h : x3 (ix1 n) = BitVec.ofNat 32 a) : val_main_v47 (F := Ideal) x3 (ix1 n) = BitVec.ofNat 32 a := by
  rw [val_main_v47_apply, val_main_v44_apply, val_main_v43_apply, val_main_c_8_apply, h]
  exact select_slt_zero _ _ (toNat_ofNat_lt a ha)

/-! ## The two index columns side by side -/

theorem idx_col (n : Fin 5000000) : idx_main_v48 (ix2 n (0 : Fin 1)) = ix1 n :=
  funext fun a => Fin.ext (by match a with | ⟨0, _⟩ => rfl)

/-- Column 0 of the start-index array is the wrapped worker index. -/
theorem v50_col0 (x2 x3 : S5000000.Idx → BitVec 32) (n : Fin 5000000) :
    val_main_v50 (F := Ideal) x2 x3 (ix2 n (0 : Fin 2)) = val_main_v42 (F := Ideal) x2 (ix1 n) := by
  have e : val_main_v50 (F := Ideal) x2 x3 (ix2 n (0 : Fin 2)) = val_main_v48 (F := Ideal) x2 (ix2 n (0 : Fin 1)) := by
    unfold val_main_v50
    exact concatenate_pair_apply_left (t := S5000000x2) (s₁ := S5000000x1) (s₂ := S5000000x1) (1 : Fin 2)
      (val_main_v48 (F := Ideal) x2) (val_main_v49 (F := Ideal) x3) concatenates_S5000000x1_S5000000x1_S5000000x2_d1
      (ix2 n (0 : Fin 2)) rfl (ix2 n (0 : Fin 1)) (fun b => by match b with | ⟨0, _⟩ => rfl | ⟨1, _⟩ => rfl)
  rw [e, val_main_v48_apply, idx_col]

/-- Column 1 of the start-index array is the wrapped class index. -/
theorem v50_col1 (x2 x3 : S5000000.Idx → BitVec 32) (n : Fin 5000000) :
    val_main_v50 (F := Ideal) x2 x3 (ix2 n (1 : Fin 2)) = val_main_v47 (F := Ideal) x3 (ix1 n) := by
  have e : val_main_v50 (F := Ideal) x2 x3 (ix2 n (1 : Fin 2)) = val_main_v49 (F := Ideal) x3 (ix2 n (0 : Fin 1)) := by
    unfold val_main_v50
    exact concatenate_pair_apply_right (t := S5000000x2) (s₁ := S5000000x1) (s₂ := S5000000x1) (1 : Fin 2)
      (val_main_v48 (F := Ideal) x2) (val_main_v49 (F := Ideal) x3) concatenates_S5000000x1_S5000000x1_S5000000x2_d1
      (ix2 n (1 : Fin 2)) rfl rfl (ix2 n (0 : Fin 1))
      (fun b hb => by match b with | ⟨0, _⟩ => rfl | ⟨1, _⟩ => exact absurd rfl hb) rfl
  rw [e, val_main_v49_apply]
  exact congrArg _ (idx_col n)

/-! ## The gather's operand index -/

/-- The gather's dimension numbers (a local name). -/
abbrev gD : GatherDims S5000x16x16 S5000000x2 S5000000x16 := gather_S5000x16x16_S5000000x2_S5000000x16_1_02_n_n_02_1_1161

/-- Result (n, k) reads operand entry (j, k, y) when row n of the start indices holds the words of j < 5000 and y < 16. -/
theorem operandIdx_eq (idx : IVec S5000000x2 32) (n : Fin 5000000) (k : Fin 16) (j : Fin 5000) (y : Fin 16)
    (h0 : idx (ix2 n (0 : Fin 2)) = BitVec.ofNat 32 j.val) (h1 : idx (ix2 n (1 : Fin 2)) = BitVec.ofNat 32 y.val) :
    gD.operandIdx (ix2 n k) idx = ix3 j k y := by
  funext a
  refine Fin.ext ?_
  match a with
  | ⟨0, _⟩ =>
    show gD.start (ix2 n k) idx 0 + gD.batchCoord (ix2 n k) 0 + gD.offCoord (ix2 n k) 0 = j.val
    have hb : gD.batchCoord (ix2 n k) 0 = 0 := GatherDims.batchCoord_eq_zero _ _ _ List.not_mem_nil
    have ho : gD.offCoord (ix2 n k) 0 = 0 :=
      GatherDims.offCoord_eq_zero _ _ _ (fun h => ((GatherDims.mem_sKept _ _).mp h).1 (by decide))
    have hs : gD.start (ix2 n k) idx 0 = j.val := by
      unfold GatherDims.start
      rw [dif_pos (show (0 : Fin 3) ∈ gD.startIndexMap from by decide)]
      have hsi : gD.siIdx (ix2 n k) ⟨List.idxOf (0 : Fin 3) gD.startIndexMap,
          List.idxOf_lt_length_iff.2 (show (0 : Fin 3) ∈ gD.startIndexMap from by decide)⟩ = ix2 n (0 : Fin 2) := by
        funext b; refine Fin.ext ?_
        match b with
        | ⟨0, _⟩ => rfl
        | ⟨1, _⟩ => rfl
      rw [hsi, h0, toInt_ofNat_small _ (by have := j.isLt; omega), Int.toNat_natCast]
      show min j.val (5000 - 1) = j.val
      have := j.isLt; omega
    rw [hb, ho, hs]; omega
  | ⟨1, _⟩ =>
    show gD.start (ix2 n k) idx 1 + gD.batchCoord (ix2 n k) 1 + gD.offCoord (ix2 n k) 1 = k.val
    have hb : gD.batchCoord (ix2 n k) 1 = 0 := GatherDims.batchCoord_eq_zero _ _ _ List.not_mem_nil
    have hs : gD.start (ix2 n k) idx 1 = 0 := by
      unfold GatherDims.start
      rw [dif_neg (show ¬ (1 : Fin 3) ∈ gD.startIndexMap from by decide)]
    have ho : gD.offCoord (ix2 n k) 1 = k.val := by
      unfold GatherDims.offCoord
      rw [dif_pos (show (1 : Fin 3) ∈ gD.sKept from by decide)]
      rfl
    rw [hb, ho, hs]; omega
  | ⟨2, _⟩ =>
    show gD.start (ix2 n k) idx 2 + gD.batchCoord (ix2 n k) 2 + gD.offCoord (ix2 n k) 2 = y.val
    have hb : gD.batchCoord (ix2 n k) 2 = 0 := GatherDims.batchCoord_eq_zero _ _ _ List.not_mem_nil
    have ho : gD.offCoord (ix2 n k) 2 = 0 :=
      GatherDims.offCoord_eq_zero _ _ _ (fun h => ((GatherDims.mem_sKept _ _).mp h).1 (by decide))
    have hs : gD.start (ix2 n k) idx 2 = y.val := by
      unfold GatherDims.start
      rw [dif_pos (show (2 : Fin 3) ∈ gD.startIndexMap from by decide)]
      have hsi : gD.siIdx (ix2 n k) ⟨List.idxOf (2 : Fin 3) gD.startIndexMap,
          List.idxOf_lt_length_iff.2 (show (2 : Fin 3) ∈ gD.startIndexMap from by decide)⟩ = ix2 n (1 : Fin 2) := by
        funext b; refine Fin.ext ?_
        match b with
        | ⟨0, _⟩ => rfl
        | ⟨1, _⟩ => rfl
      rw [hsi, h1, toInt_ofNat_small _ (by have := y.isLt; omega), Int.toNat_natCast]
      show min y.val (16 - 1) = y.val
      have := y.isLt; omega
    rw [hb, ho, hs]; omega

/-! ## The scatter's result index -/

/-- The scatter's dimension numbers (a local name). -/
abbrev sD : ScatterDims S500000x16 S5000000x1 S5000000x16 := scatter_S500000x16_S5000000x1_S5000000x16_1_0_0_1

/-- Update (n, k') lands at (t, k') when row n of the scatter indices holds the word of t < 500000. -/
theorem resultIdx_eq (idx : IVec S5000000x1 32) (n : Fin 5000000) (k' : Fin 16) (t : Fin 500000)
    (h0 : idx (ix2 n (0 : Fin 1)) = BitVec.ofNat 32 t.val) :
    sD.resultIdx? (ix2 n k') idx = some (ix2 t k') := by
  have hst0 : sD.start (ix2 n k') idx 0 = (t.val : ℤ) := by
    unfold ScatterDims.start
    rw [dif_pos (show (0 : Fin 2) ∈ sD.scatterDimsToOperandDims from by decide)]
    have hsi : sD.siIdx (ix2 n k') ⟨List.idxOf (0 : Fin 2) sD.scatterDimsToOperandDims,
        List.idxOf_lt_length_iff.2 (show (0 : Fin 2) ∈ sD.scatterDimsToOperandDims from by decide)⟩ = ix2 n (0 : Fin 1) := by
      funext b; refine Fin.ext ?_
      match b with
      | ⟨0, _⟩ => rfl
      | ⟨1, _⟩ => rfl
    rw [hsi, h0, toInt_ofNat_small _ (by have := t.isLt; omega)]
  have hst1 : sD.start (ix2 n k') idx 1 = 0 := by
    unfold ScatterDims.start
    rw [dif_neg (show ¬ (1 : Fin 2) ∈ sD.scatterDimsToOperandDims from by decide)]
  have hw0 : sD.window (ix2 n k') 0 = 0 := by
    unfold ScatterDims.window
    rw [dif_neg (show ¬ (0 : Fin 2) ∈ sD.sKept from by decide)]
  have hw1 : sD.window (ix2 n k') 1 = k'.val := by
    unfold ScatterDims.window
    rw [dif_pos (show (1 : Fin 2) ∈ sD.sKept from by decide)]
    rfl
  have H : ∀ a, 0 ≤ sD.start (ix2 n k') idx a + sD.window (ix2 n k') a ∧
      sD.start (ix2 n k') idx a + sD.window (ix2 n k') a < S500000x16.size a := by
    intro a
    match a with
    | ⟨0, _⟩ =>
      show 0 ≤ sD.start (ix2 n k') idx 0 + (sD.window (ix2 n k') 0 : ℕ) ∧
        sD.start (ix2 n k') idx 0 + (sD.window (ix2 n k') 0 : ℕ) < ((500000 : ℕ) : ℤ)
      rw [hst0, hw0]; have := t.isLt; omega
    | ⟨1, _⟩ =>
      show 0 ≤ sD.start (ix2 n k') idx 1 + (sD.window (ix2 n k') 1 : ℕ) ∧
        sD.start (ix2 n k') idx 1 + (sD.window (ix2 n k') 1 : ℕ) < ((16 : ℕ) : ℤ)
      rw [hst1, hw1]; have := k'.isLt; omega
  unfold ScatterDims.resultIdx?
  rw [dif_pos H]
  congr 1
  funext a
  refine Fin.ext ?_
  match a with
  | ⟨0, _⟩ =>
    show (sD.start (ix2 n k') idx 0 + (sD.window (ix2 n k') 0 : ℕ)).toNat = t.val
    rw [hst0, hw0]; omega
  | ⟨1, _⟩ =>
    show (sD.start (ix2 n k') idx 1 + (sD.window (ix2 n k') 1 : ℕ)).toNat = k'.val
    rw [hst1, hw1]; omega

/-! ## The scatter-add at an entry -/

theorem ix2_inj {n0 n1 : Nat} (a a' : Fin n0) (b b' : Fin n1) : ix2 a b = ix2 a' b' ↔ a = a' ∧ b = b' := by
  constructor
  · intro h; exact ⟨congrFun h (0 : Fin 2), congrFun h (1 : Fin 2)⟩
  · rintro ⟨rfl, rfl⟩; rfl

/-- With the scatter indices the words of tasks I n, entry (i, k) of the scatter-add is the operand's entry plus the sum
    of the updates (n, k) over the observations n of task i. -/
theorem scatterAdd_apply (x : S500000x16.Idx → EReal) (idx : IVec S5000000x1 32) (I : Fin 5000000 → Fin 500000)
    (hI : ∀ n, idx (ix2 n (0 : Fin 1)) = BitVec.ofNat 32 (I n).val) (upd : S5000000x16.Idx → EReal)
    (i : Fin 500000) (k : Fin 16) :
    Ideal.hostScatterAdd sD x idx upd (ix2 i k)
      = x (ix2 i k) + ∑ n ∈ Finset.univ.filter (fun n => I n = i), upd (ix2 n k) := by
  unfold Ideal.hostScatterAdd
  have hres : ∀ j : S5000000x16.Idx, sD.resultIdx? j idx = some (ix2 i k) ↔ I (j 0) = i ∧ j 1 = k := by
    intro j
    obtain ⟨a, b, rfl⟩ : ∃ a b, j = ix2 a b := ⟨j 0, j 1, eq_ix2 j⟩
    rw [resultIdx_eq idx a b (I a) (hI a), Option.some_inj, ix2_inj]
    exact Iff.rfl
  refine congrArg (x (ix2 i k) + ·) ?_
  refine Finset.sum_bij' (fun j _ => (j 0 : Fin 5000000)) (fun n _ => ix2 n k) ?_ ?_ ?_ ?_ ?_
  · intro j hj
    exact Finset.mem_filter.2 ⟨Finset.mem_univ _, ((hres j).1 (Finset.mem_filter.1 hj).2).1⟩
  · intro n hn
    exact Finset.mem_filter.2 ⟨Finset.mem_univ _, (hres _).2 ⟨(Finset.mem_filter.1 hn).2, rfl⟩⟩
  · intro j hj
    have h2 : j 1 = k := ((hres j).1 (Finset.mem_filter.1 hj).2).2
    rw [← h2]; exact (eq_ix2 j).symm
  · intro n _; rfl
  · intro j hj
    have h2 : j 1 = k := ((hres j).1 (Finset.mem_filter.1 hj).2).2
    rw [← h2]; exact congrArg upd (eq_ix2 j)

theorem idx_col53 (n : Fin 5000000) : idx_main_v53 (ix2 n (0 : Fin 1)) = ix1 n :=
  funext fun a => Fin.ext (by match a with | ⟨0, _⟩ => rfl)

/-- The scatter indices are the task words, as a column. -/
theorem v53_eq (x1 : S5000000.Idx → BitVec 32) (n : Fin 5000000) :
    val_main_v53 (F := Ideal) x1 (ix2 n (0 : Fin 1)) = x1 (ix1 n) := by
  rw [val_main_v53_apply, idx_col53]

/-- The scatter's operand is the zero word everywhere. -/
theorem v52_eq (j : S500000x16.Idx) : val_main_v52 (F := Ideal) j = Spec.c0 := by
  rw [val_main_v52_apply, val_main_cst_10_apply]
  rfl

/-- The scatter-add, with the instance's exact sum named. -/
theorem v54_unfold (x0 : S5000.Idx → EReal) (x1 x2 x3 : S5000000.Idx → BitVec 32) :
    val_main_v54 (F := Ideal) x0 x1 x2 x3 = Ideal.hostScatterAdd sD (val_main_v52 (F := Ideal))
      (val_main_v53 (F := Ideal) x1) (val_main_v51 (F := Ideal) x0 x2 x3) := rfl
/-! ## The reference's matrix of sums -/

variable (x0 : S5000.Idx → EReal) (x1 x2 x3 : S5000000.Idx → BitVec 32)
variable (I : Fin 5000000 → Fin 500000) (J : Fin 5000000 → Fin 5000) (Y : Fin 5000000 → Fin 16)

/-- Entry (n, k) of the gather: entry (k, Y n) of worker J n's log matrix. -/
theorem v51_eq (hJ : ∀ n, x2 (ix1 n) = BitVec.ofNat 32 (J n).val) (hY : ∀ n, x3 (ix1 n) = BitVec.ofNat 32 (Y n).val)
    (n : Fin 5000000) (k : Fin 16) :
    val_main_v51 (F := Ideal) x0 x2 x3 (ix2 n k) = Spec.logThetaE (x0 (ix1 (J n))) k (Y n) := by
  have hop := operandIdx_eq (val_main_v50 (F := Ideal) x2 x3) n k (J n) (Y n)
    (by rw [v50_col0, v42_eq x2 n _ (by have := (J n).isLt; omega) (hJ n)])
    (by rw [v50_col1, v47_eq x3 n _ (by have := (Y n).isLt; omega) (hY n)])
  show val_main_v37 (F := Ideal) x0 (gD.operandIdx (ix2 n k) (val_main_v50 (F := Ideal) x2 x3)) = _
  rw [hop, logTheta_eq]

end Cll

open Cll

variable (x0 : S5000.Idx → EReal) (x1 x2 x3 : S5000000.Idx → BitVec 32)
variable (I : Fin 5000000 → Fin 500000) (J : Fin 5000000 → Fin 5000) (Y : Fin 5000000 → Fin 16)

/-- Entry (i, k) of the reference's scatter-add is the specification's sum over the observations of task i. -/
theorem cll_eq (hI : ∀ n, x1 (ix1 n) = BitVec.ofNat 32 (I n).val) (hJ : ∀ n, x2 (ix1 n) = BitVec.ofNat 32 (J n).val)
    (hY : ∀ n, x3 (ix1 n) = BitVec.ofNat 32 (Y n).val) (i : Fin 500000) (k : Fin 16) :
    val_main_v54 (F := Ideal) x0 x1 x2 x3 (ix2 i k) = Spec.cll (fun j => x0 (ix1 j)) I J Y i k := by
  have hidx : ∀ n, val_main_v53 (F := Ideal) x1 (ix2 n (0 : Fin 1)) = BitVec.ofNat 32 (I n).val :=
    fun n => (v53_eq x1 n).trans (hI n)
  have h := scatterAdd_apply (val_main_v52 (F := Ideal)) (val_main_v53 (F := Ideal) x1) I hidx
    (val_main_v51 (F := Ideal) x0 x2 x3) i k
  refine (congrFun (v54_unfold x0 x1 x2 x3) (ix2 i k)).trans (h.trans ?_)
  rw [v52_eq]
  unfold Spec.cll
  refine congrArg (fun z => Spec.c0 + z) ?_
  refine Finset.sum_congr rfl (fun n _ => ?_)
  exact v51_eq x0 x2 x3 J Y hJ hY n k

end Cert.ReferenceIdeal.RefValue

end
-- ==== Proof.RefSoftmax.lean ====
/-
  The reference's tail read at an entry: from the scatter-add's result (stage 54) the log-softmax of each row, its exponential (the
  first result) and Σ qz · row − Σ qz · log qz (the second result).

  Write row k' for stage 54 at (i, k'). The log-softmax takes the row maximum as a fold of max from −∞ over the sixteen classes,
  takes the maximum of that with −∞ once more (m), subtracts m from the row (sh), exponentiates, sums over the classes from the
  word 0, takes the logarithm (lse) and subtracts it from sh: that is lsm. The first result is qz = exp lsm; the second is
  (0 + Σ qz · row) − (0 + Σ qz · lsm). Each stage is read at (i, k), or at i, from the stage before it.
-/
import proofs.«115153_j22256520528420_1_alg».proof.Proof.RefRead
import proofs.«115153_j22256520528420_1_alg».proof.Proof.Spec

noncomputable section

open scoped BigOperators
open Idealize.ShloMosaic Idealize.ShloMosaic.TcCoe Idealize.SL.Sem Idealize.ShloMosaic.ValueIdx
open Cert.ReferenceIdeal Cert.ReferenceIdeal.Gen Cert.ReferenceIdeal.ReadP

namespace Cert.ReferenceIdeal.RefValue

variable (x0 : S5000.Idx → EReal) (x1 x2 x3 : S5000000.Idx → BitVec 32)

/-- Stage 54's row of task i. -/
private abbrev rowAt (i : Fin 500000) : Fin 16 → EReal :=
  fun k' => val_main_v54 (F := Ideal) x0 x1 x2 x3 (ix2 i k')

/-- The reduced index i with class k put back on axis 1 is (i, k). -/
private theorem lift_ix2 (h : S500000x16.Reduces [1] S500000) (i : Fin 500000) (k : Fin (S500000x16.size 1)) :
    h.lift (ix1 i) k = ix2 i (⟨k.val, k.isLt⟩ : Fin 16) := by
  funext c; apply Fin.ext
  fin_cases c <;> rfl

/-- The shape fact of reducing the class axis. -/
private theorem hR : S500000x16.Reduces [1] S500000 := by decide

/-- From −∞ the host's reduce with a maximum body over the classes, at task i, is the fold of max over the row. -/
private theorem hostReduce_max_row (y : S500000x16.Idx → Ideal .f32) (i : Fin 500000) :
    Host.reduce (FloatOps.maximumf (F := Ideal) (φ := .f32)) y (constant S_ .f32 0xFF800000#32)
        reducesTo_S500000x16_S500000_d1 h_S_ (ix1 i)
      = (Finset.univ : Finset (Fin 16)).fold max (Ideal.ofBits .f32 0xFF800000#32) (fun k => y (ix2 i k)) := by
  rw [Host.reduce_eq_fold_single (FloatOps.maximumf (F := Ideal) (φ := .f32)) y _ reducesTo_S500000x16_S500000_d1 hR h_S_]
  have hf : (y ∘ hR.lift (ix1 i)) = fun k : Fin 16 => y (ix2 i k) := funext fun k => congrArg y (lift_ix2 hR i k)
  exact congrArg (fun f => Finset.fold max (Ideal.ofBits .f32 0xFF800000#32) f (Finset.univ : Finset (Fin 16))) hf

/-- The row maximum of stage 54 at task i. -/
private theorem call0_v0_at (i : Fin 500000) :
    val_main_call0_v0 (F := Ideal) x0 x1 x2 x3 (ix1 i) = Spec.rowMax (rowAt x0 x1 x2 x3 i) :=
  hostReduce_max_row (val_main_v54 (F := Ideal) x0 x1 x2 x3) i

/-- m: the maximum of −∞ and the row maximum. -/
private theorem call0_v2_at (i : Fin 500000) :
    val_main_call0_v2 (F := Ideal) x0 x1 x2 x3 (ix1 i) = Spec.mR (rowAt x0 x1 x2 x3 i) := by
  rw [val_main_call0_v2_apply, val_main_call0_v1_apply, val_main_call0_cst_0_apply, call0_v0_at]
  rfl

/-- m broadcast along the classes. -/
private theorem call0_v4_at (i : Fin 500000) (k : Fin 16) :
    val_main_call0_v4 (F := Ideal) x0 x1 x2 x3 (ix2 i k) = Spec.mR (rowAt x0 x1 x2 x3 i) := by
  rw [val_main_call0_v4_apply, val_main_call0_v3_apply]
  have e : idx_main_call0_v3 (idx_main_call0_v4 (ix2 i k)) = ix1 i :=
    funext fun a => Fin.ext (by match a with | ⟨0, _⟩ => rfl)
  rw [e, call0_v2_at]

/-- sh: the row minus m. -/
private theorem call0_v5_at (i : Fin 500000) (k : Fin 16) :
    val_main_call0_v5 (F := Ideal) x0 x1 x2 x3 (ix2 i k) = Spec.shR (rowAt x0 x1 x2 x3 i) k := by
  rw [val_main_call0_v5_apply, call0_v4_at]
  rfl

/-- exp sh. -/
private theorem call0_v6_at (i : Fin 500000) (k : Fin 16) :
    val_main_call0_v6 (F := Ideal) x0 x1 x2 x3 (ix2 i k) = Ideal.exp (Spec.shR (rowAt x0 x1 x2 x3 i) k) := by
  rw [val_main_call0_v6_apply, call0_v5_at, Ideal.hostUnary_exp_def]

/-- The sum of exp sh over the classes, from the word 0. -/
private theorem call0_v7_at (i : Fin 500000) :
    val_main_call0_v7 (F := Ideal) x0 x1 x2 x3 (ix1 i)
      = Spec.c0 + ∑ k : Fin 16, Ideal.exp (Spec.shR (rowAt x0 x1 x2 x3 i) k) := by
  rw [val_main_call0_v7_apply, val_main_call0_cst_1_apply]
  refine congrArg (_ + ·) (Finset.sum_congr rfl fun k _ => ?_)
  have e : idx_main_call0_v7 (ix1 i) k = ix2 i k :=
    funext fun a => Fin.ext (by match a with | ⟨0, _⟩ => rfl | ⟨1, _⟩ => rfl)
  rw [e, call0_v6_at]

/-- lse: the logarithm of that sum, broadcast along the classes. -/
private theorem call0_v10_at (i : Fin 500000) (k : Fin 16) :
    val_main_call0_v10 (F := Ideal) x0 x1 x2 x3 (ix2 i k) = Spec.lseR (rowAt x0 x1 x2 x3 i) := by
  rw [val_main_call0_v10_apply, val_main_call0_v9_apply, val_main_call0_v8_apply]
  have e : idx_main_call0_v8 (idx_main_call0_v10 (ix2 i k)) = ix1 i :=
    funext fun a => Fin.ext (by match a with | ⟨0, _⟩ => rfl)
  rw [e, call0_v7_at, Ideal.hostUnary_log_def]
  rfl

/-- lsm: sh minus lse, the log-softmax of the row. -/
private theorem v55_at (i : Fin 500000) (k : Fin 16) :
    val_main_v55 (F := Ideal) x0 x1 x2 x3 (ix2 i k) = Spec.lsmR (rowAt x0 x1 x2 x3 i) k := by
  rw [val_main_v55_apply, call0_v5_at, call0_v10_at]
  rfl

/-- qz: the exponential of lsm. -/
private theorem v56_at (i : Fin 500000) (k : Fin 16) :
    val_main_v56 (F := Ideal) x0 x1 x2 x3 (ix2 i k) = Spec.qzR (rowAt x0 x1 x2 x3 i) k := by
  rw [val_main_v56_apply, v55_at, Ideal.hostUnary_exp_def]
  rfl

/-- qz · row. -/
private theorem v57_at (i : Fin 500000) (k : Fin 16) :
    val_main_v57 (F := Ideal) x0 x1 x2 x3 (ix2 i k)
      = Spec.qzR (rowAt x0 x1 x2 x3 i) k * rowAt x0 x1 x2 x3 i k := by
  rw [val_main_v57_apply, v56_at]
  rfl

/-- Σ qz · row, from the word 0. -/
private theorem v58_at (i : Fin 500000) :
    val_main_v58 (F := Ideal) x0 x1 x2 x3 (ix1 i)
      = Spec.c0 + ∑ k : Fin 16, Spec.qzR (rowAt x0 x1 x2 x3 i) k * rowAt x0 x1 x2 x3 i k := by
  rw [val_main_v58_apply, val_main_cst_11_apply]
  refine congrArg (_ + ·) (Finset.sum_congr rfl fun k _ => ?_)
  have e : idx_main_v58 (ix1 i) k = ix2 i k :=
    funext fun a => Fin.ext (by match a with | ⟨0, _⟩ => rfl | ⟨1, _⟩ => rfl)
  rw [e, v57_at]

/-- qz · lsm. -/
private theorem v59_at (i : Fin 500000) (k : Fin 16) :
    val_main_v59 (F := Ideal) x0 x1 x2 x3 (ix2 i k)
      = Spec.qzR (rowAt x0 x1 x2 x3 i) k * Spec.lsmR (rowAt x0 x1 x2 x3 i) k := by
  rw [val_main_v59_apply, v56_at, v55_at]
  rfl

/-- Σ qz · lsm, from the word 0. -/
private theorem v60_at (i : Fin 500000) :
    val_main_v60 (F := Ideal) x0 x1 x2 x3 (ix1 i)
      = Spec.c0 + ∑ k : Fin 16, Spec.qzR (rowAt x0 x1 x2 x3 i) k * Spec.lsmR (rowAt x0 x1 x2 x3 i) k := by
  rw [val_main_v60_apply, val_main_cst_12_apply]
  refine congrArg (_ + ·) (Finset.sum_congr rfl fun k _ => ?_)
  have e : idx_main_v60 (ix1 i) k = ix2 i k :=
    funext fun a => Fin.ext (by match a with | ⟨0, _⟩ => rfl | ⟨1, _⟩ => rfl)
  rw [e, v59_at]

theorem q_of_cll (i : Fin 500000) (k : Fin 16) :
    val_main_v56 (F := Ideal) x0 x1 x2 x3 (ix2 i k)
      = Spec.qzR (fun k' => val_main_v54 (F := Ideal) x0 x1 x2 x3 (ix2 i k')) k :=
  v56_at x0 x1 x2 x3 i k

theorem v_of_cll (i : Fin 500000) :
    val_main_v61 (F := Ideal) x0 x1 x2 x3 (ix1 i)
      = Spec.vqR (fun k' => val_main_v54 (F := Ideal) x0 x1 x2 x3 (ix2 i k')) := by
  rw [val_main_v61_apply, v58_at, v60_at]
  rfl

end Cert.ReferenceIdeal.RefValue

end
-- ==== Proof.RefValue.lean ====
/-
  The reference program's two results as formulas, for index words in range: the softmax and the value of each task's row of sums.
-/
import proofs.«115153_j22256520528420_1_alg».proof.Proof.RefCll
import proofs.«115153_j22256520528420_1_alg».proof.Proof.RefSoftmax

noncomputable section

open scoped BigOperators
open Idealize.ShloMosaic Idealize.ShloMosaic.TcCoe Idealize.SL.Sem Idealize.ShloMosaic.ValueIdx
open Cert.ReferenceIdeal Cert.ReferenceIdeal.Gen Cert.ReferenceIdeal.ReadP

namespace Cert.ReferenceIdeal.RefValue

variable (x0 : S5000.Idx → EReal) (x1 x2 x3 : S5000000.Idx → BitVec 32)
variable (I : Fin 5000000 → Fin 500000) (J : Fin 5000000 → Fin 5000) (Y : Fin 5000000 → Fin 16)

theorem ref_q (hI : ∀ n, x1 (ix1 n) = BitVec.ofNat 32 (I n).val) (hJ : ∀ n, x2 (ix1 n) = BitVec.ofNat 32 (J n).val)
    (hY : ∀ n, x3 (ix1 n) = BitVec.ofNat 32 (Y n).val) (i : Fin 500000) (k : Fin 16) :
    val_main_v56 (F := Ideal) x0 x1 x2 x3 (ix2 i k) = Spec.refQ (fun j => x0 (ix1 j)) I J Y i k := by
  rw [q_of_cll, show (fun k' => val_main_v54 (F := Ideal) x0 x1 x2 x3 (ix2 i k')) = Spec.cll (fun j => x0 (ix1 j)) I J Y i from
    funext fun k' => cll_eq x0 x1 x2 x3 I J Y hI hJ hY i k']
  rfl

theorem ref_v (hI : ∀ n, x1 (ix1 n) = BitVec.ofNat 32 (I n).val) (hJ : ∀ n, x2 (ix1 n) = BitVec.ofNat 32 (J n).val)
    (hY : ∀ n, x3 (ix1 n) = BitVec.ofNat 32 (Y n).val) (i : Fin 500000) :
    val_main_v61 (F := Ideal) x0 x1 x2 x3 (ix1 i) = Spec.refV (fun j => x0 (ix1 j)) I J Y i := by
  rw [v_of_cll, show (fun k' => val_main_v54 (F := Ideal) x0 x1 x2 x3 (ix2 i k')) = Spec.cll (fun j => x0 (ix1 j)) I J Y i from
    funext fun k' => cll_eq x0 x1 x2 x3 I J Y hI hJ hY i k']
  rfl

end Cert.ReferenceIdeal.RefValue

end
-- ==== Proof.Sigmoid.lean ====
/-
  One worker's numbers at a finite score r. With s = 1 / (1 + exp (-r)) and t = 1 / (1 + exp r) one has s + t = 1, so each row of
  the reference's matrix (s · [k = k'] + t / 16) / 2 sums to 1 / 2, and the logarithm of the normalised entry is log (t / 16) off
  the diagonal and log (s + t / 16) on it: the kernel's base, and base + diff.

  Every quantity here is the coercion of a real: the constant words denote 0, 1, 2, 16 and 1/16; 1 + exp (∓r) is a positive
  real, so each division is a product with a real reciprocal; and every logarithm is taken of a positive real, where the
  extended-real logarithm is the coercion of the real one. The algebra is then done over the reals.
-/
import proofs.«115153_j22256520528420_1_alg».proof.Proof.Spec

noncomputable section

open scoped BigOperators
open Idealize.ShloMosaic

namespace Cert.Sigmoid

/-! ## The constant words as reals -/

theorem c0_eq : Spec.c0 = ((0 : ℝ) : EReal) := by
  simp [Ideal.ofBits, Ideal.ieee]
theorem c1_eq : Spec.c1 = ((1 : ℝ) : EReal) := by
  simp [Ideal.ofBits, Ideal.ieee, -EReal.coe_mul]; norm_num
theorem c2_eq : Spec.c2 = ((2 : ℝ) : EReal) := by
  simp [Ideal.ofBits, Ideal.ieee, -EReal.coe_mul]; norm_num
theorem c16_eq : Spec.c16 = ((16 : ℝ) : EReal) := by
  simp [Ideal.ofBits, Ideal.ieee, -EReal.coe_mul]; norm_num
theorem c116_eq : Spec.c116 = ((1 / 16 : ℝ) : EReal) := by
  simp [Ideal.ofBits, Ideal.ieee, -EReal.coe_mul]; norm_num

/-! ## Two small tools: a sum of coercions, and the logarithm of a positive real -/

/-- A finite sum of coercions of reals is the coercion of the real sum. -/
theorem coe_sum {ι : Type} (S : Finset ι) (f : ι → ℝ) :
    (∑ i ∈ S, ((f i : ℝ) : EReal)) = ((∑ i ∈ S, f i : ℝ) : EReal) := by
  classical
  induction S using Finset.induction_on with
  | empty => simp
  | insert a S ha ih => rw [Finset.sum_insert ha, Finset.sum_insert ha, ih, EReal.coe_add]

/-- At a positive real the extended-real logarithm is the coercion of the real logarithm. -/
theorem log_coe_pos {x : ℝ} (h : 0 < x) : Ideal.log (x : EReal) = ((Real.log x : ℝ) : EReal) := by
  rw [Ideal.log_coe, if_neg (not_le.mpr h)]

/-- Division by the word for 16 is real division by 16. -/
theorem div16 (x : ℝ) : Ideal.div (x : EReal) Spec.c16 = ((x / 16 : ℝ) : EReal) := by
  rw [c16_eq, Ideal.div_coe (by norm_num : (16 : ℝ) ≠ 0), ← EReal.coe_mul, mul_one_div]

/-! ## The two sigmoids -/

/-- s = 1 / (1 + exp (-r)) and t = 1 / (1 + exp r). -/
def s (r : ℝ) : ℝ := 1 / (1 + Real.exp (-r))
def t (r : ℝ) : ℝ := 1 / (1 + Real.exp r)

theorem s_pos (r : ℝ) : 0 < s r := by unfold s; positivity
theorem t_pos (r : ℝ) : 0 < t r := by unfold t; positivity

/-- 1 / (1 + e⁻ʳ) = eʳ / (1 + eʳ), so the two sigmoids add up to one. -/
theorem s_add_t (r : ℝ) : s r + t r = 1 := by
  unfold s t
  rw [Real.exp_neg]
  have h := Real.exp_pos r
  field_simp
  ring

theorem sigE_coe (r : ℝ) : Spec.sigE (r : EReal) = ((s r : ℝ) : EReal) := by
  have hne : (1 + Real.exp (-r)) ≠ 0 := by positivity
  unfold Spec.sigE s
  rw [c1_eq, ← EReal.coe_neg, Ideal.exp_coe, ← EReal.coe_add, Ideal.div_coe hne, ← EReal.coe_mul, one_mul]

theorem nsigE_coe (r : ℝ) : Spec.nsigE (r : EReal) = ((t r : ℝ) : EReal) := by
  have hne : (1 + Real.exp r) ≠ 0 := by positivity
  unfold Spec.nsigE t
  rw [c1_eq, neg_neg, Ideal.exp_coe, ← EReal.coe_add, Ideal.div_coe hne, ← EReal.coe_mul, one_mul]

/-! ## The kernel's pair -/

theorem baseE_coe (r : ℝ) : Spec.baseE (r : EReal) = ((Real.log (t r / 16) : ℝ) : EReal) := by
  have hpos : 0 < t r / 16 := div_pos (t_pos r) (by norm_num)
  rw [Spec.baseE, nsigE_coe, div16, log_coe_pos hpos]

theorem diffE_coe (r : ℝ) :
    Spec.diffE (r : EReal) = ((Real.log (s r + t r / 16) - Real.log (t r / 16) : ℝ) : EReal) := by
  have hpos : 0 < s r + t r / 16 := add_pos (s_pos r) (div_pos (t_pos r) (by norm_num))
  rw [Spec.diffE, baseE_coe, sigE_coe, nsigE_coe, div16, ← EReal.coe_add, log_coe_pos hpos, ← EReal.coe_sub]

/-! ## The reference's matrix -/

theorem eyeE_coe (k k' : Fin 16) : Spec.eyeE k k' = (((if k = k' then 1 else 0 : ℝ)) : EReal) := by
  unfold Spec.eyeE
  split_ifs <;> simp

theorem thetaE_coe (r : ℝ) (k k' : Fin 16) :
    Spec.thetaE (r : EReal) k k' = (((s r * (if k = k' then 1 else 0) + t r * (1 / 16)) / 2 : ℝ) : EReal) := by
  rw [Spec.thetaE, sigE_coe, nsigE_coe, eyeE_coe, c116_eq, c2_eq, ← EReal.coe_mul, ← EReal.coe_mul, ← EReal.coe_add,
    Ideal.div_coe (by norm_num : (2 : ℝ) ≠ 0), ← EReal.coe_mul, mul_one_div]

/-- A row has one diagonal entry and sixteen entries t / 16 in all, each halved: the row sums to (s + t) / 2 = 1 / 2. -/
theorem rowsum (r : ℝ) (k : Fin 16) :
    Spec.c0 + ∑ k'' : Fin 16, Spec.thetaE (r : EReal) k k'' = (((1 / 2 : ℝ)) : EReal) := by
  simp_rw [thetaE_coe]
  rw [coe_sum, c0_eq, ← EReal.coe_add]
  congr 1
  rw [zero_add, ← Finset.sum_div, Finset.sum_add_distrib, Finset.sum_const, Finset.card_univ, Fintype.card_fin]
  simp only [mul_ite, mul_one, mul_zero, Finset.sum_ite_eq, Finset.mem_univ, if_true, nsmul_eq_mul]
  have h : s r = 1 - t r := by linarith [s_add_t r]
  rw [h]
  push_cast
  ring

/-- The normalised entry is twice the entry, s · [k = k'] + t / 16, a positive real. -/
theorem logThetaE_coe (r : ℝ) (k k' : Fin 16) :
    Spec.logThetaE (r : EReal) k k' = ((Real.log (s r * (if k = k' then 1 else 0) + t r / 16) : ℝ) : EReal) := by
  have hpos : 0 < s r * (if k = k' then 1 else 0) + t r / 16 := by
    split_ifs <;> nlinarith [s_pos r, t_pos r]
  have h2 : (s r * (if k = k' then 1 else 0) + t r * (1 / 16)) / 2 * (1 / (1 / 2))
      = s r * (if k = k' then 1 else 0) + t r / 16 := by ring
  rw [Spec.logThetaE, rowsum, thetaE_coe, Ideal.div_coe (by norm_num : (1 / 2 : ℝ) ≠ 0), ← EReal.coe_mul, h2,
    log_coe_pos hpos]

/-- At a finite score the kernel's pair is a pair of reals b, d, and the reference's log matrix is b off the diagonal and
    b + d on it. -/
theorem pair (r : ℝ) : ∃ b d : ℝ, Spec.baseE (r : EReal) = (b : EReal) ∧ Spec.diffE (r : EReal) = (d : EReal)
    ∧ ∀ k k' : Fin 16, Spec.logThetaE (r : EReal) k k' = ((b + if k = k' then d else 0 : ℝ) : EReal) := by
  refine ⟨Real.log (t r / 16), Real.log (s r + t r / 16) - Real.log (t r / 16), baseE_coe r, diffE_coe r, ?_⟩
  intro k k'
  rw [logThetaE_coe]
  congr 1
  split_ifs with h
  · rw [mul_one]; ring
  · rw [mul_zero, zero_add, add_zero]

end Cert.Sigmoid

end
-- ==== Proof.Softmax.lean ====
/-
  One task's row. Adding a constant B to every entry of a row D does not change its softmax (the maximum moves by B too), and
  because the softmax sums to one, Σ qz · (B + D) − Σ qz · log qz = B + Σ qz · (D − log qz).

  Every quantity of a row of reals is a real: with M the maximum of D and S = Σ exp (D − M) > 0, the shifted row is D − M on
  both sides, the logarithm of the sum is log S, the log-softmax is lq = D − M − log S and the softmax is q = exp lq,
  which sums to S / S = 1. Both programs' values are then coercions of real expressions, equal by the algebra above.
-/
import proofs.«115153_j22256520528420_1_alg».proof.Proof.Spec

noncomputable section

open scoped BigOperators
open Idealize.ShloMosaic

namespace Cert.Softmax

/-! ## The two words the row formulas spell -/

theorem c0_eq : Spec.c0 = 0 := Ideal.ofBits_zero_f32

theorem cNegInf_eq : Spec.cNegInf = ⊥ := by
  simp [Ideal.ofBits, Ideal.ieee]

/-! ## Coercions through max and through a finite sum -/

theorem coe_max (a b : ℝ) : ((max a b : ℝ) : EReal) = max (a : EReal) (b : EReal) :=
  EReal.coe_strictMono.monotone.map_max

theorem coe_sum (s : Finset (Fin 16)) (g : Fin 16 → ℝ) :
    ∑ k ∈ s, ((g k : ℝ) : EReal) = ((∑ k ∈ s, g k : ℝ) : EReal) := by
  classical
  induction s using Finset.induction_on with
  | empty => simp
  | insert a s ha ih => rw [Finset.sum_insert ha, Finset.sum_insert ha, ih, EReal.coe_add]

/-- A fold of max from −∞ over a nonempty set of reals is the coercion of their maximum. -/
theorem fold_max_coe (g : Fin 16 → ℝ) (s : Finset (Fin 16)) (hs : s.Nonempty) :
    s.fold max (⊥ : EReal) (fun k => (g k : EReal)) = ((s.sup' hs g : ℝ) : EReal) := by
  induction hs using Finset.Nonempty.cons_induction with
  | singleton a => rw [Finset.fold_singleton, Finset.sup'_singleton, max_eq_left bot_le]
  | cons a s ha hs ih => rw [Finset.fold_cons, ih, Finset.sup'_cons hs, ← coe_max]

/-- The maximum of B + g is B + the maximum of g. -/
theorem sup'_shift (B : ℝ) (g : Fin 16 → ℝ) (s : Finset (Fin 16)) (hs : s.Nonempty) :
    s.sup' hs (fun k => B + g k) = B + s.sup' hs g := by
  induction hs using Finset.Nonempty.cons_induction with
  | singleton a => rw [Finset.sup'_singleton, Finset.sup'_singleton]
  | cons a s ha hs ih =>
    rw [Finset.sup'_cons hs, Finset.sup'_cons hs, ih]
    exact max_add_add_left B (g a) (s.sup' hs g)

/-! ## The real quantities of a row -/

/-- The row's maximum. -/
def M (D : Fin 16 → ℝ) : ℝ := Finset.univ.sup' Finset.univ_nonempty D
/-- The sum of the exponentials of the shifted row. -/
def S (D : Fin 16 → ℝ) : ℝ := ∑ k : Fin 16, Real.exp (D k - M D)
/-- The log-softmax. -/
def lq (D : Fin 16 → ℝ) (k : Fin 16) : ℝ := D k - M D - Real.log (S D)
/-- The softmax. -/
def q (D : Fin 16 → ℝ) (k : Fin 16) : ℝ := Real.exp (lq D k)

theorem S_pos (D : Fin 16 → ℝ) : 0 < S D :=
  Finset.sum_pos (fun k _ => Real.exp_pos _) Finset.univ_nonempty

/-- The softmax sums to one. -/
theorem sum_q (D : Fin 16 → ℝ) : ∑ k : Fin 16, q D k = 1 := by
  have h : ∀ k : Fin 16, q D k = Real.exp (D k - M D) / S D := fun k => by
    unfold q lq; rw [Real.exp_sub, Real.exp_log (S_pos D)]
  rw [Finset.sum_congr rfl fun k _ => h k, ← Finset.sum_div]
  exact div_self (S_pos D).ne'

/-! ## The row maximum -/

theorem rowMax_coe (D : Fin 16 → ℝ) : Spec.rowMax (fun k => (D k : EReal)) = (M D : EReal) := by
  unfold Spec.rowMax; rw [cNegInf_eq]; exact fold_max_coe D _ _

theorem rowMax_shift (B : ℝ) (D : Fin 16 → ℝ) :
    Spec.rowMax (fun k => ((B + D k : ℝ) : EReal)) = ((B + M D : ℝ) : EReal) := by
  unfold Spec.rowMax; rw [cNegInf_eq, fold_max_coe (fun k => B + D k) _ Finset.univ_nonempty, sup'_shift]; rfl

/-! ## The kernel's row -/

theorem shK_coe (D : Fin 16 → ℝ) (k : Fin 16) :
    Spec.shK (fun k => (D k : EReal)) k = ((D k - M D : ℝ) : EReal) := by
  unfold Spec.shK; rw [rowMax_coe, EReal.coe_sub]

theorem log_S (D : Fin 16 → ℝ) : Ideal.log ((S D : ℝ) : EReal) = ((Real.log (S D) : ℝ) : EReal) := by
  rw [Ideal.log_coe, if_neg (not_le.mpr (S_pos D))]

theorem lseK_coe (D : Fin 16 → ℝ) : Spec.lseK (fun k => (D k : EReal)) = ((Real.log (S D) : ℝ) : EReal) := by
  unfold Spec.lseK
  rw [Finset.sum_congr rfl fun k _ => by rw [shK_coe, Ideal.exp_coe], coe_sum]
  exact log_S D

theorem lqK_coe (D : Fin 16 → ℝ) (k : Fin 16) :
    Spec.lqK (fun k => (D k : EReal)) k = ((lq D k : ℝ) : EReal) := by
  unfold Spec.lqK lq; rw [shK_coe, lseK_coe, ← EReal.coe_sub]

theorem qzK_coe (D : Fin 16 → ℝ) (k : Fin 16) :
    Spec.qzK (fun k => (D k : EReal)) k = ((q D k : ℝ) : EReal) := by
  unfold Spec.qzK q; rw [lqK_coe, Ideal.exp_coe]

/-! ## The reference's row B + D -/

theorem shR_coe (B : ℝ) (D : Fin 16 → ℝ) (k : Fin 16) :
    Spec.shR (fun k => ((B + D k : ℝ) : EReal)) k = ((D k - M D : ℝ) : EReal) := by
  unfold Spec.shR Spec.mR
  rw [rowMax_shift, cNegInf_eq, max_eq_right bot_le, ← EReal.coe_sub]
  congr 1; ring

theorem lseR_coe (B : ℝ) (D : Fin 16 → ℝ) :
    Spec.lseR (fun k => ((B + D k : ℝ) : EReal)) = ((Real.log (S D) : ℝ) : EReal) := by
  unfold Spec.lseR
  rw [Finset.sum_congr rfl fun k _ => by rw [shR_coe, Ideal.exp_coe], coe_sum, c0_eq, zero_add]
  exact log_S D

theorem lsmR_coe (B : ℝ) (D : Fin 16 → ℝ) (k : Fin 16) :
    Spec.lsmR (fun k => ((B + D k : ℝ) : EReal)) k = ((lq D k : ℝ) : EReal) := by
  unfold Spec.lsmR lq; rw [shR_coe, lseR_coe, ← EReal.coe_sub]

theorem qzR_coe (B : ℝ) (D : Fin 16 → ℝ) (k : Fin 16) :
    Spec.qzR (fun k => ((B + D k : ℝ) : EReal)) k = ((q D k : ℝ) : EReal) := by
  unfold Spec.qzR q; rw [lsmR_coe, Ideal.exp_coe]

/-! ## The two results -/

/-- The kernel's softmax of the row D is the reference's softmax of the row B + D, entry by entry. -/
theorem qz_eq (B : ℝ) (D : Fin 16 → ℝ) (k : Fin 16) :
    Spec.qzK (fun k => (D k : EReal)) k = Spec.qzR (fun k => ((B + D k : ℝ) : EReal)) k := by
  rw [qzK_coe, qzR_coe]

/-- The kernel's value B + Σ qz · (D − log qz) is the reference's Σ qz · (B + D) − Σ qz · log qz. -/
theorem vq_eq (B : ℝ) (D : Fin 16 → ℝ) :
    Spec.vqK (fun k => (D k : EReal)) (B : EReal) = Spec.vqR (fun k => ((B + D k : ℝ) : EReal)) := by
  have hK : Spec.vqK (fun k => (D k : EReal)) (B : EReal)
      = ((B + ∑ k : Fin 16, q D k * (D k - lq D k) : ℝ) : EReal) := by
    unfold Spec.vqK
    rw [Finset.sum_congr rfl fun k _ => by
      rw [qzK_coe, lqK_coe, ← EReal.coe_sub, ← EReal.coe_mul], coe_sum, ← EReal.coe_add]
  have hR : Spec.vqR (fun k => ((B + D k : ℝ) : EReal))
      = (((∑ k : Fin 16, q D k * (B + D k)) - ∑ k : Fin 16, q D k * lq D k : ℝ) : EReal) := by
    have e1 : ∀ k : Fin 16, Spec.qzR (fun k => ((B + D k : ℝ) : EReal)) k * ((B + D k : ℝ) : EReal)
        = ((q D k * (B + D k) : ℝ) : EReal) := fun k => by rw [qzR_coe, ← EReal.coe_mul]
    have e2 : ∀ k : Fin 16, Spec.qzR (fun k => ((B + D k : ℝ) : EReal)) k * Spec.lsmR (fun k => ((B + D k : ℝ) : EReal)) k
        = ((q D k * lq D k : ℝ) : EReal) := fun k => by rw [qzR_coe, lsmR_coe, ← EReal.coe_mul]
    unfold Spec.vqR
    rw [Finset.sum_congr rfl fun k _ => e1 k, Finset.sum_congr rfl fun k _ => e2 k,
      coe_sum, coe_sum, c0_eq, zero_add, zero_add, ← EReal.coe_sub]
  rw [hK, hR]
  congr 1
  have h1 : ∑ k : Fin 16, q D k * (B + D k) = B + ∑ k : Fin 16, q D k * D k := by
    rw [Finset.sum_congr rfl fun k _ => mul_add (q D k) B (D k), Finset.sum_add_distrib, ← Finset.sum_mul, sum_q, one_mul]
  have h2 : ∑ k : Fin 16, q D k * (D k - lq D k) = (∑ k : Fin 16, q D k * D k) - ∑ k : Fin 16, q D k * lq D k := by
    rw [Finset.sum_congr rfl fun k _ => mul_sub (q D k) (D k) (lq D k), Finset.sum_sub_distrib]
  rw [h1, h2]; ring

end Cert.Softmax

end
-- ==== Proof.Regroup.lean ====
/-
  One task's sums. With every worker's pair real (b j, d j) and the reference's log matrix b j + d j · [k = k'], the reference's
  sum over a task's observations splits into the sum of b over them plus the sum of d over those whose class is k: the
  kernel's two sums. All three are finite sums of reals.
-/
import proofs.«115153_j22256520528420_1_alg».proof.Proof.Spec
import proofs.«115153_j22256520528420_1_alg».proof.Proof.Sigmoid
import proofs.«115153_j22256520528420_1_alg».proof.Proof.Softmax

noncomputable section

open scoped BigOperators
open Idealize.ShloMosaic

namespace Cert.Regroup

/-- The embedding of the reals into the extended reals goes through a finite sum. -/
private theorem coe_sum {ι : Type} (s : Finset ι) (f : ι → ℝ) :
    ∑ n ∈ s, ((f n : ℝ) : EReal) = ((∑ n ∈ s, f n : ℝ) : EReal) := by
  classical
  induction s using Finset.induction_on with
  | empty => simp
  | insert a s ha ih => rw [Finset.sum_insert ha, Finset.sum_insert ha, ih, EReal.coe_add]

variable (x : Fin 5000 → EReal) (I : Fin 5000000 → Fin 500000) (J : Fin 5000000 → Fin 5000) (Y : Fin 5000000 → Fin 16)

/-- For finite scores the three sums of task i are real, and the reference's is the kernel's two added. -/
theorem sums (hx : ∀ j, ∃ r : ℝ, x j = (r : EReal)) (i : Fin 500000) :
    ∃ (B : ℝ) (D : Fin 16 → ℝ), Spec.bsum x I J i = (B : EReal) ∧ (∀ k, Spec.dsum x I J Y i k = (D k : EReal))
      ∧ ∀ k, Spec.cll x I J Y i k = ((B + D k : ℝ) : EReal) := by
  -- the real scores, and each worker's real pair with its log matrix
  choose r hr using hx
  choose b d hb hd hl using fun j => Sigmoid.pair (r j)
  have hB : ∀ j, Spec.baseE (x j) = ((b j : ℝ) : EReal) := fun j => by rw [hr j]; exact hb j
  have hD : ∀ j, Spec.diffE (x j) = ((d j : ℝ) : EReal) := fun j => by rw [hr j]; exact hd j
  have hL : ∀ j k k', Spec.logThetaE (x j) k k' = ((b j + if k = k' then d j else 0 : ℝ) : EReal) :=
    fun j k k' => by rw [hr j]; exact hl j k k'
  have hc0 : Spec.c0 = 0 := Ideal.ofBits_zero_f32
  refine ⟨∑ n ∈ Finset.univ.filter (fun n => I n = i), b (J n),
    fun k => ∑ n ∈ Finset.univ.filter (fun n => I n = i ∧ Y n = k), d (J n), ?_, fun k => ?_, fun k => ?_⟩
  · -- the sum of base
    unfold Spec.bsum
    rw [hc0, zero_add, Finset.sum_congr rfl (fun n _ => hB (J n))]
    exact coe_sum _ _
  · -- the sum of diff over the observations of class k
    unfold Spec.dsum
    rw [hc0, zero_add, Finset.sum_congr rfl (fun n _ => hD (J n))]
    exact coe_sum _ _
  · -- the reference's sum: b over all the task's observations, d over those with Y n = k
    unfold Spec.cll
    rw [hc0, zero_add, Finset.sum_congr rfl (fun n _ => hL (J n) k (Y n)), coe_sum,
      Finset.sum_add_distrib, ← Finset.sum_filter, Finset.filter_filter]
    have hfilter : Finset.univ.filter (fun n => I n = i ∧ k = Y n)
        = Finset.univ.filter (fun n => I n = i ∧ Y n = k) := by
      ext n
      simp only [Finset.mem_filter, Finset.mem_univ, true_and]
      exact ⟨fun h => ⟨h.1, h.2.symm⟩, fun h => ⟨h.1, h.2.symm⟩⟩
    rw [hfilter]

/-- The two programs' results agree, for finite scores, at every task and class. -/
theorem results_eq (hx : ∀ j, ∃ r : ℝ, x j = (r : EReal)) :
    (∀ i k, Spec.kernelQ x I J Y i k = Spec.refQ x I J Y i k) ∧ ∀ i, Spec.kernelV x I J Y i = Spec.refV x I J Y i := by
  refine ⟨fun i k => ?_, fun i => ?_⟩
  · obtain ⟨B, D, _, hd, hc⟩ := sums x I J Y hx i
    unfold Spec.kernelQ Spec.refQ
    rw [show Spec.dsum x I J Y i = fun k => (D k : EReal) from funext hd,
      show Spec.cll x I J Y i = fun k => ((B + D k : ℝ) : EReal) from funext hc]
    exact Softmax.qz_eq B D k
  · obtain ⟨B, D, hb, hd, hc⟩ := sums x I J Y hx i
    unfold Spec.kernelV Spec.refV
    rw [show Spec.dsum x I J Y i = fun k => (D k : EReal) from funext hd,
      show Spec.cll x I J Y i = fun k => ((B + D k : ℝ) : EReal) from funext hc, hb]
    exact Softmax.vq_eq B D

end Cert.Regroup

end
-- ==== Proof.PreDecode.lean ====
/-
  What the precondition says. The printed predicate is the conjunction of four all-reductions: every worker score has absolute
  value below +∞ (so it is a real number), every task word lies in [0, 500000), every worker word in [0, 5000), every class word in
  [0, 16), compared as signed words. A signed word in [0, N) with N small is the word written from a number below N.
-/
import proofs.«115153_j22256520528420_1_alg».proof.Proof.Gen.Pre_finite_inputs
import Idealize.ShloMosaic.PureOps.Ideal.Laws
import Idealize.ShloMosaic.Lib.ValueIdx
import Idealize.ShloMosaic.Lib.ReduceAll
import Idealize.ShloMosaic.Lib.StableHlo.Predicate

noncomputable section

open Idealize.ShloMosaic Idealize.ShloMosaic.ValueIdx

namespace Cert.PreDecode

open Cert.Pre_finite_inputs

/-- The rank-0 shape has one index. -/
instance : Subsingleton S_.Idx := ⟨fun a b => funext fun d => d.elim0⟩

/-- A word that is at least 0 and below N as a signed word, N below 2³¹, has its sign bit clear and its value below N. -/
theorem word_in_range (w : BitVec 32) (N : ℕ) (hN : N < 2 ^ 31) (h0 : IntOp.cmpi .sge w 0#32 = 1#1)
    (h1 : IntOp.cmpi .slt w (BitVec.ofNat 32 N) = 1#1) : w.toNat < N := by
  simp only [IntOp.cmpi, StableHlo.Predicate.ofBool_eq_one_iff, BitVec.sle, BitVec.slt, decide_eq_true_eq] at h0 h1
  rw [StableHlo.Predicate.toInt_ofNat_small N hN] at h1
  rw [show (0#32 : BitVec 32).toInt = 0 from by decide] at h0
  rw [BitVec.toInt_eq_toNat_cond] at h0 h1
  have := w.isLt
  split at h0 <;> omega

/-- A 32-bit word is the word written from its own value. -/
theorem word_eq_ofNat (w : BitVec 32) : w = BitVec.ofNat 32 w.toNat :=
  BitVec.eq_of_toNat_eq (by rw [BitVec.toNat_ofNat, Nat.mod_eq_of_lt w.isLt])

/-- An extended real whose absolute value max(x, −x) is below +∞ is a real number: at −∞ and at +∞ the maximum is +∞. -/
theorem real_of_abs_lt_top (x : EReal) (hx : max x (-x) < ⊤) : ∃ r : ℝ, x = (r : EReal) := by
  induction x using EReal.rec with
  | bot => simp at hx
  | coe r => exact ⟨r, rfl⟩
  | top => simp at hx

/-- The bit pattern 0x7F800000 denotes +∞. -/
theorem inf_bits : Ideal.ofBits .f32 0x7F800000#32 = ⊤ := by simp [Ideal.ofBits, Ideal.ieee]

section
variable [Cert.Pre_finite_inputs.Facts]
open Cert.Pre_finite_inputs.Facts

/-- One all-reduction of a range check, read at an element: when "0 ≤ x[n] and x[n] < N, signed, for every n" reduces to 1,
    the value of x[n] is below N. -/
theorem range_of_all (x : S5000000.Idx → BitVec 32) (N : ℕ) (hN : N < 2 ^ 31)
    (e : Host.reduce IntOp.andi
        (andi (cmpi .sge x (broadcastInDim S5000000 ![] bcast_S_S5000000 (constantI S_ 32 0#32)))
          (cmpi .slt x (broadcastInDim S5000000 ![] bcast_S_S5000000 (constantI S_ 32 (BitVec.ofNat 32 N)))))
        (constantI S_ 1 1#1) reducesTo_S5000000_S_d0 h_S_ ix0 = 1#1) (n : Fin 5000000) :
    (x (ix1 n)).toNat < N := by
  have hn := Host.reduce_andi_all _ _ _ _ ix0 e (ix1 n)
  have hn' : IntOp.andi (IntOp.cmpi .sge (x (ix1 n)) 0#32) (IntOp.cmpi .slt (x (ix1 n)) (BitVec.ofNat 32 N)) = 1#1 := hn
  obtain ⟨a, b⟩ := IntOp.andi_eq_one.1 hn'
  exact word_in_range _ N hN a b

/-- The all-reduction of the finiteness check, read at an element: the score is a real number. -/
theorem real_of_all (x : S5000.Idx → EReal)
    (e : Host.reduce IntOp.andi
        (cmpf (F := Ideal) .olt (Host.absf x) (broadcastInDim S5000 ![] bcast_S_S5000 (constant S_ .f32 0x7F800000#32)))
        (constantI S_ 1 1#1) reducesTo_S5000_S_d0 h_S_ ix0 = 1#1) (j : Fin 5000) :
    ∃ r : ℝ, x (ix1 j) = (r : EReal) := by
  have hj := Host.reduce_andi_all _ _ _ _ ix0 e (ix1 j)
  have hj' : Ideal.cmp .olt (max (x (ix1 j)) (-(x (ix1 j)))) (Ideal.ofBits .f32 0x7F800000#32) = 1#1 := hj
  rw [inf_bits] at hj'
  simp only [Ideal.cmp, StableHlo.Predicate.ofBool_eq_one_iff, decide_eq_true_eq] at hj'
  exact real_of_abs_lt_top _ hj'

end

/-- Under the precondition every score is real and the three index arrays are words written from numbers in range. -/
theorem decode [Cert.Pre_finite_inputs.Facts] (x0 : S5000.Idx → EReal) (x1 x2 x3 : S5000000.Idx → BitVec 32)
    (h : Cert.Pre_finite_inputs.fn (F := Ideal) x0 x1 x2 x3 = fun _ => 1#1) :
    (∀ j : Fin 5000, ∃ r : ℝ, x0 (ix1 j) = (r : EReal))
    ∧ ∃ (I : Fin 5000000 → Fin 500000) (J : Fin 5000000 → Fin 5000) (Y : Fin 5000000 → Fin 16),
        (∀ n, x1 (ix1 n) = BitVec.ofNat 32 (I n).val) ∧ (∀ n, x2 (ix1 n) = BitVec.ofNat 32 (J n).val)
        ∧ ∀ n, x3 (ix1 n) = BitVec.ofNat 32 (Y n).val := by
  have e := congrFun h ix0
  dsimp only [fn, fn_part1] at e
  have e' : IntOp.andi (IntOp.andi (IntOp.andi _ _) _) _ = 1#1 := e
  rw [IntOp.andi_eq_one, IntOp.andi_eq_one, IntOp.andi_eq_one] at e'
  obtain ⟨⟨⟨eA, eB⟩, eC⟩, eD⟩ := e'
  have hB := range_of_all x1 500000 (by norm_num) eB
  have hC := range_of_all x2 5000 (by norm_num) eC
  have hD := range_of_all x3 16 (by norm_num) eD
  exact ⟨real_of_all x0 eA,
    fun n => ⟨_, hB n⟩, fun n => ⟨_, hC n⟩, fun n => ⟨_, hD n⟩,
    fun n => word_eq_ofNat _, fun n => word_eq_ofNat _, fun n => word_eq_ofNat _⟩

end Cert.PreDecode

end
-- ==== Proof.lean ====
/-
  The certificate. Under the precondition (finite worker scores; task, worker and class words in range) the kernel program and
  the reference program, run from memories that agree on the four arguments, both terminate and end with equal results.

  The kernel program's run ends with its two results at the last boundary's contents, which are, entry by entry, the softmax of
  each task's row of diff-sums and its base-sum plus Σ qz · (d − log qz). The reference's run ends with the softmax of each task's
  row of summed log-matrix entries and Σ qz · row − Σ qz · log qz. For finite scores sigmoid (x) + sigmoid (−x) = 1 makes the log
  matrix base off the diagonal and base + diff on it, so the reference's row is the kernel's row plus the task's base-sum; the
  softmax does not see the shift, and since it sums to one the two values agree.
  The frames are the generated ones for the two kernel programs; the reference's frame is its run with the results dropped. The
  ideal pass rewrote nothing, so there is nothing to preserve.
-/
import proofs.«115153_j22256520528420_1_alg».proof.Defs
import proofs.«115153_j22256520528420_1_alg».proof.Proof.Gen.Kernel
import proofs.«115153_j22256520528420_1_alg».proof.Proof.Gen.Kernel.Frame
import proofs.«115153_j22256520528420_1_alg».proof.Proof.Gen.KernelIdeal
import proofs.«115153_j22256520528420_1_alg».proof.Proof.Gen.KernelIdeal.Frame
import proofs.«115153_j22256520528420_1_alg».proof.Proof.Gen.ReferenceIdeal
import proofs.«115153_j22256520528420_1_alg».proof.Proof.Gen.Pre_finite_inputs
import proofs.«115153_j22256520528420_1_alg».proof.Proof.KernelRun
import proofs.«115153_j22256520528420_1_alg».proof.Proof.KernelValue
import proofs.«115153_j22256520528420_1_alg».proof.Proof.RefRun
import proofs.«115153_j22256520528420_1_alg».proof.Proof.RefValue
import proofs.«115153_j22256520528420_1_alg».proof.Proof.Regroup
import proofs.«115153_j22256520528420_1_alg».proof.Proof.PreDecode
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.RefRun.run (F := Ideal) m ρ)

theorem preserves : Cert.preserves_Kernel_KernelIdeal := trivial

open Cert.KernelIdeal.Stage in
theorem algebraic : Cert.algebraic_KernelIdeal_ReferenceIdeal := by
  intro m ρ m' ρ' hpre hagree
  refine ⟨fun c => Cert.KernelIdeal.Gen.W7 m ρ c (Proc.devRef .tc Cert.KernelIdeal.main_v46),
    fun c => Cert.KernelIdeal.Gen.W7 m ρ c (Proc.devRef .tc Cert.KernelIdeal.main_v48),
    Cert.KernelIdeal.Gen.run_named m ρ, ?_⟩
  refine (θ_run Cert.ReferenceIdeal.defs _ _).mono (fun _ h c => ⟨(h c).1.trans ?_, (h c).2.1.trans ?_, (h c).2.2⟩)
    (Cert.ReferenceIdeal.RefRun.run (F := Ideal) m' ρ')
  · rw [(hagree c).1, (hagree c).2.1, (hagree c).2.2.1, (hagree c).2.2.2]
    obtain ⟨hx, I, J, Y, hI, hJ, hY⟩ := Cert.PreDecode.decode _ _ _ _ (hpre c)
    funext i
    rw [eq_ix2 i]
    exact (Cert.ReferenceIdeal.RefValue.ref_q _ _ _ _ I J Y hI hJ hY (i 0) (i 1)).trans
      (((Cert.Regroup.results_eq _ I J Y hx).1 (i 0) (i 1)).symm.trans (kernel_q m ρ I J Y c hI hJ hY (i 0) (i 1)).symm)
  · rw [(hagree c).1, (hagree c).2.1, (hagree c).2.2.1, (hagree c).2.2.2]
    obtain ⟨hx, I, J, Y, hI, hJ, hY⟩ := Cert.PreDecode.decode _ _ _ _ (hpre c)
    funext i
    rw [eq_ix1 i]
    exact (Cert.ReferenceIdeal.RefValue.ref_v _ _ _ _ I J Y hI hJ hY (i 0)).trans
      (((Cert.Regroup.results_eq _ I J Y hx).2 (i 0)).symm.trans (kernel_v m ρ I J Y c hI hJ hY (i 0)).symm)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
